-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_v63 : IVec S_ 1) (main_v65 : IVec S2x800000 1) (main_v67 : IVec S2x800000 1) : IVec S_ 1 :=
  let main_v68 : IVec S2x800000 1 := andi main_v65 main_v67
  let main_c_26 : IVec S_ 1 := constantI S_ 1 1#1
  let main_v69 : IVec S_ 1 := (fun x v => Host.reduce IntOp.andi x v reducesTo_S2x800000_S_d0_1 h_S_) main_v68 main_c_26
  let main_v70 : IVec S_ 1 := andi main_v63 main_v69
  main_v70

def fn_part3 {F : FTy → Type} [FloatOps F] (main_arg2 : IVec S2x800000 32) (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg2 main_v64
  let main_c_25 : IVec S_ 32 := constantI S_ 32 50000#32
  let main_v66 : IVec S2x800000 32 := broadcastInDim S2x800000 ![] bcast_S_S2x800000 main_c_25
  let main_v67 : IVec S2x800000 1 := cmpi .slt main_arg2 main_v66
  fn_part4 (F := F) main_v63 main_v65 main_v67

def fn_part2 {F : FTy → Type} [FloatOps F] (main_arg2 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_v48 main_v49 main_v50

def fn_part1 {F : FTy → Type} [FloatOps F] (main_arg2 : IVec S2x800000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S50000x128 .f32) (main_arg1 : FVec F S50000x3 .f32) (main_arg2 : IVec S2x800000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x3 : Shape := ⟨2, ![800000, 3]⟩
abbrev S1x128 : Shape := ⟨2, ![1, 128]⟩
abbrev S8000x128 : Shape := ⟨2, ![8000, 128]⟩
abbrev S8000x1 : Shape := ⟨2, ![8000, 1]⟩
abbrev S8000x3 : Shape := ⟨2, ![8000, 3]⟩
abbrev S5000x128 : Shape := ⟨2, ![5000, 128]⟩

abbrev nBuf : Space → Nat
  | .hbm => 138
  | .vmem => 32
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x128, .f32⟩
  | 37 => ⟨S800000x128, .i1⟩
  | 38 => ⟨S_, .f32⟩
  | 39 => ⟨S800000x128, .f32⟩
  | 40 => ⟨S800000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S1, .i32⟩
  | 50 => ⟨S_, .i32⟩
  | 51 => ⟨S800000x1, .i32⟩
  | 52 => ⟨S800000x1, .i1⟩
  | 53 => ⟨S1x1, .i32⟩
  | 54 => ⟨S800000x1, .i32⟩
  | 55 => ⟨S800000x1, .i1⟩
  | 56 => ⟨S800000x1, .i1⟩
  | 57 => ⟨S_, .i1⟩
  | 58 => ⟨S800000, .i1⟩
  | 59 => ⟨S800000x128, .f32⟩
  | 60 => ⟨S800000x128, .i1⟩
  | 61 => ⟨S_, .f32⟩
  | 62 => ⟨S800000x128, .f32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S1, .i32⟩
  | 73 => ⟨S_, .i32⟩
  | 74 => ⟨S800000x1, .i32⟩
  | 75 => ⟨S800000x1, .i1⟩
  | 76 => ⟨S1x1, .i32⟩
  | 77 => ⟨S800000x1, .i32⟩
  | 78 => ⟨S800000x1, .i1⟩
  | 79 => ⟨S800000x1, .i1⟩
  | 80 => ⟨S_, .i1⟩
  | 81 => ⟨S800000, .i1⟩
  | 82 => ⟨S800000x3, .f32⟩
  | 83 => ⟨S800000x3, .i1⟩
  | 84 => ⟨S_, .f32⟩
  | 85 => ⟨S800000x3, .f32⟩
  | 86 => ⟨S800000x3, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S1, .i32⟩
  | 96 => ⟨S_, .i32⟩
  | 97 => ⟨S800000x1, .i32⟩
  | 98 => ⟨S800000x1, .i1⟩
  | 99 => ⟨S1x1, .i32⟩
  | 100 => ⟨S800000x1, .i32⟩
  | 101 => ⟨S800000x1, .i1⟩
  | 102 => ⟨S800000x1, .i1⟩
  | 103 => ⟨S_, .i1⟩
  | 104 => ⟨S800000, .i1⟩
  | 105 => ⟨S800000x3, .f32⟩
  | 106 => ⟨S800000x3, .i1⟩
  | 107 => ⟨S_, .f32⟩
  | 108 => ⟨S800000x3, .f32⟩
  | 109 => ⟨S800000x3, .f32⟩
  | 110 => ⟨S800000x3, .f32⟩
  | 111 => ⟨S800000x3, .f32⟩
  | 112 => ⟨S_, .f32⟩
  | 113 => ⟨S800000, .f32⟩
  | 114 => ⟨S800000x1, .f32⟩
  | 115 => ⟨S800000x1, .f32⟩
  | 116 => ⟨S128x128, .f32⟩
  | 117 => ⟨S128x128, .f32⟩
  | 118 => ⟨S1x128, .f32⟩
  | 119 => ⟨S1x128, .f32⟩
  | 120 => ⟨S1x128, .f32⟩
  | 121 => ⟨S1x128, .f32⟩
  | 122 => ⟨S800000x128, .f32⟩
  | 123 => ⟨S800000x3, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S_, .f32⟩
  | 1 => ⟨S50000x3, .f32⟩
  | 2 => ⟨S800000x1, .i32⟩
  | 3 => ⟨S50000x3, .f32⟩
  | 4 => ⟨S128x128, .f32⟩
  | 5 => ⟨S128x128, .f32⟩
  | 6 => ⟨S1x128, .f32⟩
  | 7 => ⟨S1x128, .f32⟩
  | 8 => ⟨S50000x128, .f32⟩
  | 9 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | .local _ .vmem, ⟨6, _⟩ => ⟨S8000x3, .f32⟩
  | .local _ .vmem, ⟨7, _⟩ => ⟨S8000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S8000x128, .f32⟩
  | .local _ .vmem, ⟨18, _⟩ => ⟨S8000x128, .f32⟩
  | .local _ .vmem, ⟨19, _⟩ => ⟨S8000x3, .f32⟩
  | .local _ .vmem, ⟨20, _⟩ => ⟨S8000x3, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v6 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v7 : Ref sig .tc := ⟨.hbm, 109, rfl⟩
abbrev main_v8 : Ref sig .tc := ⟨.hbm, 110, rfl⟩
abbrev main_call4_v0 : Ref sig .tc := ⟨.hbm, 111, rfl⟩
abbrev main_call4_cst : Ref sig .tc := ⟨.hbm, 112, rfl⟩
abbrev main_call4_v1 : Ref sig .tc := ⟨.hbm, 113, rfl⟩
abbrev main_call4_v2 : Ref sig .tc := ⟨.hbm, 114, rfl⟩
abbrev main_v9 : Ref sig .tc := ⟨.hbm, 115, rfl⟩
abbrev main_v10 : Ref sig .tc := ⟨.hbm, 116, rfl⟩
abbrev main_v11 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_v16_0 : Ref sig .tc := ⟨.hbm, 122, rfl⟩
abbrev main_v16_1 : Ref sig .tc := ⟨.hbm, 123, rfl⟩
abbrev main_cst : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_cst_0 : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8000x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8000x1_S8000x128 : S8000x1.Broadcasts S8000x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  broadcasts_S8000x1_S8000x3 : S8000x1.Broadcasts S8000x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S800000x1.size a
  hwx0_2 : ∀ i : grid0.Coords, EltTy.bits .f32 = 32 ∨ (Rect.block (s := S800000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x3.size a ≤ S800000x3.size a
  hwx0_3 : ∀ i : grid0.Coords, EltTy.bits .f32 = 32 ∨ (Rect.block (s := S800000x3) S8000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8000x128.size a ≤ S800000x128.size a
  hwx0_13 : ∀ i : grid0.Coords, EltTy.bits .f32 = 32 ∨ (Rect.block (s := S800000x128) S8000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8000x3.size a ≤ S800000x3.size a
  hwx0_14 : ∀ i : grid0.Coords, EltTy.bits .f32 = 32 ∨ (Rect.block (s := S800000x3) S8000x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16_0) S8000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16_1) S8000x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x3, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S800000x3, .f32⟩
  | .hbm, ⟨37, _⟩ => ⟨S800000x3, .f32⟩
  | .hbm, ⟨38, _⟩ => ⟨S_, .f32⟩
  | .hbm, ⟨39, _⟩ => ⟨S800000, .f32⟩
  | .hbm, ⟨40, _⟩ => ⟨S800000x1, .f32⟩
  | .hbm, ⟨41, _⟩ => ⟨S800000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x257, .f32⟩
  | .hbm, ⟨61, _⟩ => ⟨S800000x128, .f32⟩
  | .hbm, ⟨62, _⟩ => ⟨S1x128, .f32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S800000x128, .f32⟩
  | .hbm, ⟨72, _⟩ => ⟨S800000x128, .f32⟩
  | .hbm, ⟨73, _⟩ => ⟨S800000x128, .f32⟩
  | .hbm, ⟨74, _⟩ => ⟨S800000x128, .f32⟩
  | .hbm, ⟨75, _⟩ => ⟨S1x128, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x256, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S800000x128, .f32⟩
  | .hbm, ⟨102, _⟩ => ⟨S1x128, .f32⟩
  | .hbm, ⟨103, _⟩ => ⟨S800000x128, .f32⟩
  | .hbm, ⟨104, _⟩ => ⟨S800000x128, .f32⟩
  | .hbm, ⟨105, _⟩ => ⟨S800000x128, .f32⟩
  | .hbm, ⟨106, _⟩ => ⟨S800000x128, .f32⟩
  | .hbm, ⟨107, _⟩ => ⟨S_, .f32⟩
  | .hbm, ⟨108, _⟩ => ⟨S800000x128, .f32⟩
  | .hbm, ⟨109, _⟩ => ⟨S800000x128, .f32⟩
  | .hbm, ⟨110, _⟩ => ⟨S_, .f32⟩
  | .hbm, ⟨111, _⟩ => ⟨S800000x128, .f32⟩
  | .hbm, ⟨112, _⟩ => ⟨S800000x128, .f32⟩
  | .hbm, ⟨113, _⟩ => ⟨S800000x128, .f32⟩
  | .hbm, ⟨114, _⟩ => ⟨S800000x1, .f32⟩
  | .hbm, ⟨115, _⟩ => ⟨S800000x3, .f32⟩
  | .hbm, ⟨116, _⟩ => ⟨S800000x3, .f32⟩
  | .hbm, ⟨117, _⟩ => ⟨S_, .f32⟩
  | .hbm, ⟨118, _⟩ => ⟨S50000x3, .f32⟩
  | .hbm, ⟨119, _⟩ => ⟨S800000x1, .i32⟩
  | .hbm, ⟨120, _⟩ => ⟨S50000x3, .f32⟩
  | .hbm, ⟨121, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call3_v0 : Ref sig .tc := ⟨.hbm, 105, rfl⟩
abbrev main_call3_v1 : Ref sig .tc := ⟨.hbm, 106, rfl⟩
abbrev main_call3_cst : Ref sig .tc := ⟨.hbm, 107, rfl⟩
abbrev main_call3_v2 : Ref sig .tc := ⟨.hbm, 108, rfl⟩
abbrev main_call3_v3 : Ref sig .tc := ⟨.hbm, 109, rfl⟩
abbrev main_call3_cst_0 : Ref sig .tc := ⟨.hbm, 110, rfl⟩
abbrev main_call3_v4 : Ref sig .tc := ⟨.hbm, 111, rfl⟩
abbrev main_call3_v5 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_7 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.RefRun.lean ====
/-
  The reference program's run, read back stretch by stretch: @main is the chain of fourteen stretches of host
  operations (cut at each called function and around the two joins), every weakly fair execution terminates, and
  each result buffer ends at the stage the operations compose — `val_main_v57` and `val_main_v69` of the argument
  arrays — with the arguments unchanged.
-/
import proofs.«415618_j10084583211152_1_alg».proof.Proof.RefRead
import Idealize.ShloMosaic.Lib.StableHlo.Run
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## @main's operations, cut into stretches at every called function and around the two joins -/

/-- The edge list's two rows, the two gathers of positions at them, and the relative positions. -/
abbrev ops0 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg1 main_v9 main_v10 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg1 main_v16 main_v17 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v10 main_v17 main_v18 (subf : (⟨S800000x3, .f32⟩ : BufTy).Contents (Elt F) → (⟨S800000x3, .f32⟩ : BufTy).Contents (Elt F) → (⟨S800000x3, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The Euclidean length of each relative position. -/
abbrev ops1 : List (HloOp τ sig (Elt F)) :=
  [ TRef.binary (TRef.of (T := ⟨S800000x3, .f32⟩) main_v18) (TRef.of (T := ⟨S800000x3, .f32⟩) main_v18) (TRef.of (T := ⟨S800000x3, .f32⟩) main_call0_v0) mulf,
    TRef.nullary (TRef.of (T := ⟨S_, .f32⟩) main_call0_cst) (constant S_ .f32 0x00000000#32),
    TRef.binary (TRef.of (T := ⟨S800000x3, .f32⟩) main_call0_v0) (TRef.of (T := ⟨S_, .f32⟩) main_call0_cst) (TRef.of (T := ⟨S800000, .f32⟩) main_call0_v1) (fun x v => Host.reduceAdd x v reducesTo_S800000x3_S800000_d1 h_S_),
    TRef.unary (TRef.of (T := ⟨S800000, .f32⟩) main_call0_v1) (TRef.of (T := ⟨S800000x1, .f32⟩) main_call0_v2) (broadcastInDim S800000x1 ![0] bcast_S800000_S800000x1_0),
    TRef.unary (TRef.of (T := ⟨S800000x1, .f32⟩) main_call0_v2) (TRef.of (T := ⟨S800000x1, .f32⟩) main_v19) Host.sqrt ]
theorem ops1_sub : (ops1 : List (HloOp τ sig (Elt F))).Forall fun op => op.bufs ⊆ tcRefs τ sig :=
  ⟨binary_bufs_sub .., nullary_bufs_sub .., binary_bufs_sub .., unary_bufs_sub .., unary_bufs_sub ..⟩

/-- The two gathers of features at the edge list's rows. -/
abbrev ops2 : List (HloOp τ sig (Elt F)) :=
  [ nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_v1 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v22 (broadcastInDim S800000 ![] bcast_S_S800000 : (⟨S_, .i32⟩ : BufTy).Contents (Elt F) → (⟨S800000, .i32⟩ : BufTy).Contents (Elt F)),
    binary main_v1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_arg0 main_v25 main_v26 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v3 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v3 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_arg0 main_v32 main_v33 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The join of the gathered features with the lengths. -/
abbrev ops3 : List (HloOp τ sig (Elt F)) :=
  [ nary ![main_v26, main_v33, main_v19] main_v34 (fun u => concatenate S800000x257 1 [⟨S800000x128, u 0⟩, ⟨S800000x128, u 1⟩, ⟨S800000x1, u 2⟩] concatenates_S800000x128_S800000x128_S800000x1_S800000x257_d1) ]
theorem ops3_sub : (ops3 : List (HloOp τ sig (Elt F))).Forall fun op => op.bufs ⊆ tcRefs τ sig :=
  nary_bufs_sub ..

/-- The first edge layer before its activation. -/
abbrev ops4 : List (HloOp τ sig (Elt F)) :=
  [ binary main_v34 main_arg3 main_v35 ((fun l r => Host.dotGeneral dot_S800000x257_S257x128_S800000x128_1_0_0_1_n_n none l r) : (⟨S800000x257, .f32⟩ : BufTy).Contents (Elt F) → (⟨S257x128, .f32⟩ : BufTy).Contents (Elt F) → (⟨S800000x128, .f32⟩ : BufTy).Contents (Elt F)),
    unary main_arg4 main_v36 (broadcastInDim S1x128 ![1] bcast_S128_S1x128_1 : (⟨S128, .f32⟩ : BufTy).Contents (Elt F) → (⟨S1x128, .f32⟩ : BufTy).Contents (Elt F)),
    unary main_v36 main_v37 (broadcastInDim S800000x128 ![0, 1] bcast_S1x128_S800000x128_0_1 : (⟨S1x128, .f32⟩ : BufTy).Contents (Elt F) → (⟨S800000x128, .f32⟩ : BufTy).Contents (Elt F)),
    binary main_v35 main_v37 main_v38 (addf : (⟨S800000x128, .f32⟩ : BufTy).Contents (Elt F) → (⟨S800000x128, .f32⟩ : BufTy).Contents (Elt F) → (⟨S800000x128, .f32⟩ : BufTy).Contents (Elt F)) ]
theorem ops4_sub : (ops4 : List (HloOp τ sig (Elt F))).Forall fun op => op.bufs ⊆ tcRefs τ sig :=
  ⟨binary_bufs_sub .., unary_bufs_sub .., unary_bufs_sub .., binary_bufs_sub ..⟩

/-- The first edge layer's activation. -/
abbrev ops5 : List (HloOp τ sig (Elt F)) :=
  [ TRef.unary (TRef.of (T := ⟨S800000x128, .f32⟩) main_v38) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v38) (TRef.of (T := ⟨S800000x128, .f32⟩) main_call1_v5) (TRef.of (T := ⟨S800000x128, .f32⟩) main_v39) mulf ]
theorem ops5_sub : (ops5 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

/-- The messages and their sums into the target nodes. -/
abbrev ops6 : List (HloOp τ sig (Elt F)) :=
  [ binary main_v39 main_arg5 main_v40 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v41 (broadcastInDim S1x128 ![1] bcast_S128_S1x128_1 : (⟨S128, .f32⟩ : BufTy).Contents (Elt F) → (⟨S1x128, .f32⟩ : BufTy).Contents (Elt F)),
    unary main_v41 main_v42 (broadcastInDim S800000x128 ![0, 1] bcast_S1x128_S800000x128_0_1 : (⟨S1x128, .f32⟩ : BufTy).Contents (Elt F) → (⟨S800000x128, .f32⟩ : BufTy).Contents (Elt F)),
    binary main_v40 main_v42 main_v43 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v44 (broadcastInDim S50000x128 ![] bcast_S_S50000x128 : (⟨S_, .f32⟩ : BufTy).Contents (Elt F) → (⟨S50000x128, .f32⟩ : BufTy).Contents (Elt F)),
    unary main_v3 main_v45 (broadcastInDim S800000x1 ![0] bcast_S800000_S800000x1_0 : (⟨S800000, .i32⟩ : BufTy).Contents (Elt F) → (⟨S800000x1, .i32⟩ : BufTy).Contents (Elt F)),
    ternary main_v44 main_v45 main_v43 main_v46 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem ops6_sub : (ops6 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub ..⟩

/-- The join of the features with the summed messages. -/
abbrev ops7 : List (HloOp τ sig (Elt F)) :=
  [ binary main_arg0 main_v46 main_v47 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]
theorem ops7_sub : (ops7 : List (HloOp τ sig (Elt F))).Forall fun op => op.bufs ⊆ tcRefs τ sig :=
  binary_bufs_sub ..

/-- The first node layer's product and bias row. -/
abbrev ops8 : List (HloOp τ sig (Elt F)) :=
  [ binary main_v47 main_arg7 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)) ]
theorem ops8_sub : (ops8 : List (HloOp τ sig (Elt F))).Forall fun op => op.bufs ⊆ tcRefs τ sig :=
  ⟨binary_bufs_sub .., unary_bufs_sub .., unary_bufs_sub ..⟩

/-- The first node layer before its activation. -/
abbrev ops9 : List (HloOp τ sig (Elt F)) :=
  [ binary main_v48 main_v50 main_v51 (addf : (⟨S50000x128, .f32⟩ : BufTy).Contents (Elt F) → (⟨S50000x128, .f32⟩ : BufTy).Contents (Elt F) → (⟨S50000x128, .f32⟩ : BufTy).Contents (Elt F)) ]
theorem ops9_sub : (ops9 : List (HloOp τ sig (Elt F))).Forall fun op => op.bufs ⊆ tcRefs τ sig :=
  binary_bufs_sub ..

/-- The first node layer's activation. -/
abbrev ops10 : List (HloOp τ sig (Elt F)) :=
  [ TRef.unary (TRef.of (T := ⟨S50000x128, .f32⟩) main_v51) (TRef.of (T := ⟨S50000x128, .f32⟩) main_call2_v0) Host.negf,
    TRef.unary (TRef.of (T := ⟨S50000x128, .f32⟩) main_call2_v0) (TRef.of (T := ⟨S50000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S50000x128, .f32⟩) main_call2_v2) (broadcastInDim S50000x128 ![] bcast_S_S50000x128),
    TRef.binary (TRef.of (T := ⟨S50000x128, .f32⟩) main_call2_v2) (TRef.of (T := ⟨S50000x128, .f32⟩) main_call2_v1) (TRef.of (T := ⟨S50000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S50000x128, .f32⟩) main_call2_v4) (broadcastInDim S50000x128 ![] bcast_S_S50000x128),
    TRef.binary (TRef.of (T := ⟨S50000x128, .f32⟩) main_call2_v4) (TRef.of (T := ⟨S50000x128, .f32⟩) main_call2_v3) (TRef.of (T := ⟨S50000x128, .f32⟩) main_call2_v5) Host.divf,
    TRef.binary (TRef.of (T := ⟨S50000x128, .f32⟩) main_v51) (TRef.of (T := ⟨S50000x128, .f32⟩) main_call2_v5) (TRef.of (T := ⟨S50000x128, .f32⟩) main_v52) mulf ]
theorem ops10_sub : (ops10 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

/-- The new features, and the coordinate layer before its activation. -/
abbrev ops11 : List (HloOp τ sig (Elt F)) :=
  [ binary main_v52 main_arg9 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    binary main_arg0 main_v56 main_v57 (addf : (⟨S50000x128, .f32⟩ : BufTy).Contents (Elt F) → (⟨S50000x128, .f32⟩ : BufTy).Contents (Elt F) → (⟨S50000x128, .f32⟩ : BufTy).Contents (Elt F)),
    binary main_v43 main_arg11 main_v58 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg12 main_v59 (broadcastInDim S1x128 ![1] bcast_S128_S1x128_1 : (⟨S128, .f32⟩ : BufTy).Contents (Elt F) → (⟨S1x128, .f32⟩ : BufTy).Contents (Elt F)),
    unary main_v59 main_v60 (broadcastInDim S800000x128 ![0, 1] bcast_S1x128_S800000x128_0_1 : (⟨S1x128, .f32⟩ : BufTy).Contents (Elt F) → (⟨S800000x128, .f32⟩ : BufTy).Contents (Elt F)),
    binary main_v58 main_v60 main_v61 (addf : (⟨S800000x128, .f32⟩ : BufTy).Contents (Elt F) → (⟨S800000x128, .f32⟩ : BufTy).Contents (Elt F) → (⟨S800000x128, .f32⟩ : BufTy).Contents (Elt F)) ]
theorem ops11_sub : (ops11 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub ..⟩

/-- The coordinate layer's activation. -/
abbrev ops12 : List (HloOp τ sig (Elt F)) :=
  [ TRef.unary (TRef.of (T := ⟨S800000x128, .f32⟩) main_v61) (TRef.of (T := ⟨S800000x128, .f32⟩) main_call3_v0) Host.negf,
    TRef.unary (TRef.of (T := ⟨S800000x128, .f32⟩) main_call3_v0) (TRef.of (T := ⟨S800000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S800000x128, .f32⟩) main_call3_v2) (broadcastInDim S800000x128 ![] bcast_S_S800000x128),
    TRef.binary (TRef.of (T := ⟨S800000x128, .f32⟩) main_call3_v2) (TRef.of (T := ⟨S800000x128, .f32⟩) main_call3_v1) (TRef.of (T := ⟨S800000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S800000x128, .f32⟩) main_call3_v4) (broadcastInDim S800000x128 ![] bcast_S_S800000x128),
    TRef.binary (TRef.of (T := ⟨S800000x128, .f32⟩) main_call3_v4) (TRef.of (T := ⟨S800000x128, .f32⟩) main_call3_v3) (TRef.of (T := ⟨S800000x128, .f32⟩) main_call3_v5) Host.divf,
    TRef.binary (TRef.of (T := ⟨S800000x128, .f32⟩) main_v61) (TRef.of (T := ⟨S800000x128, .f32⟩) main_call3_v5) (TRef.of (T := ⟨S800000x128, .f32⟩) main_v62) mulf ]
theorem ops12_sub : (ops12 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

/-- The coordinate weights, the weighted relative positions, their sums into the target nodes, and the new positions. -/
abbrev ops13 : List (HloOp τ sig (Elt F)) :=
  [ binary main_v62 main_arg13 main_v63 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_v63 main_v64 (broadcastInDim S800000x3 ![0, 1] bcast_S800000x1_S800000x3_0_1 : (⟨S800000x1, .f32⟩ : BufTy).Contents (Elt F) → (⟨S800000x3, .f32⟩ : BufTy).Contents (Elt F)),
    binary main_v18 main_v64 main_v65 (mulf : (⟨S800000x3, .f32⟩ : BufTy).Contents (Elt F) → (⟨S800000x3, .f32⟩ : BufTy).Contents (Elt F) → (⟨S800000x3, .f32⟩ : BufTy).Contents (Elt F)),
    nullary main_cst_7 (constant S_ .f32 0x00000000#32),
    unary main_cst_7 main_v66 (broadcastInDim S50000x3 ![] bcast_S_S50000x3 : (⟨S_, .f32⟩ : BufTy).Contents (Elt F) → (⟨S50000x3, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    binary main_arg1 main_v68 main_v69 (addf : (⟨S50000x3, .f32⟩ : BufTy).Contents (Elt F) → (⟨S50000x3, .f32⟩ : BufTy).Contents (Elt F) → (⟨S50000x3, .f32⟩ : BufTy).Contents (Elt F)) ]
theorem ops13_sub : (ops13 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., binary_bufs_sub ..⟩

set_option maxRecDepth 8192 in
/-- @main is the chain of the stretches. -/
theorem main_chain (c : Dev nD) : main (F := F) c = Pipeline.chain [seq ops0, seq ops1, seq ops2, seq ops3, seq ops4, seq ops5, seq ops6, seq ops7, seq ops8, seq ops9, seq ops10, seq ops11, seq ops12, seq ops13] := by
  chain_rfl

/-! ## The chain of stretches as one line of operations -/

/-- The chain of lines of operations is the line of all of them. -/
theorem chain_seqs {Λ : Labels} : ∀ L : List (List (HloOp τ sig (Elt F))),
    Pipeline.chain (L.map fun l => (seq l : Prog (TpuEff nD τ sig (Elt F) Λ .tc) PUnit)) = seq L.flatten
  | [] => rfl
  | a :: L => by rw [List.map_cons, Pipeline.chain_cons, chain_seqs L, List.flatten_cons, seq_append]

/-- A property of every operation of every stretch holds of every operation of their concatenation. -/
theorem forall_flatten {α : Type} {P : α → Prop} (L : List (List α)) (h : ∀ l ∈ L, l.Forall P) : L.flatten.Forall P := by
  rw [List.forall_iff_forall_mem]
  intro x hx
  obtain ⟨l, hl, hxl⟩ := List.mem_flatten.mp hx
  exact (List.forall_iff_forall_mem.mp (h l hl)) x hxl

/-- @main's operations: the stretches in order. -/
abbrev ops : List (HloOp τ sig (Elt F)) := List.flatten [ops0, ops1, ops2, ops3, ops4, ops5, ops6, ops7, ops8, ops9, ops10, ops11, ops12, ops13]

theorem main_eq (c : Dev nD) : main (F := F) c = seq ops :=
  (main_chain c).trans (chain_seqs [ops0, ops1, ops2, ops3, ops4, ops5, ops6, ops7, ops8, ops9, ops10, ops11, ops12, ops13])

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_flatten _ (by
    intro l hl
    simp only [List.mem_cons, List.mem_nil_iff, or_false] at hl
    rcases hl with rfl | rfl | rfl | rfl | rfl | rfl | rfl | rfl | rfl | rfl | rfl | rfl | rfl | rfl
    exacts [ops0_sub, ops1_sub, ops2_sub, ops3_sub, ops4_sub, ops5_sub, ops6_sub, ops7_sub, ops8_sub, ops9_sub, ops10_sub, ops11_sub, ops12_sub, ops13_sub])

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h
theorem ops7_fresh : ∀ op ∈ (ops7 : List (HloOp τ sig (Elt F))), op.fresh = ∅ := by
  intro _ h; (repeat (cases h with | head => rfl | tail _ h => ?_)); exact nomatch h
theorem ops8_fresh : ∀ op ∈ (ops8 : List (HloOp τ sig (Elt F))), op.fresh = ∅ := by
  intro _ h; (repeat (cases h with | head => rfl | tail _ h => ?_)); exact nomatch h
theorem ops9_fresh : ∀ op ∈ (ops9 : List (HloOp τ sig (Elt F))), op.fresh = ∅ := by
  intro _ h; (repeat (cases h with | head => rfl | tail _ h => ?_)); exact nomatch h
theorem ops10_fresh : ∀ op ∈ (ops10 : List (HloOp τ sig (Elt F))), op.fresh = ∅ := by
  intro _ h; (repeat (cases h with | head => rfl | tail _ h => ?_)); exact nomatch h
theorem ops11_fresh : ∀ op ∈ (ops11 : List (HloOp τ sig (Elt F))), op.fresh = ∅ := by
  intro _ h; (repeat (cases h with | head => rfl | tail _ h => ?_)); exact nomatch h
theorem ops12_fresh : ∀ op ∈ (ops12 : List (HloOp τ sig (Elt F))), op.fresh = ∅ := by
  intro _ h; (repeat (cases h with | head => rfl | tail _ h => ?_)); exact nomatch h
theorem ops13_fresh : ∀ op ∈ (ops13 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op hop
  obtain ⟨l, hl, hx⟩ := List.mem_flatten.mp hop
  simp only [List.mem_cons, List.mem_nil_iff, or_false] at hl
  rcases hl with rfl | rfl | rfl | rfl | rfl | rfl | rfl | rfl | rfl | rfl | rfl | rfl | rfl | rfl
  exacts [ops0_fresh op hx, ops1_fresh op hx, ops2_fresh op hx, ops3_fresh op hx, ops4_fresh op hx, ops5_fresh op hx, ops6_fresh op hx, ops7_fresh op hx, ops8_fresh op hx, ops9_fresh op hx, ops10_fresh op hx, ops11_fresh op hx, ops12_fresh op hx, ops13_fresh op hx]

/-! ## The contents after each stretch -/

/-- The contents after stretch 0. -/
abbrev A0 (V : Valuation τ sig (Elt F)) : Valuation τ sig (Elt F) := after ops0 V
/-- The contents after stretch 1. -/
abbrev A1 (V : Valuation τ sig (Elt F)) : Valuation τ sig (Elt F) := after ops1 (A0 V)
/-- The contents after stretch 2. -/
abbrev A2 (V : Valuation τ sig (Elt F)) : Valuation τ sig (Elt F) := after ops2 (A1 V)
/-- The contents after stretch 3. -/
abbrev A3 (V : Valuation τ sig (Elt F)) : Valuation τ sig (Elt F) := after ops3 (A2 V)
/-- The contents after stretch 4. -/
abbrev A4 (V : Valuation τ sig (Elt F)) : Valuation τ sig (Elt F) := after ops4 (A3 V)
/-- The contents after stretch 5. -/
abbrev A5 (V : Valuation τ sig (Elt F)) : Valuation τ sig (Elt F) := after ops5 (A4 V)
/-- The contents after stretch 6. -/
abbrev A6 (V : Valuation τ sig (Elt F)) : Valuation τ sig (Elt F) := after ops6 (A5 V)
/-- The contents after stretch 7. -/
abbrev A7 (V : Valuation τ sig (Elt F)) : Valuation τ sig (Elt F) := after ops7 (A6 V)
/-- The contents after stretch 8. -/
abbrev A8 (V : Valuation τ sig (Elt F)) : Valuation τ sig (Elt F) := after ops8 (A7 V)
/-- The contents after stretch 9. -/
abbrev A9 (V : Valuation τ sig (Elt F)) : Valuation τ sig (Elt F) := after ops9 (A8 V)
/-- The contents after stretch 10. -/
abbrev A10 (V : Valuation τ sig (Elt F)) : Valuation τ sig (Elt F) := after ops10 (A9 V)
/-- The contents after stretch 11. -/
abbrev A11 (V : Valuation τ sig (Elt F)) : Valuation τ sig (Elt F) := after ops11 (A10 V)
/-- The contents after stretch 12. -/
abbrev A12 (V : Valuation τ sig (Elt F)) : Valuation τ sig (Elt F) := after ops12 (A11 V)
/-- The contents after stretch 13. -/
abbrev A13 (V : Valuation τ sig (Elt F)) : Valuation τ sig (Elt F) := after ops13 (A12 V)

theorem after_ops (V : Valuation τ sig (Elt F)) : after ops V = A13 V := by
  simp only [List.flatten_cons, List.flatten_nil, List.append_nil, StableHlo.after_append]

/-! ## The buffers each stretch writes: every other buffer keeps its contents through it -/

/-- The buffers stretch 0 writes. -/
def wl0 : List (Ref sig .tc) :=
  [main_v0, main_v1, main_v2, main_v3, main_c, main_v4, main_v5, main_c_0, main_v6, main_v7, main_v8,
   main_v9, main_v10, main_c_1, main_v11, main_v12, main_c_2, main_v13, main_v14, main_v15, main_v16,
   main_v17, main_v18]

theorem writes0 :
    (ops0 : List (HloOp τ sig (Elt F))).Forall fun op => op.writes ⊆ (wl0.map (Proc.devRef (τ := τ) .tc)).toFinset := by
  simp only [ops0, List.Forall, nullary_writes, unary_writes, binary_writes, ternary_writes, reshape_writes, nary_writes,
    Finset.singleton_subset_iff, List.mem_toFinset]
  repeat' apply And.intro
  all_goals exact List.mem_map_of_mem (by decide)

/-- A buffer stretch 0 does not write keeps its contents through it. -/
theorem frame0 (W : Valuation τ sig (Elt F)) (r : Ref sig .tc) (hr : r ∉ wl0) :
    after ops0 W (Proc.devRef .tc r) = W (Proc.devRef .tc r) :=
  after_of_writes_sub ops0 W writes0 hr

/-- The buffers stretch 1 writes. -/
def wl1 : List (Ref sig .tc) :=
  [main_call0_v0, main_call0_cst, main_call0_v1, main_call0_v2, main_v19]

theorem writes1 :
    (ops1 : List (HloOp τ sig (Elt F))).Forall fun op => op.writes ⊆ (wl1.map (Proc.devRef (τ := τ) .tc)).toFinset := by
  simp only [ops1, List.Forall, nullary_writes, unary_writes, binary_writes, ternary_writes, reshape_writes, nary_writes,
    Finset.singleton_subset_iff, List.mem_toFinset]
  repeat' apply And.intro
  all_goals exact List.mem_map_of_mem (by decide)

/-- A buffer stretch 1 does not write keeps its contents through it. -/
theorem frame1 (W : Valuation τ sig (Elt F)) (r : Ref sig .tc) (hr : r ∉ wl1) :
    after ops1 W (Proc.devRef .tc r) = W (Proc.devRef .tc r) :=
  after_of_writes_sub ops1 W writes1 hr

/-- The buffers stretch 2 writes. -/
def wl2 : List (Ref sig .tc) :=
  [main_c_3, main_v20, main_v21, main_c_4, main_v22, main_v23, main_v24, main_v25, main_v26, main_c_5,
   main_v27, main_v28, main_c_6, main_v29, main_v30, main_v31, main_v32, main_v33]

theorem writes2 :
    (ops2 : List (HloOp τ sig (Elt F))).Forall fun op => op.writes ⊆ (wl2.map (Proc.devRef (τ := τ) .tc)).toFinset := by
  simp only [ops2, List.Forall, nullary_writes, unary_writes, binary_writes, ternary_writes, reshape_writes, nary_writes,
    Finset.singleton_subset_iff, List.mem_toFinset]
  repeat' apply And.intro
  all_goals exact List.mem_map_of_mem (by decide)

/-- A buffer stretch 2 does not write keeps its contents through it. -/
theorem frame2 (W : Valuation τ sig (Elt F)) (r : Ref sig .tc) (hr : r ∉ wl2) :
    after ops2 W (Proc.devRef .tc r) = W (Proc.devRef .tc r) :=
  after_of_writes_sub ops2 W writes2 hr

/-- The buffers stretch 3 writes. -/
def wl3 : List (Ref sig .tc) :=
  [main_v34]

theorem writes3 :
    (ops3 : List (HloOp τ sig (Elt F))).Forall fun op => op.writes ⊆ (wl3.map (Proc.devRef (τ := τ) .tc)).toFinset := by
  simp only [ops3, List.Forall, nullary_writes, unary_writes, binary_writes, ternary_writes, reshape_writes, nary_writes,
    Finset.singleton_subset_iff, List.mem_toFinset]
  exact List.mem_map_of_mem (by decide)

/-- A buffer stretch 3 does not write keeps its contents through it. -/
theorem frame3 (W : Valuation τ sig (Elt F)) (r : Ref sig .tc) (hr : r ∉ wl3) :
    after ops3 W (Proc.devRef .tc r) = W (Proc.devRef .tc r) :=
  after_of_writes_sub ops3 W writes3 hr

/-- The buffers stretch 4 writes. -/
def wl4 : List (Ref sig .tc) :=
  [main_v35, main_v36, main_v37, main_v38]

theorem writes4 :
    (ops4 : List (HloOp τ sig (Elt F))).Forall fun op => op.writes ⊆ (wl4.map (Proc.devRef (τ := τ) .tc)).toFinset := by
  simp only [ops4, List.Forall, nullary_writes, unary_writes, binary_writes, ternary_writes, reshape_writes, nary_writes,
    Finset.singleton_subset_iff, List.mem_toFinset]
  repeat' apply And.intro
  all_goals exact List.mem_map_of_mem (by decide)

/-- A buffer stretch 4 does not write keeps its contents through it. -/
theorem frame4 (W : Valuation τ sig (Elt F)) (r : Ref sig .tc) (hr : r ∉ wl4) :
    after ops4 W (Proc.devRef .tc r) = W (Proc.devRef .tc r) :=
  after_of_writes_sub ops4 W writes4 hr

/-- The buffers stretch 5 writes. -/
def wl5 : List (Ref sig .tc) :=
  [main_call1_v0, main_call1_v1, main_call1_cst, main_call1_v2, main_call1_v3, main_call1_cst_0,
   main_call1_v4, main_call1_v5, main_v39]

theorem writes5 :
    (ops5 : List (HloOp τ sig (Elt F))).Forall fun op => op.writes ⊆ (wl5.map (Proc.devRef (τ := τ) .tc)).toFinset := by
  simp only [ops5, List.Forall, nullary_writes, unary_writes, binary_writes, ternary_writes, reshape_writes, nary_writes,
    Finset.singleton_subset_iff, List.mem_toFinset]
  repeat' apply And.intro
  all_goals exact List.mem_map_of_mem (by decide)

/-- A buffer stretch 5 does not write keeps its contents through it. -/
theorem frame5 (W : Valuation τ sig (Elt F)) (r : Ref sig .tc) (hr : r ∉ wl5) :
    after ops5 W (Proc.devRef .tc r) = W (Proc.devRef .tc r) :=
  after_of_writes_sub ops5 W writes5 hr

/-- The buffers stretch 6 writes. -/
def wl6 : List (Ref sig .tc) :=
  [main_v40, main_v41, main_v42, main_v43, main_cst, main_v44, main_v45, main_v46]

theorem writes6 :
    (ops6 : List (HloOp τ sig (Elt F))).Forall fun op => op.writes ⊆ (wl6.map (Proc.devRef (τ := τ) .tc)).toFinset := by
  simp only [ops6, List.Forall, nullary_writes, unary_writes, binary_writes, ternary_writes, reshape_writes, nary_writes,
    Finset.singleton_subset_iff, List.mem_toFinset]
  repeat' apply And.intro
  all_goals exact List.mem_map_of_mem (by decide)

/-- A buffer stretch 6 does not write keeps its contents through it. -/
theorem frame6 (W : Valuation τ sig (Elt F)) (r : Ref sig .tc) (hr : r ∉ wl6) :
    after ops6 W (Proc.devRef .tc r) = W (Proc.devRef .tc r) :=
  after_of_writes_sub ops6 W writes6 hr

/-- The buffers stretch 7 writes. -/
def wl7 : List (Ref sig .tc) :=
  [main_v47]

theorem writes7 :
    (ops7 : List (HloOp τ sig (Elt F))).Forall fun op => op.writes ⊆ (wl7.map (Proc.devRef (τ := τ) .tc)).toFinset := by
  simp only [ops7, List.Forall, nullary_writes, unary_writes, binary_writes, ternary_writes, reshape_writes, nary_writes,
    Finset.singleton_subset_iff, List.mem_toFinset]
  exact List.mem_map_of_mem (by decide)

/-- A buffer stretch 7 does not write keeps its contents through it. -/
theorem frame7 (W : Valuation τ sig (Elt F)) (r : Ref sig .tc) (hr : r ∉ wl7) :
    after ops7 W (Proc.devRef .tc r) = W (Proc.devRef .tc r) :=
  after_of_writes_sub ops7 W writes7 hr

/-- The buffers stretch 8 writes. -/
def wl8 : List (Ref sig .tc) :=
  [main_v48, main_v49, main_v50]

theorem writes8 :
    (ops8 : List (HloOp τ sig (Elt F))).Forall fun op => op.writes ⊆ (wl8.map (Proc.devRef (τ := τ) .tc)).toFinset := by
  simp only [ops8, List.Forall, nullary_writes, unary_writes, binary_writes, ternary_writes, reshape_writes, nary_writes,
    Finset.singleton_subset_iff, List.mem_toFinset]
  repeat' apply And.intro
  all_goals exact List.mem_map_of_mem (by decide)

/-- A buffer stretch 8 does not write keeps its contents through it. -/
theorem frame8 (W : Valuation τ sig (Elt F)) (r : Ref sig .tc) (hr : r ∉ wl8) :
    after ops8 W (Proc.devRef .tc r) = W (Proc.devRef .tc r) :=
  after_of_writes_sub ops8 W writes8 hr

/-- The buffers stretch 9 writes. -/
def wl9 : List (Ref sig .tc) :=
  [main_v51]

theorem writes9 :
    (ops9 : List (HloOp τ sig (Elt F))).Forall fun op => op.writes ⊆ (wl9.map (Proc.devRef (τ := τ) .tc)).toFinset := by
  simp only [ops9, List.Forall, nullary_writes, unary_writes, binary_writes, ternary_writes, reshape_writes, nary_writes,
    Finset.singleton_subset_iff, List.mem_toFinset]
  exact List.mem_map_of_mem (by decide)

/-- A buffer stretch 9 does not write keeps its contents through it. -/
theorem frame9 (W : Valuation τ sig (Elt F)) (r : Ref sig .tc) (hr : r ∉ wl9) :
    after ops9 W (Proc.devRef .tc r) = W (Proc.devRef .tc r) :=
  after_of_writes_sub ops9 W writes9 hr

/-- The buffers stretch 10 writes. -/
def wl10 : List (Ref sig .tc) :=
  [main_call2_v0, main_call2_v1, main_call2_cst, main_call2_v2, main_call2_v3, main_call2_cst_0,
   main_call2_v4, main_call2_v5, main_v52]

theorem writes10 :
    (ops10 : List (HloOp τ sig (Elt F))).Forall fun op => op.writes ⊆ (wl10.map (Proc.devRef (τ := τ) .tc)).toFinset := by
  simp only [ops10, List.Forall, nullary_writes, unary_writes, binary_writes, ternary_writes, reshape_writes, nary_writes,
    Finset.singleton_subset_iff, List.mem_toFinset]
  repeat' apply And.intro
  all_goals exact List.mem_map_of_mem (by decide)

/-- A buffer stretch 10 does not write keeps its contents through it. -/
theorem frame10 (W : Valuation τ sig (Elt F)) (r : Ref sig .tc) (hr : r ∉ wl10) :
    after ops10 W (Proc.devRef .tc r) = W (Proc.devRef .tc r) :=
  after_of_writes_sub ops10 W writes10 hr

/-- The buffers stretch 11 writes. -/
def wl11 : List (Ref sig .tc) :=
  [main_v53, main_v54, main_v55, main_v56, main_v57, main_v58, main_v59, main_v60, main_v61]

theorem writes11 :
    (ops11 : List (HloOp τ sig (Elt F))).Forall fun op => op.writes ⊆ (wl11.map (Proc.devRef (τ := τ) .tc)).toFinset := by
  simp only [ops11, List.Forall, nullary_writes, unary_writes, binary_writes, ternary_writes, reshape_writes, nary_writes,
    Finset.singleton_subset_iff, List.mem_toFinset]
  repeat' apply And.intro
  all_goals exact List.mem_map_of_mem (by decide)

/-- A buffer stretch 11 does not write keeps its contents through it. -/
theorem frame11 (W : Valuation τ sig (Elt F)) (r : Ref sig .tc) (hr : r ∉ wl11) :
    after ops11 W (Proc.devRef .tc r) = W (Proc.devRef .tc r) :=
  after_of_writes_sub ops11 W writes11 hr

/-- The buffers stretch 12 writes. -/
def wl12 : List (Ref sig .tc) :=
  [main_call3_v0, main_call3_v1, main_call3_cst, main_call3_v2, main_call3_v3, main_call3_cst_0,
   main_call3_v4, main_call3_v5, main_v62]

theorem writes12 :
    (ops12 : List (HloOp τ sig (Elt F))).Forall fun op => op.writes ⊆ (wl12.map (Proc.devRef (τ := τ) .tc)).toFinset := by
  simp only [ops12, List.Forall, nullary_writes, unary_writes, binary_writes, ternary_writes, reshape_writes, nary_writes,
    Finset.singleton_subset_iff, List.mem_toFinset]
  repeat' apply And.intro
  all_goals exact List.mem_map_of_mem (by decide)

/-- A buffer stretch 12 does not write keeps its contents through it. -/
theorem frame12 (W : Valuation τ sig (Elt F)) (r : Ref sig .tc) (hr : r ∉ wl12) :
    after ops12 W (Proc.devRef .tc r) = W (Proc.devRef .tc r) :=
  after_of_writes_sub ops12 W writes12 hr

/-- The buffers stretch 13 writes. -/
def wl13 : List (Ref sig .tc) :=
  [main_v63, main_v64, main_v65, main_cst_7, main_v66, main_v67, main_v68, main_v69]

theorem writes13 :
    (ops13 : List (HloOp τ sig (Elt F))).Forall fun op => op.writes ⊆ (wl13.map (Proc.devRef (τ := τ) .tc)).toFinset := by
  simp only [ops13, List.Forall, nullary_writes, unary_writes, binary_writes, ternary_writes, reshape_writes, nary_writes,
    Finset.singleton_subset_iff, List.mem_toFinset]
  repeat' apply And.intro
  all_goals exact List.mem_map_of_mem (by decide)

/-- A buffer stretch 13 does not write keeps its contents through it. -/
theorem frame13 (W : Valuation τ sig (Elt F)) (r : Ref sig .tc) (hr : r ∉ wl13) :
    after ops13 W (Proc.devRef .tc r) = W (Proc.devRef .tc r) :=
  after_of_writes_sub ops13 W writes13 hr

/-! ## A typed reference at a literal buffer reads and writes the buffer's contents as they are -/

/-- Contents moved to a buffer's own type and back are the contents. -/
theorem ofBuf_toBuf {Val : EltTy → Type} {T : BufTy} (x : TRef sig T) (v : T.Contents Val) : x.ofBuf (x.toBuf v) = v := by
  obtain ⟨r, h, a, b⟩ := x
  subst h
  rfl
theorem ofBuf_v18 (W : Valuation τ sig (Elt F)) (h1 h2 h3) :
    (TRef.of (T := ⟨S800000x3, .f32⟩) main_v18 h1 h2 h3).ofBuf (W (Proc.devRef .tc main_v18)) = W (Proc.devRef .tc main_v18) := rfl
theorem ofBuf_v38 (W : Valuation τ sig (Elt F)) (h1 h2 h3) :
    (TRef.of (T := ⟨S800000x128, .f32⟩) main_v38 h1 h2 h3).ofBuf (W (Proc.devRef .tc main_v38)) = W (Proc.devRef .tc main_v38) := rfl
theorem ofBuf_v51 (W : Valuation τ sig (Elt F)) (h1 h2 h3) :
    (TRef.of (T := ⟨S50000x128, .f32⟩) main_v51 h1 h2 h3).ofBuf (W (Proc.devRef .tc main_v51)) = W (Proc.devRef .tc main_v51) := rfl
theorem ofBuf_v61 (W : Valuation τ sig (Elt F)) (h1 h2 h3) :
    (TRef.of (T := ⟨S800000x128, .f32⟩) main_v61 h1 h2 h3).ofBuf (W (Proc.devRef .tc main_v61)) = W (Proc.devRef .tc main_v61) := rfl
theorem toBuf_v19 (h1 h2 h3) (x : FVec F S800000x1 .f32) :
    ((TRef.of (T := ⟨S800000x1, .f32⟩) main_v19 h1 h2 h3).toBuf (Val := Elt F) x : FVec F S800000x1 .f32) = x := rfl
theorem toBuf_v39 (h1 h2 h3) (x : FVec F S800000x128 .f32) :
    ((TRef.of (T := ⟨S800000x128, .f32⟩) main_v39 h1 h2 h3).toBuf (Val := Elt F) x : FVec F S800000x128 .f32) = x := rfl
theorem toBuf_v52 (h1 h2 h3) (x : FVec F S50000x128 .f32) :
    ((TRef.of (T := ⟨S50000x128, .f32⟩) main_v52 h1 h2 h3).toBuf (Val := Elt F) x : FVec F S50000x128 .f32) = x := rfl
theorem toBuf_v62 (h1 h2 h3) (x : FVec F S800000x128 .f32) :
    ((TRef.of (T := ⟨S800000x128, .f32⟩) main_v62 h1 h2 h3).toBuf (Val := Elt F) x : FVec F S800000x128 .f32) = x := rfl

/-! ## What each stretch leaves in the buffers read later, given what it starts from

Each statement is over any contents `W` the stretch starts from; a hypothesis names what `W` holds in a buffer the
stretch reads, as a stage of the argument arrays, and the conclusion is the stage of the buffer read later. -/

theorem st0_v1 (W : Valuation τ sig (Elt F)) :
    after ops0 W (Proc.devRef .tc main_v1) = val_main_v1 (F := F) (W (Proc.devRef .tc main_arg2)) := by
  after_results_simp; rfl
theorem st0_v3 (W : Valuation τ sig (Elt F)) :
    after ops0 W (Proc.devRef .tc main_v3) = val_main_v3 (F := F) (W (Proc.devRef .tc main_arg2)) := by
  after_results_simp; rfl
theorem st0_v18 (W : Valuation τ sig (Elt F)) :
    after ops0 W (Proc.devRef .tc main_v18) = val_main_v18 (F := F) (W (Proc.devRef .tc main_arg1)) (W (Proc.devRef .tc main_arg2)) := by
  after_results_simp; rfl

theorem st1_v19 (W : Valuation τ sig (Elt F)) (x1 : (⟨S50000x3, .f32⟩ : BufTy).Contents (Elt F)) (x2 : (⟨S2x800000, .i32⟩ : BufTy).Contents (Elt F))
    (h18 : W (Proc.devRef .tc main_v18) = val_main_v18 (F := F) x1 x2) :
    after ops1 W (Proc.devRef .tc main_v19) = val_main_v19 (F := F) x1 x2 := by
  after_results_simp
  simp only [ofBuf_toBuf, ofBuf_v18, h18]
  refine (toBuf_v19 _ _ _ _).trans ?_
  rfl

theorem st2_v26 (W : Valuation τ sig (Elt F)) (x0 : (⟨S50000x128, .f32⟩ : BufTy).Contents (Elt F)) (x2 : (⟨S2x800000, .i32⟩ : BufTy).Contents (Elt F))
    (h0 : W (Proc.devRef .tc main_arg0) = x0) (hv1 : W (Proc.devRef .tc main_v1) = val_main_v1 (F := F) x2) :
    after ops2 W (Proc.devRef .tc main_v26) = val_main_v26 (F := F) x0 x2 := by
  after_results_simp
  simp only [h0, hv1]
  rfl
theorem st2_v33 (W : Valuation τ sig (Elt F)) (x0 : (⟨S50000x128, .f32⟩ : BufTy).Contents (Elt F)) (x2 : (⟨S2x800000, .i32⟩ : BufTy).Contents (Elt F))
    (h0 : W (Proc.devRef .tc main_arg0) = x0) (hv3 : W (Proc.devRef .tc main_v3) = val_main_v3 (F := F) x2) :
    after ops2 W (Proc.devRef .tc main_v33) = val_main_v33 (F := F) x0 x2 := by
  after_results_simp
  simp only [h0, hv3]
  rfl

theorem st3_v34 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F))
    (h26 : W (Proc.devRef .tc main_v26) = val_main_v26 (F := F) x0 x2) (h33 : W (Proc.devRef .tc main_v33) = val_main_v33 (F := F) x0 x2) (h19 : W (Proc.devRef .tc main_v19) = val_main_v19 (F := F) x1 x2) :
    after ops3 W (Proc.devRef .tc main_v34) = val_main_v34 (F := F) x0 x1 x2 := by
  simp only [after_cons, after_nil]
  rw [nary_result]
  unfold val_main_v34
  rw [← h26, ← h33, ← h19]
  rfl

theorem st4_v38 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F))
    (h34 : W (Proc.devRef .tc main_v34) = val_main_v34 (F := F) x0 x1 x2) (h3 : W (Proc.devRef .tc main_arg3) = x3) (h4 : W (Proc.devRef .tc main_arg4) = x4) :
    after ops4 W (Proc.devRef .tc main_v38) = val_main_v38 (F := F) x0 x1 x2 x3 x4 := by
  after_results_simp
  simp only [h34, h3, h4]
  rfl

theorem st5_v39 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F))
    (h38 : W (Proc.devRef .tc main_v38) = val_main_v38 (F := F) x0 x1 x2 x3 x4) :
    after ops5 W (Proc.devRef .tc main_v39) = val_main_v39 (F := F) x0 x1 x2 x3 x4 := by
  after_results_simp
  simp only [ofBuf_toBuf, ofBuf_v38, h38]
  refine (toBuf_v39 _ _ _ _).trans ?_
  rfl

theorem st6_v43 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h39 : W (Proc.devRef .tc main_v39) = val_main_v39 (F := F) x0 x1 x2 x3 x4) (h5 : W (Proc.devRef .tc main_arg5) = x5) (h6 : W (Proc.devRef .tc main_arg6) = x6) :
    after ops6 W (Proc.devRef .tc main_v43) = val_main_v43 (F := F) x0 x1 x2 x3 x4 x5 x6 := by
  after_results_simp
  simp only [h39, h5, h6]
  rfl
theorem st6_v46 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h39 : W (Proc.devRef .tc main_v39) = val_main_v39 (F := F) x0 x1 x2 x3 x4) (h5 : W (Proc.devRef .tc main_arg5) = x5) (h6 : W (Proc.devRef .tc main_arg6) = x6) (hv3 : W (Proc.devRef .tc main_v3) = val_main_v3 (F := F) x2) :
    after ops6 W (Proc.devRef .tc main_v46) = val_main_v46 (F := F) x0 x1 x2 x3 x4 x5 x6 := by
  after_results_simp
  simp only [h39, h5, h6, hv3]
  rfl

theorem st7_v47 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h0 : W (Proc.devRef .tc main_arg0) = x0) (h46 : W (Proc.devRef .tc main_v46) = val_main_v46 (F := F) x0 x1 x2 x3 x4 x5 x6) :
    after ops7 W (Proc.devRef .tc main_v47) = val_main_v47 (F := F) x0 x1 x2 x3 x4 x5 x6 := by
  simp only [after_cons, after_nil]
  rw [binary_result]
  unfold val_main_v47
  rw [← h46, ← h0]

theorem st8_v48 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F))
    (h47 : W (Proc.devRef .tc main_v47) = val_main_v47 (F := F) x0 x1 x2 x3 x4 x5 x6) (h7 : W (Proc.devRef .tc main_arg7) = x7) :
    after ops8 W (Proc.devRef .tc main_v48) = val_main_v48 (F := F) x0 x1 x2 x3 x4 x5 x6 x7 := by
  after_results_simp
  simp only [h47, h7]
  rfl
theorem st8_v50 (W : Valuation τ sig (Elt F)) (x8 : (⟨S128, .f32⟩ : BufTy).Contents (Elt F))
    (h8 : W (Proc.devRef .tc main_arg8) = x8) :
    after ops8 W (Proc.devRef .tc main_v50) = val_main_v50 (F := F) x8 := by
  after_results_simp
  simp only [h8]
  rfl

theorem st9_v51 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F))
    (h48 : W (Proc.devRef .tc main_v48) = val_main_v48 (F := F) x0 x1 x2 x3 x4 x5 x6 x7) (h50 : W (Proc.devRef .tc main_v50) = val_main_v50 (F := F) x8) :
    after ops9 W (Proc.devRef .tc main_v51) = val_main_v51 (F := F) x0 x1 x2 x3 x4 x5 x6 x7 x8 := by
  after_results_simp
  simp only [h48, h50]
  rfl

theorem st10_v52 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F))
    (h51 : W (Proc.devRef .tc main_v51) = val_main_v51 (F := F) x0 x1 x2 x3 x4 x5 x6 x7 x8) :
    after ops10 W (Proc.devRef .tc main_v52) = val_main_v52 (F := F) x0 x1 x2 x3 x4 x5 x6 x7 x8 := by
  after_results_simp
  simp only [ofBuf_toBuf, ofBuf_v51, h51]
  refine (toBuf_v52 _ _ _ _).trans ?_
  rfl

theorem st11_v57 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h52 : W (Proc.devRef .tc main_v52) = val_main_v52 (F := F) x0 x1 x2 x3 x4 x5 x6 x7 x8) (h9 : W (Proc.devRef .tc main_arg9) = x9) (h10 : W (Proc.devRef .tc main_arg10) = x10) (h0 : W (Proc.devRef .tc main_arg0) = x0) :
    after ops11 W (Proc.devRef .tc main_v57) = val_main_v57 (F := F) x0 x1 x2 x3 x4 x5 x6 x7 x8 x9 x10 := by
  after_results_simp
  simp only [h52, h9, h10, h0]
  rfl
theorem st11_v61 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S128x128, .f32⟩ : BufTy).Contents (Elt F)) (x12 : (⟨S128, .f32⟩ : BufTy).Contents (Elt F))
    (h43 : W (Proc.devRef .tc main_v43) = val_main_v43 (F := F) x0 x1 x2 x3 x4 x5 x6) (h11 : W (Proc.devRef .tc main_arg11) = x11) (h12 : W (Proc.devRef .tc main_arg12) = x12) :
    after ops11 W (Proc.devRef .tc main_v61) = val_main_v61 (F := F) x0 x1 x2 x3 x4 x5 x6 x11 x12 := by
  after_results_simp
  simp only [h43, h11, h12]
  rfl

theorem st12_v62 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S128x128, .f32⟩ : BufTy).Contents (Elt F)) (x12 : (⟨S128, .f32⟩ : BufTy).Contents (Elt F))
    (h61 : W (Proc.devRef .tc main_v61) = val_main_v61 (F := F) x0 x1 x2 x3 x4 x5 x6 x11 x12) :
    after ops12 W (Proc.devRef .tc main_v62) = val_main_v62 (F := F) x0 x1 x2 x3 x4 x5 x6 x11 x12 := by
  after_results_simp
  simp only [ofBuf_toBuf, ofBuf_v61, h61]
  refine (toBuf_v62 _ _ _ _).trans ?_
  rfl

theorem st13_v69 (W : Valuation τ sig (Elt F)) (x0 : (⟨S50000x128, .f32⟩ : BufTy).Contents (Elt F)) (x1 : (⟨S50000x3, .f32⟩ : BufTy).Contents (Elt F)) (x2 : (⟨S2x800000, .i32⟩ : BufTy).Contents (Elt F)) (x3 : (⟨S257x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x11 : (⟨S128x128, .f32⟩ : BufTy).Contents (Elt F)) (x12 : (⟨S128, .f32⟩ : BufTy).Contents (Elt F)) (x13 : (⟨S128x1, .f32⟩ : BufTy).Contents (Elt F))
    (h62 : W (Proc.devRef .tc main_v62) = val_main_v62 (F := F) x0 x1 x2 x3 x4 x5 x6 x11 x12) (h13 : W (Proc.devRef .tc main_arg13) = x13) (h18 : W (Proc.devRef .tc main_v18) = val_main_v18 (F := F) x1 x2) (hv3 : W (Proc.devRef .tc main_v3) = val_main_v3 (F := F) x2) (h1 : W (Proc.devRef .tc main_arg1) = x1) :
    after ops13 W (Proc.devRef .tc main_v69) = val_main_v69 (F := F) x0 x1 x2 x3 x4 x5 x6 x11 x12 x13 := by
  after_results_simp
  simp only [h62, h13, h18, hv3, h1]
  rfl

/-! ## The stages along the chain: what the buffers read later hold after each stretch, from any launch contents -/

section Chain

variable (V : Valuation τ sig (Elt F))

/-! ### A buffer none of the stretches so far writes holds what it was launched with -/

theorem A0_keep (r : Ref sig .tc) (h0 : r ∉ wl0) : A0 V (Proc.devRef .tc r) = V (Proc.devRef .tc r) := frame0 V r h0
theorem A1_keep (r : Ref sig .tc) (h0 : r ∉ wl0) (h1 : r ∉ wl1) :
    A1 V (Proc.devRef .tc r) = V (Proc.devRef .tc r) :=
  (frame1 (A0 V) r h1).trans (A0_keep V r h0)
theorem A2_keep (r : Ref sig .tc) (h0 : r ∉ wl0) (h1 : r ∉ wl1) (h2 : r ∉ wl2) :
    A2 V (Proc.devRef .tc r) = V (Proc.devRef .tc r) :=
  (frame2 (A1 V) r h2).trans (A1_keep V r h0 h1)
theorem A3_keep (r : Ref sig .tc) (h0 : r ∉ wl0) (h1 : r ∉ wl1) (h2 : r ∉ wl2) (h3 : r ∉ wl3) :
    A3 V (Proc.devRef .tc r) = V (Proc.devRef .tc r) :=
  (frame3 (A2 V) r h3).trans (A2_keep V r h0 h1 h2)
theorem A4_keep (r : Ref sig .tc) (h0 : r ∉ wl0) (h1 : r ∉ wl1) (h2 : r ∉ wl2) (h3 : r ∉ wl3) (h4 : r ∉ wl4) :
    A4 V (Proc.devRef .tc r) = V (Proc.devRef .tc r) :=
  (frame4 (A3 V) r h4).trans (A3_keep V r h0 h1 h2 h3)
theorem A5_keep (r : Ref sig .tc) (h0 : r ∉ wl0) (h1 : r ∉ wl1) (h2 : r ∉ wl2) (h3 : r ∉ wl3) (h4 : r ∉ wl4) (h5 : r ∉ wl5) :
    A5 V (Proc.devRef .tc r) = V (Proc.devRef .tc r) :=
  (frame5 (A4 V) r h5).trans (A4_keep V r h0 h1 h2 h3 h4)
theorem A6_keep (r : Ref sig .tc) (h0 : r ∉ wl0) (h1 : r ∉ wl1) (h2 : r ∉ wl2) (h3 : r ∉ wl3) (h4 : r ∉ wl4) (h5 : r ∉ wl5) (h6 : r ∉ wl6) :
    A6 V (Proc.devRef .tc r) = V (Proc.devRef .tc r) :=
  (frame6 (A5 V) r h6).trans (A5_keep V r h0 h1 h2 h3 h4 h5)
theorem A7_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) :
    A7 V (Proc.devRef .tc r) = V (Proc.devRef .tc r) :=
  (frame7 (A6 V) r h7).trans (A6_keep V r h0 h1 h2 h3 h4 h5 h6)
theorem A8_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) :
    A8 V (Proc.devRef .tc r) = V (Proc.devRef .tc r) :=
  (frame8 (A7 V) r h8).trans (A7_keep V r h0 h1 h2 h3 h4 h5 h6 h7)
theorem A9_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) :
    A9 V (Proc.devRef .tc r) = V (Proc.devRef .tc r) :=
  (frame9 (A8 V) r h9).trans (A8_keep V r h0 h1 h2 h3 h4 h5 h6 h7 h8)
theorem A10_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) :
    A10 V (Proc.devRef .tc r) = V (Proc.devRef .tc r) :=
  (frame10 (A9 V) r h10).trans (A9_keep V r h0 h1 h2 h3 h4 h5 h6 h7 h8 h9)
theorem A11_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) (h11 : r ∉ wl11) :
    A11 V (Proc.devRef .tc r) = V (Proc.devRef .tc r) :=
  (frame11 (A10 V) r h11).trans (A10_keep V r h0 h1 h2 h3 h4 h5 h6 h7 h8 h9 h10)
theorem A12_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) (h11 : r ∉ wl11) (h12 : r ∉ wl12) :
    A12 V (Proc.devRef .tc r) = V (Proc.devRef .tc r) :=
  (frame12 (A11 V) r h12).trans (A11_keep V r h0 h1 h2 h3 h4 h5 h6 h7 h8 h9 h10 h11)
theorem A13_keep (r : Ref sig .tc) (h0 : r ∉ wl0) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) (h11 : r ∉ wl11) (h12 : r ∉ wl12) (h13 : r ∉ wl13) :
    A13 V (Proc.devRef .tc r) = V (Proc.devRef .tc r) :=
  (frame13 (A12 V) r h13).trans (A12_keep V r h0 h1 h2 h3 h4 h5 h6 h7 h8 h9 h10 h11 h12)

/-! ### The stages -/

theorem A0_v1 : A0 V (Proc.devRef .tc main_v1) = val_main_v1 (F := F) (V (Proc.devRef .tc main_arg2)) := st0_v1 V
theorem A0_v3 : A0 V (Proc.devRef .tc main_v3) = val_main_v3 (F := F) (V (Proc.devRef .tc main_arg2)) := st0_v3 V
theorem A0_v18 : A0 V (Proc.devRef .tc main_v18) = val_main_v18 (F := F) (V (Proc.devRef .tc main_arg1)) (V (Proc.devRef .tc main_arg2)) := st0_v18 V
theorem A1_v19 : A1 V (Proc.devRef .tc main_v19) = val_main_v19 (F := F) (V (Proc.devRef .tc main_arg1)) (V (Proc.devRef .tc main_arg2)) :=
  st1_v19 (A0 V) _ _ (A0_v18 V)
theorem A2_v26 : A2 V (Proc.devRef .tc main_v26) = val_main_v26 (F := F) (V (Proc.devRef .tc main_arg0)) (V (Proc.devRef .tc main_arg2)) :=
  st2_v26 (A1 V) _ _ (A1_keep V main_arg0 (by decide) (by decide))
    ((frame1 (A0 V) main_v1 (by decide)).trans (A0_v1 V))
theorem A2_v33 : A2 V (Proc.devRef .tc main_v33) = val_main_v33 (F := F) (V (Proc.devRef .tc main_arg0)) (V (Proc.devRef .tc main_arg2)) :=
  st2_v33 (A1 V) _ _ (A1_keep V main_arg0 (by decide) (by decide))
    ((frame1 (A0 V) main_v3 (by decide)).trans (A0_v3 V))
theorem A3_v34 : A3 V (Proc.devRef .tc main_v34) = val_main_v34 (F := F) (V (Proc.devRef .tc main_arg0)) (V (Proc.devRef .tc main_arg1)) (V (Proc.devRef .tc main_arg2)) :=
  st3_v34 (A2 V) _ _ _ (A2_v26 V)
    (A2_v33 V)
    ((frame2 (A1 V) main_v19 (by decide)).trans (A1_v19 V))
theorem A4_v38 : A4 V (Proc.devRef .tc main_v38) = val_main_v38 (F := F) (V (Proc.devRef .tc main_arg0)) (V (Proc.devRef .tc main_arg1)) (V (Proc.devRef .tc main_arg2)) (V (Proc.devRef .tc main_arg3)) (V (Proc.devRef .tc main_arg4)) :=
  st4_v38 (A3 V) _ _ _ _ _ (A3_v34 V)
    (A3_keep V main_arg3 (by decide) (by decide) (by decide) (by decide))
    (A3_keep V main_arg4 (by decide) (by decide) (by decide) (by decide))
theorem A5_v39 : A5 V (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) :=
  st5_v39 (A4 V) _ _ _ _ _ (A4_v38 V)
theorem A6_v43 : A6 V (Proc.devRef .tc main_v43) = val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  st6_v43 (A5 V) _ _ _ _ _ _ _ (A5_v39 V)
    (A5_keep V main_arg5 (by decide) (by decide) (by decide) (by decide) (by decide) (by decide))
    (A5_keep V main_arg6 (by decide) (by decide) (by decide) (by decide) (by decide) (by decide))
theorem A6_v46 : A6 V (Proc.devRef .tc main_v46) = val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  st6_v46 (A5 V) _ _ _ _ _ _ _ (A5_v39 V)
    (A5_keep V main_arg5 (by decide) (by decide) (by decide) (by decide) (by decide) (by decide))
    (A5_keep V main_arg6 (by decide) (by decide) (by decide) (by decide) (by decide) (by decide))
    (((frame5 (A4 V) main_v3 (by decide)).trans ((frame4 (A3 V) main_v3 (by decide)).trans ((frame3 (A2 V) main_v3 (by decide)).trans ((frame2 (A1 V) main_v3 (by decide)).trans (frame1 (A0 V) main_v3 (by decide)))))).trans (A0_v3 V))
theorem A7_v47 : A7 V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  st7_v47 (A6 V) _ _ _ _ _ _ _ (A6_keep V main_arg0 (by decide) (by decide) (by decide) (by decide) (by decide) (by decide) (by decide))
    (A6_v46 V)
theorem A8_v48 : A8 V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  st8_v48 (A7 V) _ _ _ _ _ _ _ _ (A7_v47 V)
    (A7_keep V main_arg7 (by decide) (by decide) (by decide) (by decide) (by decide) (by decide) (by decide) (by decide))
theorem A8_v50 : A8 V (Proc.devRef .tc main_v50) = val_main_v50 (F := F) (V (Proc.devRef .tc main_arg8)) :=
  st8_v50 (A7 V) _ (A7_keep V main_arg8 (by decide) (by decide) (by decide) (by decide) (by decide) (by decide) (by decide) (by decide))
theorem A9_v51 : A9 V (Proc.devRef .tc main_v51) = val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  st9_v51 (A8 V) _ _ _ _ _ _ _ _ _ (A8_v48 V)
    (A8_v50 V)
theorem A10_v52 : A10 V (Proc.devRef .tc main_v52) = val_main_v52 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  st10_v52 (A9 V) _ _ _ _ _ _ _ _ _ (A9_v51 V)
theorem A11_v57 : A11 V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  st11_v57 (A10 V) _ _ _ _ _ _ _ _ _ _ _ (A10_v52 V)
    (A10_keep V main_arg9 (by decide) (by decide) (by decide) (by decide) (by decide) (by decide) (by decide) (by decide) (by decide) (by decide) (by decide))
    (A10_keep V main_arg10 (by decide) (by decide) (by decide) (by decide) (by decide) (by decide) (by decide) (by decide) (by decide) (by decide) (by decide))
    (A10_keep V main_arg0 (by decide) (by decide) (by decide) (by decide) (by decide) (by decide) (by decide) (by decide) (by decide) (by decide) (by decide))
theorem A11_v61 : A11 V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) :=
  st11_v61 (A10 V) _ _ _ _ _ _ _ _ _ (((frame10 (A9 V) main_v43 (by decide)).trans ((frame9 (A8 V) main_v43 (by decide)).trans ((frame8 (A7 V) main_v43 (by decide)).trans (frame7 (A6 V) main_v43 (by decide))))).trans (A6_v43 V))
    (A10_keep V main_arg11 (by decide) (by decide) (by decide) (by decide) (by decide) (by decide) (by decide) (by decide) (by decide) (by decide) (by decide))
    (A10_keep V main_arg12 (by decide) (by decide) (by decide) (by decide) (by decide) (by decide) (by decide) (by decide) (by decide) (by decide) (by decide))
theorem A12_v62 : A12 V (Proc.devRef .tc main_v62) = val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) :=
  st12_v62 (A11 V) _ _ _ _ _ _ _ _ _ (A11_v61 V)
theorem A13_v69 : A13 V (Proc.devRef .tc main_v69) = val_main_v69 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg11)) (V (Proc.devRef .tc main_arg12)) (V (Proc.devRef .tc main_arg13)) :=
  st13_v69 (A12 V) _ _ _ _ _ _ _ _ _ _ (A12_v62 V)
    (A12_keep V main_arg13 (by decide) (by decide) (by decide) (by decide) (by decide) (by decide) (by decide) (by decide) (by decide) (by decide) (by decide) (by decide) (by decide))
    (((frame12 (A11 V) main_v18 (by decide)).trans ((frame11 (A10 V) main_v18 (by decide)).trans ((frame10 (A9 V) main_v18 (by decide)).trans ((frame9 (A8 V) main_v18 (by decide)).trans ((frame8 (A7 V) main_v18 (by decide)).trans ((frame7 (A6 V) main_v18 (by decide)).trans ((frame6 (A5 V) main_v18 (by decide)).trans ((frame5 (A4 V) main_v18 (by decide)).trans ((frame4 (A3 V) main_v18 (by decide)).trans ((frame3 (A2 V) main_v18 (by decide)).trans ((frame2 (A1 V) main_v18 (by decide)).trans (frame1 (A0 V) main_v18 (by decide))))))))))))).trans (A0_v18 V))
    (((frame12 (A11 V) main_v3 (by decide)).trans ((frame11 (A10 V) main_v3 (by decide)).trans ((frame10 (A9 V) main_v3 (by decide)).trans ((frame9 (A8 V) main_v3 (by decide)).trans ((frame8 (A7 V) main_v3 (by decide)).trans ((frame7 (A6 V) main_v3 (by decide)).trans ((frame6 (A5 V) main_v3 (by decide)).trans ((frame5 (A4 V) main_v3 (by decide)).trans ((frame4 (A3 V) main_v3 (by decide)).trans ((frame3 (A2 V) main_v3 (by decide)).trans ((frame2 (A1 V) main_v3 (by decide)).trans (frame1 (A0 V) main_v3 (by decide))))))))))))).trans (A0_v3 V))
    (A12_keep V main_arg1 (by decide) (by decide) (by decide) (by decide) (by decide) (by decide) (by decide) (by decide) (by decide) (by decide) (by decide) (by decide) (by decide))
theorem A13_v57 : A13 V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  (((frame13 (A12 V) main_v57 (by decide)).trans (frame12 (A11 V) main_v57 (by decide))).trans (A11_v57 V))

end Chain

/-! ## The run -/

/-- The first result as the stages compose it from the argument arrays. -/
def res_main_v57 (m : (ℓ : Loc nD τ sig) → Buf (Elt F) ℓ) (c : Dev nD) : Buf (Elt F) ((c.tc : Thread nD τ).loc main_v57) :=
  val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The second result as the stages compose it from the argument arrays. -/
def res_main_v69 (m : (ℓ : Loc nD τ sig) → Buf (Elt F) ℓ) (c : Dev nD) : Buf (Elt F) ((c.tc : Thread nD τ).loc main_v69) :=
  val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13))

/-- On every device, from any memory with zero counters: every weakly fair execution of @main terminates with each
    result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = res_main_v57 m c
      ∧ r.2.mem ((c.tc : Thread nD τ).loc main_v69) = res_main_v69 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      ⟨(h c main_v57).trans ((congrFun (after_ops _) _).trans (A13_v57 _)),
       (h c main_v69).trans ((congrFun (after_ops _) _).trans (A13_v69 _)),
       (h c main_arg0).trans ((congrFun (after_ops _) _).trans (A13_keep _ main_arg0 (by decide) (by decide) (by decide) (by decide) (by decide) (by decide) (by decide) (by decide) (by decide) (by decide) (by decide) (by decide) (by decide) (by decide))),
       (h c main_arg1).trans ((congrFun (after_ops _) _).trans (A13_keep _ main_arg1 (by decide) (by decide) (by decide) (by decide) (by decide) (by decide) (by decide) (by decide) (by decide) (by decide) (by decide) (by decide) (by decide) (by decide))),
       (h c main_arg2).trans ((congrFun (after_ops _) _).trans (A13_keep _ main_arg2 (by decide) (by decide) (by decide) (by decide) (by decide) (by decide) (by decide) (by decide) (by decide) (by decide) (by decide) (by decide) (by decide) (by decide))),
       (h c main_arg3).trans ((congrFun (after_ops _) _).trans (A13_keep _ main_arg3 (by decide) (by decide) (by decide) (by decide) (by decide) (by decide) (by decide) (by decide) (by decide) (by decide) (by decide) (by decide) (by decide) (by decide))),
       (h c main_arg4).trans ((congrFun (after_ops _) _).trans (A13_keep _ main_arg4 (by decide) (by decide) (by decide) (by decide) (by decide) (by decide) (by decide) (by decide) (by decide) (by decide) (by decide) (by decide) (by decide) (by decide))),
       (h c main_arg5).trans ((congrFun (after_ops _) _).trans (A13_keep _ main_arg5 (by decide) (by decide) (by decide) (by decide) (by decide) (by decide) (by decide) (by decide) (by decide) (by decide) (by decide) (by decide) (by decide) (by decide))),
       (h c main_arg6).trans ((congrFun (after_ops _) _).trans (A13_keep _ main_arg6 (by decide) (by decide) (by decide) (by decide) (by decide) (by decide) (by decide) (by decide) (by decide) (by decide) (by decide) (by decide) (by decide) (by decide))),
       (h c main_arg7).trans ((congrFun (after_ops _) _).trans (A13_keep _ main_arg7 (by decide) (by decide) (by decide) (by decide) (by decide) (by decide) (by decide) (by decide) (by decide) (by decide) (by decide) (by decide) (by decide) (by decide))),
       (h c main_arg8).trans ((congrFun (after_ops _) _).trans (A13_keep _ main_arg8 (by decide) (by decide) (by decide) (by decide) (by decide) (by decide) (by decide) (by decide) (by decide) (by decide) (by decide) (by decide) (by decide) (by decide))),
       (h c main_arg9).trans ((congrFun (after_ops _) _).trans (A13_keep _ main_arg9 (by decide) (by decide) (by decide) (by decide) (by decide) (by decide) (by decide) (by decide) (by decide) (by decide) (by decide) (by decide) (by decide) (by decide))),
       (h c main_arg10).trans ((congrFun (after_ops _) _).trans (A13_keep _ main_arg10 (by decide) (by decide) (by decide) (by decide) (by decide) (by decide) (by decide) (by decide) (by decide) (by decide) (by decide) (by decide) (by decide) (by decide))),
       (h c main_arg11).trans ((congrFun (after_ops _) _).trans (A13_keep _ main_arg11 (by decide) (by decide) (by decide) (by decide) (by decide) (by decide) (by decide) (by decide) (by decide) (by decide) (by decide) (by decide) (by decide) (by decide))),
       (h c main_arg12).trans ((congrFun (after_ops _) _).trans (A13_keep _ main_arg12 (by decide) (by decide) (by decide) (by decide) (by decide) (by decide) (by decide) (by decide) (by decide) (by decide) (by decide) (by decide) (by decide) (by decide))),
       (h c main_arg13).trans ((congrFun (after_ops _) _).trans (A13_keep _ main_arg13 (by decide) (by decide) (by decide) (by decide) (by decide) (by decide) (by decide) (by decide) (by decide) (by decide) (by decide) (by decide) (by decide) (by decide)))⟩)
    (run_seq scopedRefs_eq scopedSems_eq defs main (fun _ => ops) main_eq (fun _ => ops_sub) m ρ (fun _ => ops_fresh))

end Cert.ReferenceIdeal.ValueP

end
-- ==== Proof.Spec.lean ====
/-
  The layer's arithmetic, over plain tables of extended reals (no program, no shapes): an edge's message from the two
  end points' feature rows and their distance, its coordinate update, and a node's residual update from its
  aggregated messages. Every function is ROW-LOCAL: row `e` of the result reads row `e` of each per-row table and
  the weight tables whole, so a block of rows of the result is the function of the same block of rows of its inputs.
-/
import Idealize.ShloMosaic.PureOps.Ideal
import Idealize.ShloMosaic.Lib.ValueIdx

noncomputable section

open scoped BigOperators

namespace Cert.EGNN

open Idealize.ShloMosaic Idealize.ShloMosaic.ValueIdx

/-- An `n × m` table of extended reals, by row and column. -/
abbrev Tab (n m : Nat) : Type := Fin n → Fin m → EReal

/-- A rank-2 array read as a table. -/
abbrev tab {n m : Nat} (X : (⟨2, ![n, m]⟩ : Shape).Idx → EReal) : Tab n m := fun a b => X (ix2 a b)

/-- A table laid out as a rank-2 array. -/
abbrev untab {n m : Nat} (T : Tab n m) : (⟨2, ![n, m]⟩ : Shape).Idx → EReal :=
  fun i => T ⟨(i 0).val, idx2_lt0 i⟩ ⟨(i 1).val, idx2_lt1 i⟩

theorem untab_ix2 {n m : Nat} (T : Tab n m) (a : Fin n) (b : Fin m) : untab T (ix2 a b) = T a b := rfl

theorem untab_tab {n m : Nat} (X : (⟨2, ![n, m]⟩ : Shape).Idx → EReal) : untab (tab X) = X := by
  funext i
  show X (ix2 _ _) = X i
  exact congrArg X (eq_ix2 i).symm

/-- A rank-1 array read as a function of its one coordinate. -/
abbrev vec {m : Nat} (b : (⟨1, ![m]⟩ : Shape).Idx → EReal) : Fin m → EReal := fun k => b (ix1 k)

/-- `cnt` consecutive rows of a table, from row `off`. -/
def rowsFrom {n m : Nat} (off cnt : Nat) (h : off + cnt ≤ n) (W : Tab n m) : Tab cnt m :=
  fun i k => W ⟨off + i.val, by have := i.isLt; omega⟩ k

/-- A vector as a one-row table. -/
def asRow {m : Nat} (b : Fin m → EReal) : Tab 1 m := fun _ k => b k

/-- `x · σ(x)`, with `σ` the logistic function on the extended reals. -/
def silu (x : EReal) : EReal := x * Ideal.logistic x

/-- The first edge layer before its activation: the two end points' rows through their halves of the weight, the
    distance times the weight's last row, and the bias. -/
def edgePre {n : Nat} (HR HC : Tab n 128) (D : Tab n 1) (W1h W1c : Tab 128 128) (w1d b1 : Tab 1 128) : Tab n 128 :=
  fun e k => (((∑ i : Fin 128, HR e i * W1h i k) + (∑ i : Fin 128, HC e i * W1c i k)) + D e 0 * w1d 0 k) + b1 0 k

/-- The edge message: the activated first layer through the second weight, plus its bias. -/
def edgeMsg {n : Nat} (HR HC : Tab n 128) (D : Tab n 1) (W1h W1c : Tab 128 128) (w1d b1 : Tab 1 128)
    (W2 : Tab 128 128) (b2 : Tab 1 128) : Tab n 128 :=
  fun e j => (∑ k : Fin 128, silu (edgePre HR HC D W1h W1c w1d b1 e k) * W2 k j) + b2 0 j

/-- The coordinate weight of an edge: its message through a two-layer map to one number. -/
def coordWeight {n : Nat} (M : Tab n 128) (Wc1 : Tab 128 128) (bc1 : Tab 1 128) (Wc2 : Tab 128 1) : Tab n 1 :=
  fun e z => ∑ k : Fin 128, silu ((∑ i : Fin 128, M e i * Wc1 i k) + bc1 0 k) * Wc2 k z

/-- The coordinate update an edge contributes: its relative position scaled by its coordinate weight. -/
def coordDiff {n : Nat} (R : Tab n 3) (M : Tab n 128) (Wc1 : Tab 128 128) (bc1 : Tab 1 128) (Wc2 : Tab 128 1) : Tab n 3 :=
  fun e d => R e d * coordWeight M Wc1 bc1 Wc2 e 0

/-- A node's new features: the old ones plus a two-layer map of the old ones and the aggregated messages. -/
def nodeNew {n : Nat} (H A : Tab n 128) (Wh Wa : Tab 128 128) (b1 : Tab 1 128) (W2 : Tab 128 128) (b2 : Tab 1 128) : Tab n 128 :=
  fun v j => H v j + ((∑ k : Fin 128, silu (((∑ i : Fin 128, H v i * Wh i k) + (∑ i : Fin 128, A v i * Wa i k)) + b1 0 k) * W2 k j) + b2 0 j)

/-! ## Row locality -/

theorem edgeMsg_rows {n n' : Nat} (σ : Fin n' → Fin n) (HR HC : Tab n 128) (D : Tab n 1) (W1h W1c : Tab 128 128)
    (w1d b1 : Tab 1 128) (W2 : Tab 128 128) (b2 : Tab 1 128) (p : Fin n') (j : Fin 128) :
    edgeMsg (fun a => HR (σ a)) (fun a => HC (σ a)) (fun a => D (σ a)) W1h W1c w1d b1 W2 b2 p j
      = edgeMsg HR HC D W1h W1c w1d b1 W2 b2 (σ p) j := rfl

theorem coordDiff_rows {n n' : Nat} (σ : Fin n' → Fin n) (R : Tab n 3) (M : Tab n 128) (Wc1 : Tab 128 128) (bc1 : Tab 1 128)
    (Wc2 : Tab 128 1) (p : Fin n') (d : Fin 3) :
    coordDiff (fun a => R (σ a)) (fun a => M (σ a)) Wc1 bc1 Wc2 p d = coordDiff R M Wc1 bc1 Wc2 (σ p) d := rfl

theorem nodeNew_rows {n n' : Nat} (σ : Fin n' → Fin n) (H A : Tab n 128) (Wh Wa : Tab 128 128) (b1 : Tab 1 128)
    (W2 : Tab 128 128) (b2 : Tab 1 128) (p : Fin n') (j : Fin 128) :
    nodeNew (fun a => H (σ a)) (fun a => A (σ a)) Wh Wa b1 W2 b2 p j = nodeNew H A Wh Wa b1 W2 b2 (σ p) j := rfl

/-! ## A sum over a joined axis is the sum of the parts' sums (no finiteness: addition of extended reals is
    commutative and associative) -/

theorem sum_join2 (f : Fin 256 → EReal) :
    (∑ k : Fin 256, f k) = (∑ i : Fin 128, f ⟨i.val, by omega⟩) + (∑ i : Fin 128, f ⟨128 + i.val, by omega⟩) :=
  Fin.sum_univ_add (a := 128) (b := 128) (fun k : Fin (128 + 128) => f k)

theorem sum_join3 (f : Fin 257 → EReal) :
    (∑ k : Fin 257, f k)
      = ((∑ i : Fin 128, f ⟨i.val, by omega⟩) + (∑ i : Fin 128, f ⟨128 + i.val, by omega⟩)) + f ⟨256, by omega⟩ := by
  have h : (∑ k : Fin 257, f k) = (∑ k : Fin 256, f ⟨k.val, by omega⟩) + f ⟨256, by omega⟩ :=
    Fin.sum_univ_castSucc (n := 256) (fun k : Fin (256 + 1) => f k)
  rw [h, sum_join2 (fun k : Fin 256 => f ⟨k.val, by omega⟩)]

end Cert.EGNN

end
-- ==== Proof.EdgeBody.lean ====
/-
  The edge kernel's two payloads at the ideal values, read at an index: the message block is `edgeMsg` of the
  loaded blocks' tables and the coordinate block is `coordDiff` of them (Spec.lean). Format changes are the
  identity, each matrix product into a zero accumulator is the sum over the contracted axis, and `x · logistic x`
  is `silu x`.
-/
import proofs.«415618_j10084583211152_1_alg».proof.Proof.Gen.KernelIdeal.Skeleton
import proofs.«415618_j10084583211152_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgeBody

open Cert.KernelIdeal Cert.KernelIdeal.Gen Cert.EGNN Idealize.ShloMosaic Idealize.ShloMosaic.ValueIdx

/-! ## A matrix product into the zero accumulator, read at an index

For each of the two products' dimension numbers (rows × contraction times contraction × columns, one contracted
axis): the operand indices at output index `i` and contraction index `q` are `(i 0, q)` and `(q, i 1)`, one lemma
per axis; then the product into zero at `(p, j)` is `∑ k, A (p, k) · B (k, j)`, the sum re-indexed by the
contraction index's one coordinate. -/

theorem lhs_sq_0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl
theorem lhs_sq_1 (i : S8000x128.Idx) (q : dot_S8000x128_S128x128_S8000x128_1_0_0_1_n_n.contr.Idx) : (dot_S8000x128_S128x128_S8000x128_1_0_0_1_n_n.lhsIdx i q 1).val = (q ⟨0, by decide⟩).val :=
  dot_S8000x128_S128x128_S8000x128_1_0_0_1_n_n.lhsIdx_val_of_single rfl i q
theorem rhs_sq_0 (i : S8000x128.Idx) (q : dot_S8000x128_S128x128_S8000x128_1_0_0_1_n_n.contr.Idx) : (dot_S8000x128_S128x128_S8000x128_1_0_0_1_n_n.rhsIdx i q 0).val = (q ⟨0, by decide⟩).val :=
  dot_S8000x128_S128x128_S8000x128_1_0_0_1_n_n.rhsIdx_val_of_single rfl i q
theorem rhs_sq_1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- An 8000×128 by 128×128 product into zero, at `(p, j)`, is the sum over the contracted axis. -/
theorem matmul_sq_apply {φ₁ φ₂ : FTy} (A : FVec Ideal S8000x128 φ₁) (B : FVec Ideal S128x128 φ₂) (p : Fin 8000) (j : Fin 128) :
    matmul dot_S8000x128_S128x128_S8000x128_1_0_0_1_n_n none A B (constant (F := Ideal) S8000x128 .f32 0x00000000#32) (ix2 p j)
      = ∑ k : Fin 128, A (ix2 p k) * B (ix2 k j) := by
  refine (Ideal.matmul_constant_zero_apply dot_S8000x128_S128x128_S8000x128_1_0_0_1_n_n none A B (ix2 p j)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p j) ((contrEquiv1 dot_S8000x128_S128x128_S8000x128_1_0_0_1_n_n 128 rfl rfl).symm k) = ix2 p k :=
    funext fun a => Fin.ext (by
      match a with
      | ⟨0, _⟩ => exact lhs_sq_0 _ _
      | ⟨1, _⟩ => exact (lhs_sq_1 _ _).trans hk)
  have er : dot_S8000x128_S128x128_S8000x128_1_0_0_1_n_n.rhsIdx (ix2 p j) ((contrEquiv1 dot_S8000x128_S128x128_S8000x128_1_0_0_1_n_n 128 rfl rfl).symm k) = ix2 k j :=
    funext fun a => Fin.ext (by
      match a with
      | ⟨0, _⟩ => exact (rhs_sq_0 _ _).trans hk
      | ⟨1, _⟩ => exact rhs_sq_1 _ _)
  rw [el, er]

theorem lhs_col_0 (i : S8000x1.Idx) (q : dot_S8000x128_S128x1_S8000x1_1_0_0_1_n_n.contr.Idx) : (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide),
    dif_pos (show (0 : Fin S8000x128.rank) ∈ dot_S8000x128_S128x1_S8000x1_1_0_0_1_n_n.lhsNonContracting by decide)]
  rfl
theorem lhs_col_1 (i : S8000x1.Idx) (q : dot_S8000x128_S128x1_S8000x1_1_0_0_1_n_n.contr.Idx) : (dot_S8000x128_S128x1_S8000x1_1_0_0_1_n_n.lhsIdx i q 1).val = (q ⟨0, by decide⟩).val :=
  dot_S8000x128_S128x1_S8000x1_1_0_0_1_n_n.lhsIdx_val_of_single rfl i q
theorem rhs_col_0 (i : S8000x1.Idx) (q : dot_S8000x128_S128x1_S8000x1_1_0_0_1_n_n.contr.Idx) : (dot_S8000x128_S128x1_S8000x1_1_0_0_1_n_n.rhsIdx i q 0).val = (q ⟨0, by decide⟩).val :=
  dot_S8000x128_S128x1_S8000x1_1_0_0_1_n_n.rhsIdx_val_of_single rfl i q
theorem rhs_col_1 (i : S8000x1.Idx) (q : dot_S8000x128_S128x1_S8000x1_1_0_0_1_n_n.contr.Idx) : (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide),
    dif_pos (show (1 : Fin S128x1.rank) ∈ dot_S8000x128_S128x1_S8000x1_1_0_0_1_n_n.rhsNonContracting by decide)]
  rfl

/-- An 8000×128 by 128×1 product into zero, at `(p, j)`, is the sum over the contracted axis. -/
theorem matmul_col_apply {φ₁ φ₂ : FTy} (A : FVec Ideal S8000x128 φ₁) (B : FVec Ideal S128x1 φ₂) (p : Fin 8000) (j : Fin 1) :
    matmul dot_S8000x128_S128x1_S8000x1_1_0_0_1_n_n none A B (constant (F := Ideal) S8000x1 .f32 0x00000000#32) (ix2 p j)
      = ∑ k : Fin 128, A (ix2 p k) * B (ix2 k j) := by
  refine (Ideal.matmul_constant_zero_apply dot_S8000x128_S128x1_S8000x1_1_0_0_1_n_n none A B (ix2 p j)).trans ?_
  rw [← Equiv.sum_comp (contrEquiv1 dot_S8000x128_S128x1_S8000x1_1_0_0_1_n_n 128 rfl rfl).symm]
  refine Finset.sum_congr rfl fun k _ => ?_
  have hk := contrEquiv1_symm_val dot_S8000x128_S128x1_S8000x1_1_0_0_1_n_n 128 rfl rfl k
  have el : dot_S8000x128_S128x1_S8000x1_1_0_0_1_n_n.lhsIdx (ix2 p j) ((contrEquiv1 dot_S8000x128_S128x1_S8000x1_1_0_0_1_n_n 128 rfl rfl).symm k) = ix2 p k :=
    funext fun a => Fin.ext (by
      match a with
      | ⟨0, _⟩ => exact lhs_col_0 _ _
      | ⟨1, _⟩ => exact (lhs_col_1 _ _).trans hk)
  have er : dot_S8000x128_S128x1_S8000x1_1_0_0_1_n_n.rhsIdx (ix2 p j) ((contrEquiv1 dot_S8000x128_S128x1_S8000x1_1_0_0_1_n_n 128 rfl rfl).symm k) = ix2 k j :=
    funext fun a => Fin.ext (by
      match a with
      | ⟨0, _⟩ => exact (rhs_col_0 _ _).trans hk
      | ⟨1, _⟩ => exact rhs_col_1 _ _)
  rw [el, er]

/-! ## Broadcasts of a row and of a column, read at an index -/

/-- A 1×128 row broadcast down 8000 rows reads the row's column `j`. -/
theorem bcast_row_apply {α : Type} (v : S1x128.Idx → α) (p : Fin 8000) (j : Fin 128) :
    broadcastTo S8000x128 v broadcasts_S1x128_S8000x128 (ix2 p j) = v (ix2 0 j) :=
  broadcastTo_apply v broadcasts_S1x128_S8000x128 (ix2 p j) (ix2 0 j) (fun a => match a with
    | ⟨0, _⟩ => by show (0 : Nat) = if (1 : Nat) = 1 then 0 else p.val; rw [if_pos rfl]
    | ⟨1, _⟩ => by show j.val = if (128 : Nat) = 1 then 0 else j.val; rw [if_neg (by decide)])

/-- An 8000×1 column broadcast across 128 columns reads the column's row `p`. -/
theorem bcast_col_apply {α : Type} (v : S8000x1.Idx → α) (p : Fin 8000) (j : Fin 128) :
    broadcastTo S8000x128 v broadcasts_S8000x1_S8000x128 (ix2 p j) = v (ix2 p 0) :=
  broadcastTo_apply v broadcasts_S8000x1_S8000x128 (ix2 p j) (ix2 p 0) (fun a => match a with
    | ⟨0, _⟩ => by show p.val = if (8000 : Nat) = 1 then 0 else p.val; rw [if_neg (by decide)]
    | ⟨1, _⟩ => by show (0 : Nat) = if (1 : Nat) = 1 then 0 else j.val; rw [if_pos rfl])

/-- An 8000×1 column broadcast across 3 columns reads the column's row `p`. -/
theorem bcast_col3_apply {α : Type} (v : S8000x1.Idx → α) (p : Fin 8000) (q : Fin 3) :
    broadcastTo S8000x3 v broadcasts_S8000x1_S8000x3 (ix2 p q) = v (ix2 p 0) :=
  broadcastTo_apply v broadcasts_S8000x1_S8000x3 (ix2 p q) (ix2 p 0) (fun a => match a with
    | ⟨0, _⟩ => by show p.val = if (8000 : Nat) = 1 then 0 else p.val; rw [if_neg (by decide)]
    | ⟨1, _⟩ => by show (0 : Nat) = if (1 : Nat) = 1 then 0 else q.val; rw [if_pos rfl])

/-! ## The layers of the two payloads over arbitrary operands -/

/-- A truncated 8000×128 block through a truncated 128×128 weight, into zero, at `(p, j)`. -/
theorem prod_apply (X : FVec Ideal S8000x128 .f32) (W : FVec Ideal S128x128 .f32) (p : Fin 8000) (j : Fin 128) :
    matmul dot_S8000x128_S128x128_S8000x128_1_0_0_1_n_n none (truncf .bf16 X bitsLt_bf16_f32) (truncf .bf16 W bitsLt_bf16_f32)
        (constant (F := Ideal) S8000x128 .f32 0x00000000#32) (ix2 p j)
      = ∑ k : Fin 128, X (ix2 p k) * W (ix2 k j) :=
  matmul_sq_apply (truncf .bf16 X bitsLt_bf16_f32) (truncf .bf16 W bitsLt_bf16_f32) p j

/-- A truncated 8000×128 block through a truncated 128×1 weight, into zero, at `(p, z)`. -/
theorem prod_col_apply (X : FVec Ideal S8000x128 .f32) (W : FVec Ideal S128x1 .f32) (p : Fin 8000) (z : Fin 1) :
    matmul dot_S8000x128_S128x1_S8000x1_1_0_0_1_n_n none (truncf .bf16 X bitsLt_bf16_f32) (truncf .bf16 W bitsLt_bf16_f32)
        (constant (F := Ideal) S8000x1 .f32 0x00000000#32) (ix2 p z)
      = ∑ k : Fin 128, X (ix2 p k) * W (ix2 k z) :=
  matmul_col_apply (truncf .bf16 X bitsLt_bf16_f32) (truncf .bf16 W bitsLt_bf16_f32) p z

/-- The first edge layer before its activation, at `(p, k)`. -/
theorem pre_apply (a b : FVec Ideal S8000x128 .f32) (c d : FVec Ideal S128x128 .f32) (e : FVec Ideal S8000x1 .f32)
    (f g : FVec Ideal S1x128 .f32) (p : Fin 8000) (k : Fin 128) :
    addf (addf (addf
        (matmul dot_S8000x128_S128x128_S8000x128_1_0_0_1_n_n none (truncf .bf16 a bitsLt_bf16_f32) (truncf .bf16 c bitsLt_bf16_f32)
          (constant (F := Ideal) S8000x128 .f32 0x00000000#32))
        (matmul dot_S8000x128_S128x128_S8000x128_1_0_0_1_n_n none (truncf .bf16 b bitsLt_bf16_f32) (truncf .bf16 d bitsLt_bf16_f32)
          (constant (F := Ideal) S8000x128 .f32 0x00000000#32)))
        (mulf (broadcastTo S8000x128 e broadcasts_S8000x1_S8000x128) (broadcastTo S8000x128 f broadcasts_S1x128_S8000x128)))
        (broadcastTo S8000x128 g broadcasts_S1x128_S8000x128) (ix2 p k)
      = edgePre (tab a) (tab b) (tab e) (tab c) (tab d) (tab f) (tab g) p k := by
  show ((matmul dot_S8000x128_S128x128_S8000x128_1_0_0_1_n_n none (truncf .bf16 a bitsLt_bf16_f32) (truncf .bf16 c bitsLt_bf16_f32)
          (constant (F := Ideal) S8000x128 .f32 0x00000000#32) (ix2 p k)
        + matmul dot_S8000x128_S128x128_S8000x128_1_0_0_1_n_n none (truncf .bf16 b bitsLt_bf16_f32) (truncf .bf16 d bitsLt_bf16_f32)
          (constant (F := Ideal) S8000x128 .f32 0x00000000#32) (ix2 p k))
        + broadcastTo S8000x128 e broadcasts_S8000x1_S8000x128 (ix2 p k) * broadcastTo S8000x128 f broadcasts_S1x128_S8000x128 (ix2 p k))
        + broadcastTo S8000x128 g broadcasts_S1x128_S8000x128 (ix2 p k) = _
  rw [prod_apply, prod_apply, bcast_col_apply, bcast_row_apply, bcast_row_apply]
  rfl

/-! ## The two payloads -/

/-- The message payload at row `p`, column `j` of its block. -/
theorem msg_payload (a b : Vec Ideal S8000x128 .f32) (c d : Vec Ideal S128x128 .f32) (e : Vec Ideal S8000x1 .f32)
    (f g : Vec Ideal S1x128 .f32) (h : Vec Ideal S128x128 .f32) (k : Vec Ideal S1x128 .f32) (p : Fin 8000) (j : Fin 128) :
    k0_pay2 (F := Ideal) a b c d e f g h k (ix2 p j)
      = edgeMsg (tab a) (tab b) (tab e) (tab c) (tab d) (tab f) (tab g) (tab h) (tab k) p j := by
  unfold k0_pay2
  simp only [shapeCast_self]
  refine (congrArg₂ (· + ·) (prod_apply _ _ p j) (bcast_row_apply _ p j)).trans ?_
  unfold edgeMsg
  refine congrArg₂ (· + ·) (Finset.sum_congr rfl fun i _ => ?_) rfl
  refine congrArg₂ (· * ·) ?_ rfl
  exact congrArg silu (pre_apply a b c d e f g p i)

/-- The coordinate payload at row `p`, column `q` of its block, from the message block `M`. -/
theorem coord_payload (M : FVec Ideal S8000x128 .f32) (w1 : Vec Ideal S128x128 .f32) (b1 : Vec Ideal S1x128 .f32)
    (w2 : Vec Ideal S128x1 .f32) (r : Vec Ideal S8000x3 .f32) (p : Fin 8000) (q : Fin 3) :
    k0_pay1 (F := Ideal) M w1 b1 w2 r (ix2 p q) = coordDiff (tab r) (tab M) (tab w1) (tab b1) (tab w2) p q := by
  unfold k0_pay1
  simp only [shapeCast_self]
  refine (congrArg₂ (· * ·) rfl (bcast_col3_apply _ p q)).trans ?_
  unfold coordDiff coordWeight
  refine congrArg₂ (· * ·) rfl ?_
  refine (prod_col_apply _ _ p 0).trans ?_
  refine Finset.sum_congr rfl fun i _ => ?_
  refine congrArg₂ (· * ·) ?_ rfl
  refine congrArg silu ?_
  exact congrArg₂ (· + ·) (prod_apply M w1 p i) (bcast_row_apply b1 p i)

end Cert.KernelIdeal.EdgeBody

end
-- ==== Proof.EdgeArrays.lean ====
/-
  Region 0's two output arrays after its last grid point, for any entry contents `V`: every block of 8000 rows is
  written once, by the point of the same number, with the payload of that point's input blocks; the per-row inputs'
  blocks are the same rows of their arrays and the weights' blocks are the whole weights, so by row locality the
  arrays end at `edgeMsg` and `coordDiff` of the input arrays' tables.
-/
import proofs.«415618_j10084583211152_1_alg».proof.Proof.Gen.KernelIdeal.Frame
import proofs.«415618_j10084583211152_1_alg».proof.Proof.EdgeBody
import Idealize.ShloMosaic.Lib.Pipeline.Value

set_option maxRecDepth 16384

noncomputable section

open scoped BigOperators

namespace Cert.KernelIdeal.EdgeArrays

open Cert.KernelIdeal Cert.KernelIdeal.Gen Cert.EGNN Idealize.ShloMosaic Idealize.ShloMosaic.ValueIdx Idealize.ShloMosaic.TcCoe
open Idealize.SL.Sem

variable (V : (c : Dev nD) → (b : Ref sig .tc) → Buf (Elt Ideal) ((c : Thread nD τ).loc b))

/-- The message array the region leaves, as one function of the arrays it was entered with. -/
def msgOf (c : Dev nD) : S800000x128.Idx → EReal :=
  untab (edgeMsg (tab (V c main_v4)) (tab (V c main_v5)) (tab (V c main_v9)) (tab (V c main_v10)) (tab (V c main_v11))
    (tab (V c main_v12)) (tab (V c main_v13)) (tab (V c main_arg5)) (tab (V c main_v14)))

/-- The coordinate-update array the region leaves. -/
def coordOf (c : Dev nD) : S800000x3.Idx → EReal :=
  untab (coordDiff (tab (V c main_v8)) (tab (msgOf V c)) (tab (V c main_arg11)) (tab (V c main_v15)) (tab (V c main_arg13)))

/-! ## Where a block sits in its array -/

/-- The zero offsets of a rank-2 rectangle, as the constant function. -/
theorem offsets_zero : (![0, 0] : Fin 2 → Nat) = fun _ => 0 := funext fun a => by fin_cases a <;> rfl

/-- The windows that move with the grid point (the two feature gathers, the distances, the relative positions, and
    the two results): at point `t` the block index is `(t, 0)`. -/
theorem edge_index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight and bias windows: at every point the block index is `(0, 0)`. -/
theorem edge_index_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Row `p` of the block of point `t` is edge `8000 t + p`. -/
def edgeRow (t : Fin cfg0.N) (p : Fin 8000) : Fin 800000 :=
  ⟨8000 * t.val + p.val, by have h : t.val < 100 := lt_of_lt_of_eq t.isLt N_0; have := p.isLt; omega⟩

/-! ## Each input window's block, read off its array -/

/-- Window 0's block at point `t`, as a table, is rows `8000 t … 8000 t + 7999` of its array's table: the block's
    element at `(p, q)` sits in the array at block index × block size + `(p, q)`. -/
theorem edge_blk0_tab (c : Dev nD) (t : Fin cfg0.N) :
    (tab (iblk0 V c 0 t : Vec Ideal S8000x128 .f32) : Tab 8000 128) = fun a => tab (V c main_v4 : S800000x128.Idx → EReal) (edgeRow t a) := by
  obtain ⟨e0, e1, -⟩ := edge_index_rows t
  funext p q
  show (iblk0 V c 0 t : Vec Ideal S8000x128 .f32) (ix2 p q) = (V c main_v4 : S800000x128.Idx → EReal) (ix2 (edgeRow t p) q)
  unfold iblk0
  rw [View.read_apply]
  show V c main_v4 _ = V c main_v4 _
  congr 1
  funext a
  apply Fin.ext
  match a with
  | ⟨0, _⟩ => show win0_0.index t 0 * 8000 + 1 * p.val = 8000 * t.val + p.val; rw [e0]; omega
  | ⟨1, _⟩ => show win0_0.index t 1 * 128 + 1 * q.val = q.val; rw [e1]; omega

/-- Window 1's block at point `t`, as a table, is rows `8000 t … 8000 t + 7999` of its array's table: the block's
    element at `(p, q)` sits in the array at block index × block size + `(p, q)`. -/
theorem edge_blk1_tab (c : Dev nD) (t : Fin cfg0.N) :
    (tab (iblk0 V c 1 t : Vec Ideal S8000x128 .f32) : Tab 8000 128) = fun a => tab (V c main_v5 : S800000x128.Idx → EReal) (edgeRow t a) := by
  obtain ⟨-, -, e0, e1, -⟩ := edge_index_rows t
  funext p q
  show (iblk0 V c 1 t : Vec Ideal S8000x128 .f32) (ix2 p q) = (V c main_v5 : S800000x128.Idx → EReal) (ix2 (edgeRow t p) q)
  unfold iblk0
  rw [View.read_apply]
  show V c main_v5 _ = V c main_v5 _
  congr 1
  funext a
  apply Fin.ext
  match a with
  | ⟨0, _⟩ => show win0_1.index t 0 * 8000 + 1 * p.val = 8000 * t.val + p.val; rw [e0]; omega
  | ⟨1, _⟩ => show win0_1.index t 1 * 128 + 1 * q.val = q.val; rw [e1]; omega

/-- Window 2's block at point `t`, as a table, is rows `8000 t … 8000 t + 7999` of its array's table: the block's
    element at `(p, q)` sits in the array at block index × block size + `(p, q)`. -/
theorem edge_blk2_tab (c : Dev nD) (t : Fin cfg0.N) :
    (tab (iblk0 V c 2 t : Vec Ideal S8000x1 .f32) : Tab 8000 1) = fun a => tab (V c main_v9 : S800000x1.Idx → EReal) (edgeRow t a) := by
  obtain ⟨-, -, -, -, e0, e1, -⟩ := edge_index_rows t
  funext p q
  show (iblk0 V c 2 t : Vec Ideal S8000x1 .f32) (ix2 p q) = (V c main_v9 : S800000x1.Idx → EReal) (ix2 (edgeRow t p) q)
  unfold iblk0
  rw [View.read_apply]
  show V c main_v9 _ = V c main_v9 _
  congr 1
  funext a
  apply Fin.ext
  match a with
  | ⟨0, _⟩ => show win0_2.index t 0 * 8000 + 1 * p.val = 8000 * t.val + p.val; rw [e0]; omega
  | ⟨1, _⟩ => show win0_2.index t 1 * 1 + 1 * q.val = q.val; rw [e1]; omega

/-- Window 3's block at point `t`, as a table, is rows `8000 t … 8000 t + 7999` of its array's table: the block's
    element at `(p, q)` sits in the array at block index × block size + `(p, q)`. -/
theorem edge_blk3_tab (c : Dev nD) (t : Fin cfg0.N) :
    (tab (iblk0 V c 3 t : Vec Ideal S8000x3 .f32) : Tab 8000 3) = fun a => tab (V c main_v8 : S800000x3.Idx → EReal) (edgeRow t a) := by
  obtain ⟨-, -, -, -, -, -, e0, e1, -⟩ := edge_index_rows t
  funext p q
  show (iblk0 V c 3 t : Vec Ideal S8000x3 .f32) (ix2 p q) = (V c main_v8 : S800000x3.Idx → EReal) (ix2 (edgeRow t p) q)
  unfold iblk0
  rw [View.read_apply]
  show V c main_v8 _ = V c main_v8 _
  congr 1
  funext a
  apply Fin.ext
  match a with
  | ⟨0, _⟩ => show win0_3.index t 0 * 8000 + 1 * p.val = 8000 * t.val + p.val; rw [e0]; omega
  | ⟨1, _⟩ => show win0_3.index t 1 * 3 + 1 * q.val = q.val; rw [e1]; omega

/-- Window 4's block at every point is its whole array (block index `(0, 0)`, block size the array's). -/
theorem edge_blk4_eq (c : Dev nD) (t : Fin cfg0.N) :
    (iblk0 V c 4 t : Vec Ideal S128x128 .f32) = (V c main_v10 : S128x128.Idx → EReal) := by
  obtain ⟨e0, e1, -⟩ := edge_index_whole t
  funext y
  unfold iblk0
  rw [View.read_apply]
  show V c main_v10 _ = V c main_v10 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- Window 5's block at every point is its whole array (block index `(0, 0)`, block size the array's). -/
theorem edge_blk5_eq (c : Dev nD) (t : Fin cfg0.N) :
    (iblk0 V c 5 t : Vec Ideal S128x128 .f32) = (V c main_v11 : S128x128.Idx → EReal) := by
  obtain ⟨-, -, e0, e1, -⟩ := edge_index_whole t
  funext y
  unfold iblk0
  rw [View.read_apply]
  show V c main_v11 _ = V c main_v11 _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-- Window 6's block at every point is its whole array (block index `(0, 0)`, block size the array's). -/
theorem edge_blk6_eq (c : Dev nD) (t : Fin cfg0.N) :
    (iblk0 V c 6 t : Vec Ideal S1x128 .f32) = (V c main_v12 : S1x128.Idx → EReal) := by
  obtain ⟨-, -, -, -, e0, e1, -⟩ := edge_index_whole t
  funext y
  unfold iblk0
  rw [View.read_apply]
  show V c main_v12 _ = V c main_v12 _
  congr 1
  funext a
  apply Fin.ext
  match a with
  | ⟨0, _⟩ => show win0_6.index t 0 * 1 + 1 * (y 0).val = (y 0).val; rw [e0]; omega
  | ⟨1, _⟩ => show win0_6.index t 1 * 128 + 1 * (y 1).val = (y 1).val; rw [e1]; omega

/-- Window 7's block at every point is its whole array (block index `(0, 0)`, block size the array's). -/
theorem edge_blk7_eq (c : Dev nD) (t : Fin cfg0.N) :
    (iblk0 V c 7 t : Vec Ideal S1x128 .f32) = (V c main_v13 : S1x128.Idx → EReal) := by
  obtain ⟨-, -, -, -, -, -, e0, e1, -⟩ := edge_index_whole t
  funext y
  unfold iblk0
  rw [View.read_apply]
  show V c main_v13 _ = V c main_v13 _
  congr 1
  funext a
  apply Fin.ext
  match a with
  | ⟨0, _⟩ => show win0_7.index t 0 * 1 + 1 * (y 0).val = (y 0).val; rw [e0]; omega
  | ⟨1, _⟩ => show win0_7.index t 1 * 128 + 1 * (y 1).val = (y 1).val; rw [e1]; omega

/-- Window 8's block at every point is its whole array (block index `(0, 0)`, block size the array's). -/
theorem edge_blk8_eq (c : Dev nD) (t : Fin cfg0.N) :
    (iblk0 V c 8 t : Vec Ideal S128x128 .f32) = (V c main_arg5 : S128x128.Idx → EReal) := by
  obtain ⟨-, -, -, -, -, -, -, -, e0, e1, -⟩ := edge_index_whole t
  funext y
  unfold iblk0
  rw [View.read_apply]
  show V c main_arg5 _ = V c main_arg5 _
  congr 1
  funext a
  apply Fin.ext
  match a with
  | ⟨0, _⟩ => show win0_8.index t 0 * 128 + 1 * (y 0).val = (y 0).val; rw [e0]; omega
  | ⟨1, _⟩ => show win0_8.index t 1 * 128 + 1 * (y 1).val = (y 1).val; rw [e1]; omega

/-- Window 9's block at every point is its whole array (block index `(0, 0)`, block size the array's). -/
theorem edge_blk9_eq (c : Dev nD) (t : Fin cfg0.N) :
    (iblk0 V c 9 t : Vec Ideal S1x128 .f32) = (V c main_v14 : S1x128.Idx → EReal) := by
  obtain ⟨-, -, -, -, -, -, -, -, -, -, e0, e1, -⟩ := edge_index_whole t
  funext y
  unfold iblk0
  rw [View.read_apply]
  show V c main_v14 _ = V c main_v14 _
  congr 1
  funext a
  apply Fin.ext
  match a with
  | ⟨0, _⟩ => show win0_9.index t 0 * 1 + 1 * (y 0).val = (y 0).val; rw [e0]; omega
  | ⟨1, _⟩ => show win0_9.index t 1 * 128 + 1 * (y 1).val = (y 1).val; rw [e1]; omega

/-- Window 10's block at every point is its whole array (block index `(0, 0)`, block size the array's). -/
theorem edge_blk10_eq (c : Dev nD) (t : Fin cfg0.N) :
    (iblk0 V c 10 t : Vec Ideal S128x128 .f32) = (V c main_arg11 : S128x128.Idx → EReal) := by
  obtain ⟨-, -, -, -, -, -, -, -, -, -, -, -, e0, e1, -⟩ := edge_index_whole t
  funext y
  unfold iblk0
  rw [View.read_apply]
  show V c main_arg11 _ = V c main_arg11 _
  congr 1
  funext a
  apply Fin.ext
  match a with
  | ⟨0, _⟩ => show win0_10.index t 0 * 128 + 1 * (y 0).val = (y 0).val; rw [e0]; omega
  | ⟨1, _⟩ => show win0_10.index t 1 * 128 + 1 * (y 1).val = (y 1).val; rw [e1]; omega

/-- Window 11's block at every point is its whole array (block index `(0, 0)`, block size the array's). -/
theorem edge_blk11_eq (c : Dev nD) (t : Fin cfg0.N) :
    (iblk0 V c 11 t : Vec Ideal S1x128 .f32) = (V c main_v15 : S1x128.Idx → EReal) := by
  obtain ⟨-, -, -, -, -, -, -, -, -, -, -, -, -, -, e0, e1, -⟩ := edge_index_whole t
  funext y
  unfold iblk0
  rw [View.read_apply]
  show V c main_v15 _ = V c main_v15 _
  congr 1
  funext a
  apply Fin.ext
  match a with
  | ⟨0, _⟩ => show win0_11.index t 0 * 1 + 1 * (y 0).val = (y 0).val; rw [e0]; omega
  | ⟨1, _⟩ => show win0_11.index t 1 * 128 + 1 * (y 1).val = (y 1).val; rw [e1]; omega

/-- Window 12's block at every point is its whole array (block index `(0, 0)`, block size the array's). -/
theorem edge_blk12_eq (c : Dev nD) (t : Fin cfg0.N) :
    (iblk0 V c 12 t : Vec Ideal S128x1 .f32) = (V c main_arg13 : S128x1.Idx → EReal) := by
  obtain ⟨-, -, -, -, -, -, -, -, -, -, -, -, -, -, -, -, e0, e1⟩ := edge_index_whole t
  funext y
  unfold iblk0
  rw [View.read_apply]
  show V c main_arg13 _ = V c main_arg13 _
  congr 1
  funext a
  apply Fin.ext
  match a with
  | ⟨0, _⟩ => show win0_12.index t 0 * 128 + 1 * (y 0).val = (y 0).val; rw [e0]; omega
  | ⟨1, _⟩ => show win0_12.index t 1 * 1 + 1 * (y 1).val = (y 1).val; rw [e1]; omega

/-! ## The message array -/

/-- The message payload of point `t`'s blocks, at row `p` and column `q`, is `msgOf` at edge `8000 t + p`: the
    per-row blocks are those rows of their arrays, the weights are whole, and `edgeMsg` is row-local. -/
theorem msg_block (c : Dev nD) (t : Fin cfg0.N) (p : Fin 8000) (q : Fin 128) :
    k0_pay2 (F := Ideal) (iblk0 V c 0 t) (iblk0 V c 1 t) (iblk0 V c 4 t) (iblk0 V c 5 t) (iblk0 V c 2 t) (iblk0 V c 6 t)
        (iblk0 V c 7 t) (iblk0 V c 8 t) (iblk0 V c 9 t) (ix2 p q) = msgOf V c (ix2 (edgeRow t p) q) := by
  rw [EdgeBody.msg_payload, edge_blk0_tab, edge_blk1_tab, edge_blk2_tab, edge_blk4_eq, edge_blk5_eq, edge_blk6_eq, edge_blk7_eq,
    edge_blk8_eq, edge_blk9_eq, edgeMsg_rows]
  rfl

/-- What point `t` writes back into the message array is block `t` of `msgOf`. -/
theorem msg_flushed (c : Dev nD) (t : Fin cfg0.N) :
    (dat0 (F := Ideal) V c).flushed 13 t = ((cfg0.win 13).blk t).view.read (Elt Ideal) (msgOf V c) := by
  show (cfg0.win 13).cut (grid0.coords t) ((dat0 V c).after 13 t) = _
  rw [after0_13]
  unfold out0_13
  rw [View.canon_unit_zero offsets_zero]
  simp only [View.ld_unit_zero (S := S8000x128) offsets_zero, View.ld_unit_zero (S := S128x128) offsets_zero,
    View.ld_unit_zero (S := S8000x1) offsets_zero, View.ld_unit_zero (S := S1x128) offsets_zero]
  obtain ⟨-, -, -, -, -, -, -, -, e0, e1, -⟩ := edge_index_rows t
  funext y
  obtain ⟨p, q, rfl⟩ : ∃ (p : Fin 8000) (q : Fin 128), y = ix2 p q := ⟨y 0, y 1, eq_ix2 y⟩
  rw [View.read_apply]
  have he : (((cfg0.win 13).blk t).view.emb (ix2 p q) : S800000x128.Idx) = ix2 (edgeRow t p) q := by
    funext a; apply Fin.ext
    match a with
    | ⟨0, _⟩ => show win0_13.index t 0 * 8000 + 1 * p.val = 8000 * t.val + p.val; rw [e0]; omega
    | ⟨1, _⟩ => show win0_13.index t 1 * 128 + 1 * q.val = q.val; rw [e1]; omega
  exact (msg_block V c t p q).trans (congrArg (msgOf V c) he).symm

/-- An index of the message array is in point `t`'s block iff each coordinate is in the block's range on its axis. -/
theorem msg_mem_blk (t : Fin cfg0.N) (i : S800000x128.Idx) :
    i ∈ ((cfg0.win 13).blk t).view.set ↔ ∀ a : Fin 2, win0_13.index t a * S8000x128.size a ≤ (i a).val ∧ (i a).val < win0_13.index t a * S8000x128.size a + S8000x128.size a := by
  show i ∈ ((View.whole main_v16_0).slice (win0_13.rect t)).set ↔ _
  rw [View.set_slice_whole, Rect.mem_set_unit]
  exact Iff.rfl

/-! ## The coordinate-update array -/

/-- The message payload of point `t`'s blocks, as a table, is rows `8000 t … 8000 t + 7999` of `msgOf`'s table. -/
theorem msg_block_tab (c : Dev nD) (t : Fin cfg0.N) :
    (tab (k0_pay2 (F := Ideal) (iblk0 V c 0 t) (iblk0 V c 1 t) (iblk0 V c 4 t) (iblk0 V c 5 t) (iblk0 V c 2 t) (iblk0 V c 6 t)
        (iblk0 V c 7 t) (iblk0 V c 8 t) (iblk0 V c 9 t)) : Tab 8000 128) = fun a => tab (msgOf V c) (edgeRow t a) :=
  funext fun p => funext fun q => msg_block V c t p q

/-- The coordinate payload of point `t`'s blocks, at row `p` and column `q`, is `coordOf` at edge `8000 t + p`: its
    message operand is the message payload of the same blocks, and `coordDiff` is row-local. -/
theorem coord_block (c : Dev nD) (t : Fin cfg0.N) (p : Fin 8000) (q : Fin 3) :
    k0_pay1 (F := Ideal) (k0_pay2 (F := Ideal) (iblk0 V c 0 t) (iblk0 V c 1 t) (iblk0 V c 4 t) (iblk0 V c 5 t) (iblk0 V c 2 t) (iblk0 V c 6 t)
        (iblk0 V c 7 t) (iblk0 V c 8 t) (iblk0 V c 9 t)) (iblk0 V c 10 t) (iblk0 V c 11 t) (iblk0 V c 12 t) (iblk0 V c 3 t) (ix2 p q)
      = coordOf V c (ix2 (edgeRow t p) q) := by
  rw [EdgeBody.coord_payload, msg_block_tab, edge_blk3_tab, edge_blk10_eq, edge_blk11_eq, edge_blk12_eq, coordDiff_rows]
  rfl

/-- What point `t` writes back into the coordinate-update array is block `t` of `coordOf`. -/
theorem coord_flushed (c : Dev nD) (t : Fin cfg0.N) :
    (dat0 (F := Ideal) V c).flushed 14 t = ((cfg0.win 14).blk t).view.read (Elt Ideal) (coordOf V c) := by
  show (cfg0.win 14).cut (grid0.coords t) ((dat0 V c).after 14 t) = _
  rw [after0_14]
  unfold out0_14
  rw [View.canon_unit_zero offsets_zero]
  simp only [View.ld_unit_zero (S := S8000x128) offsets_zero, View.ld_unit_zero (S := S128x128) offsets_zero,
    View.ld_unit_zero (S := S8000x1) offsets_zero, View.ld_unit_zero (S := S1x128) offsets_zero,
    View.ld_unit_zero (S := S128x1) offsets_zero, View.ld_unit_zero (S := S8000x3) offsets_zero]
  obtain ⟨-, -, -, -, -, -, -, -, -, -, e0, e1⟩ := edge_index_rows t
  funext y
  obtain ⟨p, q, rfl⟩ : ∃ (p : Fin 8000) (q : Fin 3), y = ix2 p q := ⟨y 0, y 1, eq_ix2 y⟩
  rw [View.read_apply]
  have he : (((cfg0.win 14).blk t).view.emb (ix2 p q) : S800000x3.Idx) = ix2 (edgeRow t p) q := by
    funext a; apply Fin.ext
    match a with
    | ⟨0, _⟩ => show win0_14.index t 0 * 8000 + 1 * p.val = 8000 * t.val + p.val; rw [e0]; omega
    | ⟨1, _⟩ => show win0_14.index t 1 * 3 + 1 * q.val = q.val; rw [e1]; omega
  exact (coord_block V c t p q).trans (congrArg (coordOf V c) he).symm

/-- An index of the coordinate-update array is in point `t`'s block iff each coordinate is in the block's range on
    its axis. -/
theorem coord_mem_blk (t : Fin cfg0.N) (i : S800000x3.Idx) :
    i ∈ ((cfg0.win 14).blk t).view.set ↔ ∀ a : Fin 2, win0_14.index t a * S8000x3.size a ≤ (i a).val ∧ (i a).val < win0_14.index t a * S8000x3.size a + S8000x3.size a := by
  show i ∈ ((View.whole main_v16_1).slice (win0_14.rect t)).set ↔ _
  rw [View.set_slice_whole, Rect.mem_set_unit]
  exact Iff.rfl

/-! ## The arrays after the last point: edge `r` is covered by point `r / 8000` -/

theorem msg_array (c : Dev nD) : (dat0 (F := Ideal) V c).arrAt 13 cfg0.N = msgOf V c := by
  refine (dat0 (F := Ideal) V c).arrAt_eq_of_cover 13 (msgOf V c) (fun t _ => msg_flushed V c t) fun i => ?_
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨-, -, -, -, -, -, -, -, e0, e1, -⟩ := edge_index_rows t
  refine ⟨t, flush0_13 t, ?_⟩
  rw [msg_mem_blk]
  intro a
  match a with
  | ⟨0, _⟩ =>
    show win0_13.index t 0 * 8000 ≤ (i 0).val ∧ (i 0).val < win0_13.index t 0 * 8000 + 8000
    rw [e0]
    show (i 0).val / 8000 * 8000 ≤ (i 0).val ∧ (i 0).val < (i 0).val / 8000 * 8000 + 8000
    omega
  | ⟨1, _⟩ =>
    show win0_13.index t 1 * 128 ≤ (i 1).val ∧ (i 1).val < win0_13.index t 1 * 128 + 128
    rw [e1]
    omega

theorem coord_array (c : Dev nD) : (dat0 (F := Ideal) V c).arrAt 14 cfg0.N = coordOf V c := by
  refine (dat0 (F := Ideal) V c).arrAt_eq_of_cover 14 (coordOf V c) (fun t _ => coord_flushed V c t) fun i => ?_
  have hi0 : (i 0).val < 800000 := (i 0).isLt
  have hi1 : (i 1).val < 3 := (i 1).isLt
  have hN : cfg0.N = 100 := N_0
  let t : Fin cfg0.N := ⟨(i 0).val / 8000, by rw [hN]; omega⟩
  obtain ⟨-, -, -, -, -, -, -, -, -, -, e0, e1⟩ := edge_index_rows t
  refine ⟨t, flush0_14 t, ?_⟩
  rw [coord_mem_blk]
  intro a
  match a with
  | ⟨0, _⟩ =>
    show win0_14.index t 0 * 8000 ≤ (i 0).val ∧ (i 0).val < win0_14.index t 0 * 8000 + 8000
    rw [e0]
    show (i 0).val / 8000 * 8000 ≤ (i 0).val ∧ (i 0).val < (i 0).val / 8000 * 8000 + 8000
    omega
  | ⟨1, _⟩ =>
    show win0_14.index t 1 * 3 ≤ (i 1).val ∧ (i 1).val < win0_14.index t 1 * 3 + 3
    rw [e1]
    omega

end Cert.KernelIdeal.EdgeArrays

end
-- ==== Proof.NodeBody.lean ====
/-
  The node kernel's payload at the ideal values, read at an index: `nodeNew` of the loaded blocks' tables (Spec.lean).
-/
import proofs.«415618_j10084583211152_1_alg».proof.Proof.Gen.KernelIdeal.Skeleton
import proofs.«415618_j10084583211152_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodeBody

open Cert.KernelIdeal Cert.KernelIdeal.Gen Cert.EGNN Idealize.ShloMosaic Idealize.ShloMosaic.ValueIdx

/-! ## The contraction `[5000,128] × [128,128]` read at an index

The dimension numbers contract the left operand's axis 1 with the right operand's axis 0; the output's row is the left
operand's row and its column the right operand's column. The four coordinate facts, each at its literal axis. -/

theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at row `p` and column `j`: the sum over the contracted axis of the
    operands' products. -/
theorem matmul_node (A : FVec Ideal S5000x128 .bf16) (B : FVec Ideal S128x128 .bf16) (p : Fin 5000) (j : Fin 128) :
    matmul dot_S5000x128_S128x128_S5000x128_1_0_0_1_n_n none A B (constant (F := Ideal) S5000x128 .f32 0x00000000#32) (ix2 p j)
      = ∑ k : Fin 128, A (ix2 p k) * B (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

/-- A one-row array broadcast down the rows, at row `p` and column `j`: its entry in column `j`. -/
theorem bcast_row (v : FVec Ideal S1x128 .f32) (p : Fin 5000) (j : Fin 128) :
    broadcastTo S5000x128 (shapeCast S1x128 v shapeCasts_S1x128_S1x128) broadcasts_S1x128_S5000x128 (ix2 p j) = v (ix2 0 j) := by
  rw [shapeCast_self]
  exact broadcastTo_apply v broadcasts_S1x128_S5000x128 (ix2 p j) (ix2 0 j) (fun a => by
    match a with
    | ⟨0, _⟩ => rfl
    | ⟨1, _⟩ => rfl)

/-- `x · σ(x)` as the payload writes it. -/
theorem silu_at (x : FVec Ideal S5000x128 .f32) (i : S5000x128.Idx) : mulf x (logistic x) i = silu (x i) := rfl

/-- The node payload at row `p`, column `j` of its block. -/
theorem node_payload (a b : Vec Ideal S5000x128 .f32) (c d : Vec Ideal S128x128 .f32) (e : Vec Ideal S1x128 .f32)
    (f : Vec Ideal S128x128 .f32) (g : Vec Ideal S1x128 .f32) (p : Fin 5000) (j : Fin 128) :
    k1_pay1 (F := Ideal) a b c d e f g (ix2 p j) = nodeNew (tab a) (tab b) (tab c) (tab d) (tab e) (tab f) (tab g) p j := by
  unfold k1_pay1
  show a (ix2 p j) + (matmul (F := Ideal) dot_S5000x128_S128x128_S5000x128_1_0_0_1_n_n none _ _ _ (ix2 p j) + broadcastTo S5000x128 _ _ (ix2 p j)) = _
  rw [matmul_node, bcast_row]
  refine congrArg (a (ix2 p j) + ·) (congrArg (· + g (ix2 0 j)) (Finset.sum_congr rfl fun k _ => ?_))
  refine congrArg (· * f (ix2 k j)) ?_
  refine (silu_at _ (ix2 p k)).trans (congrArg silu ?_)
  show (matmul (F := Ideal) dot_S5000x128_S128x128_S5000x128_1_0_0_1_n_n none _ _ _ (ix2 p k) + matmul (F := Ideal) dot_S5000x128_S128x128_S5000x128_1_0_0_1_n_n none _ _ _ (ix2 p k))
      + broadcastTo S5000x128 _ _ (ix2 p k) = _
  rw [matmul_node, matmul_node, bcast_row, shapeCast_self, shapeCast_self, shapeCast_self]
  rfl

end Cert.KernelIdeal.NodeBody

end
-- ==== Proof.NodeArrays.lean ====
/-
  Region 1's output array after its last grid point, for any entry contents `V`: every block of 5000 rows is written
  once with the node payload of that point's blocks, so by row locality the array ends at `nodeNew` of the input
  arrays' tables.
-/
import proofs.«415618_j10084583211152_1_alg».proof.Proof.Gen.KernelIdeal.Frame
import proofs.«415618_j10084583211152_1_alg».proof.Proof.NodeBody
import Idealize.ShloMosaic.Lib.Pipeline.Value

set_option maxRecDepth 16384

noncomputable section

open scoped BigOperators

namespace Cert.KernelIdeal.NodeArrays

open Cert.KernelIdeal Cert.KernelIdeal.Gen Cert.EGNN Idealize.ShloMosaic Idealize.ShloMosaic.ValueIdx Idealize.ShloMosaic.TcCoe
open Idealize.SL.Sem

variable (V : (c : Dev nD) → (b : Ref sig .tc) → Buf (Elt Ideal) ((c : Thread nD τ).loc b))

/-- The node-feature array the region leaves, as one function of the arrays it was entered with. -/
def nodeOf (c : Dev nD) : S50000x128.Idx → EReal :=
  untab (nodeNew (tab (V c main_arg0)) (tab (V c main_v19)) (tab (V c main_v23)) (tab (V c main_v24)) (tab (V c main_v25))
    (tab (V c main_arg9)) (tab (V c main_v26)))

/-! ## The blocks of a grid point, as rows of the arrays -/

/-- The zero offsets of a whole-block access. -/
theorem node_zero_off : (![0, 0] : Fin 2 → Nat) = fun _ => 0 := funext fun a => by fin_cases a <;> rfl

/-- The block index of every window at every grid point: the three windows tiled by rows (node features, aggregated
    messages, the output) sit at block `(t, 0)`, the five weight and bias windows at block `(0, 0)`. -/
theorem node_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the block of grid point `t`, as a row of the whole array: `5000 t + p`. -/
def nodeRow (t : Fin cfg1.N) (p : Fin 5000) : Fin 50000 :=
  ⟨5000 * t.val + p.val, by have h := t.isLt; have hN : cfg1.N = 10 := N_1; omega⟩

/-- Entry `(p, j)` of the output block of point `t` sits at entry `(5000 t + p, j)` of the output array. -/
theorem node_out_emb (t : Fin cfg1.N) (p : Fin 5000) (j : Fin 128) :
    ((cfg1.win 7).blk t).view.emb (ix2 p j) = (ix2 (nodeRow t p) j : S50000x128.Idx) := by
  obtain ⟨-, -, -, -, -, -, -, -, -, -, -, -, -, -, e0, e1⟩ := node_idx_facts t
  funext a; apply Fin.ext
  match a with
  | ⟨0, _⟩ => show win1_7.index t (0 : Fin 2) * 5000 + 1 * p.val = 5000 * t.val + p.val; omega
  | ⟨1, _⟩ => show win1_7.index t (1 : Fin 2) * 128 + 1 * j.val = j.val; omega

/-- The node-feature block of point `t` is rows `5000 t … 5000 t + 4999` of the node-feature array. -/
theorem node_feat_blk (c : Dev nD) (t : Fin cfg1.N) (p : Fin 5000) (j : Fin 128) :
    (iblk1 V c 0 t : Vec Ideal S5000x128 .f32) (ix2 p j) = (V c main_arg0 : S50000x128.Idx → EReal) (ix2 (nodeRow t p) j) := by
  obtain ⟨e0, e1, -⟩ := node_idx_facts t
  show V c main_arg0 (((cfg1.win 0).blk t).view.emb (ix2 p j)) = V c main_arg0 (ix2 (nodeRow t p) j)
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * j.val = j.val; omega

/-- The aggregated-message block of point `t` is the same rows of the aggregated-message array. -/
theorem node_agg_blk (c : Dev nD) (t : Fin cfg1.N) (p : Fin 5000) (j : Fin 128) :
    (iblk1 V c 1 t : Vec Ideal S5000x128 .f32) (ix2 p j) = (V c main_v19 : S50000x128.Idx → EReal) (ix2 (nodeRow t p) j) := by
  obtain ⟨-, -, e0, e1, -⟩ := node_idx_facts t
  show V c main_v19 (((cfg1.win 1).blk t).view.emb (ix2 p j)) = V c main_v19 (ix2 (nodeRow t p) j)
  congr 1
  funext a; apply Fin.ext
  match a with
  | ⟨0, _⟩ => show win1_1.index t (0 : Fin 2) * 5000 + 1 * p.val = 5000 * t.val + p.val; omega
  | ⟨1, _⟩ => show win1_1.index t (1 : Fin 2) * 128 + 1 * j.val = j.val; omega

/-- The first layer's weight on the node features: its block at every point is the whole array. -/
theorem node_Wh_blk (c : Dev nD) (t : Fin cfg1.N) : (iblk1 V c 2 t : Vec Ideal S128x128 .f32) = V c main_v23 := by
  obtain ⟨-, -, -, -, e0, e1, -⟩ := node_idx_facts t
  funext y
  obtain ⟨p, j, rfl⟩ : ∃ (p : Fin 128) (j : Fin 128), y = ix2 p j := ⟨y 0, y 1, eq_ix2 y⟩
  show V c main_v23 (((cfg1.win 2).blk t).view.emb (ix2 p j)) = V c main_v23 (ix2 p j)
  congr 1
  funext a; apply Fin.ext
  match a with
  | ⟨0, _⟩ => show win1_2.index t (0 : Fin 2) * 128 + 1 * p.val = p.val; omega
  | ⟨1, _⟩ => show win1_2.index t (1 : Fin 2) * 128 + 1 * j.val = j.val; omega

/-- The first layer's weight on the aggregated messages: the whole array. -/
theorem node_Wa_blk (c : Dev nD) (t : Fin cfg1.N) : (iblk1 V c 3 t : Vec Ideal S128x128 .f32) = V c main_v24 := by
  obtain ⟨-, -, -, -, -, -, e0, e1, -⟩ := node_idx_facts t
  funext y
  obtain ⟨p, j, rfl⟩ : ∃ (p : Fin 128) (j : Fin 128), y = ix2 p j := ⟨y 0, y 1, eq_ix2 y⟩
  show V c main_v24 (((cfg1.win 3).blk t).view.emb (ix2 p j)) = V c main_v24 (ix2 p j)
  congr 1
  funext a; apply Fin.ext
  match a with
  | ⟨0, _⟩ => show win1_3.index t (0 : Fin 2) * 128 + 1 * p.val = p.val; omega
  | ⟨1, _⟩ => show win1_3.index t (1 : Fin 2) * 128 + 1 * j.val = j.val; omega

/-- The first layer's bias: the whole one-row array. -/
theorem node_b1_blk (c : Dev nD) (t : Fin cfg1.N) : (iblk1 V c 4 t : Vec Ideal S1x128 .f32) = V c main_v25 := by
  obtain ⟨-, -, -, -, -, -, -, -, e0, e1, -⟩ := node_idx_facts t
  funext y
  obtain ⟨p, j, rfl⟩ : ∃ (p : Fin 1) (j : Fin 128), y = ix2 p j := ⟨y 0, y 1, eq_ix2 y⟩
  show V c main_v25 (((cfg1.win 4).blk t).view.emb (ix2 p j)) = V c main_v25 (ix2 p j)
  congr 1
  funext a; apply Fin.ext
  match a with
  | ⟨0, _⟩ => show win1_4.index t (0 : Fin 2) * 1 + 1 * p.val = p.val; omega
  | ⟨1, _⟩ => show win1_4.index t (1 : Fin 2) * 128 + 1 * j.val = j.val; omega

/-- The second layer's weight: the whole array. -/
theorem node_W2_blk (c : Dev nD) (t : Fin cfg1.N) : (iblk1 V c 5 t : Vec Ideal S128x128 .f32) = V c main_arg9 := by
  obtain ⟨-, -, -, -, -, -, -, -, -, -, e0, e1, -⟩ := node_idx_facts t
  funext y
  obtain ⟨p, j, rfl⟩ : ∃ (p : Fin 128) (j : Fin 128), y = ix2 p j := ⟨y 0, y 1, eq_ix2 y⟩
  show V c main_arg9 (((cfg1.win 5).blk t).view.emb (ix2 p j)) = V c main_arg9 (ix2 p j)
  congr 1
  funext a; apply Fin.ext
  match a with
  | ⟨0, _⟩ => show win1_5.index t (0 : Fin 2) * 128 + 1 * p.val = p.val; omega
  | ⟨1, _⟩ => show win1_5.index t (1 : Fin 2) * 128 + 1 * j.val = j.val; omega

/-- The second layer's bias: the whole one-row array. -/
theorem node_b2_blk (c : Dev nD) (t : Fin cfg1.N) : (iblk1 V c 6 t : Vec Ideal S1x128 .f32) = V c main_v26 := by
  obtain ⟨-, -, -, -, -, -, -, -, -, -, -, -, e0, e1, -⟩ := node_idx_facts t
  funext y
  obtain ⟨p, j, rfl⟩ : ∃ (p : Fin 1) (j : Fin 128), y = ix2 p j := ⟨y 0, y 1, eq_ix2 y⟩
  show V c main_v26 (((cfg1.win 6).blk t).view.emb (ix2 p j)) = V c main_v26 (ix2 p j)
  congr 1
  funext a; apply Fin.ext
  match a with
  | ⟨0, _⟩ => show win1_6.index t (0 : Fin 2) * 1 + 1 * p.val = p.val; omega
  | ⟨1, _⟩ => show win1_6.index t (1 : Fin 2) * 128 + 1 * j.val = j.val; omega

/-- The node-feature block's table is the array's table at the block's rows. -/
theorem node_feat_tab (c : Dev nD) (t : Fin cfg1.N) :
    tab (iblk1 V c 0 t : Vec Ideal S5000x128 .f32) = fun a => tab (V c main_arg0 : S50000x128.Idx → EReal) (nodeRow t a) :=
  funext fun a => funext fun b => node_feat_blk V c t a b

/-- The aggregated-message block's table is the array's table at the block's rows. -/
theorem node_agg_tab (c : Dev nD) (t : Fin cfg1.N) :
    tab (iblk1 V c 1 t : Vec Ideal S5000x128 .f32) = fun a => tab (V c main_v19 : S50000x128.Idx → EReal) (nodeRow t a) :=
  funext fun a => funext fun b => node_agg_blk V c t a b

/-! ## What a grid point writes back, and the array after the last point -/

/-- What point `t` writes back is block `t` of `nodeOf`: the payload is `nodeNew` of the blocks' tables, the per-row
    blocks are the arrays' rows `5000 t + ·`, the weights are whole, and `nodeNew` is row-local. -/
theorem node_flushed (c : Dev nD) (t : Fin cfg1.N) :
    (dat1 (F := Ideal) V c).flushed 7 t = ((cfg1.win 7).blk t).view.read (Elt Ideal) (nodeOf V c) := by
  show (cfg1.win 7).cut (grid1.coords t) ((dat1 V c).after 7 t) = _
  rw [after1_7]
  unfold out1_7
  rw [View.canon_unit_zero node_zero_off]
  simp only [View.ld_unit_zero (S := S5000x128) node_zero_off, View.ld_unit_zero (S := S128x128) node_zero_off,
    View.ld_unit_zero (S := S1x128) node_zero_off]
  funext y
  obtain ⟨p, j, rfl⟩ : ∃ (p : Fin 5000) (j : Fin 128), y = ix2 p j := ⟨y 0, y 1, eq_ix2 y⟩
  show k1_pay1 (F := Ideal) _ _ _ _ _ _ _ (ix2 p j) = nodeOf V c (((cfg1.win 7).blk t).view.emb (ix2 p j))
  rw [NodeBody.node_payload, node_out_emb, node_feat_tab, node_agg_tab, node_Wh_blk, node_Wa_blk, node_b1_blk, node_W2_blk,
    node_b2_blk]
  exact nodeNew_rows (nodeRow t) _ _ _ _ _ _ _ p j

/-- An index of the output array is in point `t`'s block iff each coordinate is in the block's range on its axis. -/
theorem node_mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v27).slice (win1_7.rect t)).set ↔ _
  rw [View.set_slice_whole, Rect.mem_set_unit]
  exact Iff.rfl

/-- Every index of the output array is in some point's block: row `r` is in the block of point `r / 5000`. -/
theorem node_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, -, -, -, -, -, -, -, -, e0, e1⟩ := node_idx_facts t
  have ht : t.val = (i 0).val / 5000 := rfl
  refine ⟨t, flush1_7 t, ?_⟩
  rw [node_mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

theorem node_array (c : Dev nD) : (dat1 (F := Ideal) V c).arrAt 7 cfg1.N = nodeOf V c :=
  (dat1 (F := Ideal) V c).arrAt_eq_of_cover 7 (nodeOf V c) (fun t _ => node_flushed V c t) node_cover

end Cert.KernelIdeal.NodeArrays

end
-- ==== Proof.KernelGlue.lean ====
/-
  The kernel program's host-side values around its two regions, as functions of the argument arrays: the edge
  list's two rows, an index vector wrapped the numpy way and laid out as a column of start indices, the test
  that every wrapped index is inside the table, the take that fills out-of-range rows, the relative positions
  and their Euclidean norms, and the two scatter-adds into the target nodes.
-/
import proofs.«415618_j10084583211152_1_alg».proof.Proof.Gen.KernelIdeal
import proofs.«415618_j10084583211152_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Glue

open Cert.KernelIdeal Cert.KernelIdeal.Gen Cert.EGNN Idealize.ShloMosaic Idealize.ShloMosaic.ValueIdx

variable {F : FTy → Type} [FloatOps F]

/-- The edge list's first row: each edge's source node. -/
def srcIdx (ei : IVec S2x800000 32) : IVec S800000 32 :=
  shapeCast _ (extractStridedSlice S1x800000 ![0, 0] ei slices_S2x800000_S1x800000_0_0) shapeCasts_S1x800000_S800000

/-- The edge list's second row: each edge's target node. -/
def dstIdx (ei : IVec S2x800000 32) : IVec S800000 32 :=
  shapeCast _ (extractStridedSlice S1x800000 ![1, 0] ei slices_S2x800000_S1x800000_1_0) shapeCasts_S1x800000_S800000

/-- An index vector with negative entries counted from the table's end (50000 added), as a column of start indices. -/
def wrapped (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Per edge: is its start index within `0 … 49999`? -/
def inBounds (i : IVec S800000x1 32) : IVec S800000 1 :=
  Host.reduce IntOp.andi
    (andi (cmpi .sge i (broadcastInDim S800000x1 ![] bcast_S_S800000x1 (constantI S_ 32 0#32)))
      (cmpi .sle i (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of the feature table at a column of start indices. -/
def gatherH (h : FVec F S50000x128 .f32) (i : IVec S800000x1 32) : FVec F S800000x128 .f32 :=
  Host.gather gather_S50000x128_S800000x1_S800000x128_1_0_n_n_0_1_1128 h i

/-- Rows of the position table at a column of start indices. -/
def gatherX (x : FVec F S50000x3 .f32) (i : IVec S800000x1 32) : FVec F S800000x3 .f32 :=
  Host.gather gather_S50000x3_S800000x1_S800000x3_1_0_n_n_0_1_13 x i

/-- The kernel program's take of feature rows: the gathered row where the wrapped index is in bounds, a fill value elsewhere. -/
def takeH (h : FVec F S50000x128 .f32) (r : IVec S800000 32) : FVec F S800000x128 .f32 :=
  select (broadcastInDim S800000x128 ![0] bcast_S800000_S800000x128_0 (inBounds (wrapped r))) (gatherH h (wrapped r))
    (broadcastInDim S800000x128 ![] bcast_S_S800000x128 (constant S_ .f32 0x7FC00000#32))

/-- The kernel program's take of position rows. -/
def takeX (x : FVec F S50000x3 .f32) (r : IVec S800000 32) : FVec F S800000x3 .f32 :=
  select (broadcastInDim S800000x3 ![0] bcast_S800000_S800000x3_0 (inBounds (wrapped r))) (gatherX x (wrapped r))
    (broadcastInDim S800000x3 ![] bcast_S_S800000x3 (constant S_ .f32 0x7FC00000#32))

/-- Each edge's Euclidean length of a 3-vector: the root of the sum of squares, as a column. -/
def norm3 (r : FVec F S800000x3 .f32) : FVec F S800000x1 .f32 :=
  Host.sqrt (broadcastInDim S800000x1 ![0] bcast_S800000_S800000x1_0
    (Host.reduceAdd (mulf r r) (constant S_ .f32 0x00000000#32) reducesTo_S800000x3_S800000_d1 h_S_))

/-- The target nodes as the column of scatter indices. -/
def dstCol (ei : IVec S2x800000 32) : IVec S800000x1 32 :=
  broadcastInDim S800000x1 ![0] bcast_S800000_S800000x1_0 (dstIdx ei)

/-- Messages summed into their target nodes' rows. -/
def aggH (ei : IVec S2x800000 32) (M : FVec F S800000x128 .f32) : FVec F S50000x128 .f32 :=
  Host.scatterAdd scatter_S50000x128_S800000x1_S800000x128_1_0_0_1
    (broadcastInDim S50000x128 ![] bcast_S_S50000x128 (constant S_ .f32 0x00000000#32)) (dstCol ei) M

/-- Coordinate updates summed into their target nodes' rows. -/
def aggX (ei : IVec S2x800000 32) (C : FVec F S800000x3 .f32) : FVec F S50000x3 .f32 :=
  Host.scatterAdd scatter_S50000x3_S800000x1_S800000x3_1_0_0_1
    (broadcastInDim S50000x3 ![] bcast_S_S50000x3 (constant S_ .f32 0x00000000#32)) (dstCol ei) C

end Cert.KernelIdeal.Glue

end
-- ==== Proof.KernelHost.lean ====
/-
  What the kernel program's buffers hold when region 0 is entered, read back to the argument arrays: the thirteen
  arrays the region reads (the two takes of feature rows, the relative positions and their norms, the weights' row
  slices and the biases' one-row casts).
-/
import proofs.«415618_j10084583211152_1_alg».proof.Proof.Gen.KernelIdeal.Frame
import proofs.«415618_j10084583211152_1_alg».proof.Proof.KernelGlue
import Idealize.ShloMosaic.Lib.StableHlo.Run

set_option maxRecDepth 16384

noncomputable section

namespace Cert.KernelIdeal.HostReads

open Cert.KernelIdeal Cert.KernelIdeal.Gen Cert.KernelIdeal.Glue Idealize.ShloMosaic Idealize.ShloMosaic.TcCoe Idealize.ShloMosaic.StableHlo
open Idealize.SL.Sem

/-! ## Each stretch of host operations, over any contents it starts from

Which buffers a stretch writes (every other buffer keeps its contents through it), and what it leaves in the buffers
read later, as the operations' functions of the contents it starts from. -/

section Stretch

variable {F : FTy → Type} [FloatOps F]

/-- Contents moved to a buffer's own type and back are the contents. -/
theorem ofBuf_toBuf {Val : EltTy → Type} {T : BufTy} (x : TRef sig T) (v : T.Contents Val) : x.ofBuf (x.toBuf v) = v := by
  obtain ⟨r, h, a, b⟩ := x
  subst h
  rfl

/-- The buffers stretch 0 writes. -/
def wl0 : List (Ref sig .tc) :=
  [main_v0, main_v1, main_v2, main_v3]

theorem writes0 :
    (hostOps0 : List (HloOp τ sig (Elt F))).Forall fun op => op.writes ⊆ (wl0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)

/-- A buffer stretch 0 does not write keeps its contents through it. -/
theorem frame0 (W : Valuation τ sig (Elt F)) (r : Ref sig .tc) (hr : r ∉ wl0) :
    after hostOps0 W (Proc.devRef .tc r) = W (Proc.devRef .tc r) :=
  after_of_writes_sub hostOps0 W writes0 hr

/-- The buffers stretch 1 writes. -/
def wl1 : List (Ref sig .tc) :=
  [main_call0_c, main_call0_v0, main_call0_v1, main_call0_c_0, main_call0_v2, main_call0_v3,
   main_call0_v4, main_call0_v5, main_call0_c_1, main_call0_c_2, main_call0_v6, main_call0_v7,
   main_call0_v8, main_call0_v9, main_call0_v10, main_call0_v11, main_call0_c_3, main_call0_v12,
   main_call0_v13, main_call0_v14, main_call0_cst, main_call0_v15, main_v4]

theorem writes1 :
    (hostOps0_1 : List (HloOp τ sig (Elt F))).Forall fun op => op.writes ⊆ (wl1.map (Proc.devRef (τ := τ) .tc)).toFinset := by
  simp only [hostOps0_1, List.Forall, nullary_writes, unary_writes, binary_writes, ternary_writes, reshape_writes,
    Finset.singleton_subset_iff, List.mem_toFinset]
  repeat' apply And.intro
  all_goals exact List.mem_map_of_mem (by decide)

/-- A buffer stretch 1 does not write keeps its contents through it. -/
theorem frame1 (W : Valuation τ sig (Elt F)) (r : Ref sig .tc) (hr : r ∉ wl1) :
    after hostOps0_1 W (Proc.devRef .tc r) = W (Proc.devRef .tc r) :=
  after_of_writes_sub hostOps0_1 W writes1 hr

/-- The buffers stretch 2 writes. -/
def wl2 : List (Ref sig .tc) :=
  [main_call1_c, main_call1_v0, main_call1_v1, main_call1_c_0, main_call1_v2, main_call1_v3,
   main_call1_v4, main_call1_v5, main_call1_c_1, main_call1_c_2, main_call1_v6, main_call1_v7,
   main_call1_v8, main_call1_v9, main_call1_v10, main_call1_v11, main_call1_c_3, main_call1_v12,
   main_call1_v13, main_call1_v14, main_call1_cst, main_call1_v15, main_v5]

theorem writes2 :
    (hostOps0_2 : List (HloOp τ sig (Elt F))).Forall fun op => op.writes ⊆ (wl2.map (Proc.devRef (τ := τ) .tc)).toFinset := by
  simp only [hostOps0_2, List.Forall, nullary_writes, unary_writes, binary_writes, ternary_writes, reshape_writes,
    Finset.singleton_subset_iff, List.mem_toFinset]
  repeat' apply And.intro
  all_goals exact List.mem_map_of_mem (by decide)

/-- A buffer stretch 2 does not write keeps its contents through it. -/
theorem frame2 (W : Valuation τ sig (Elt F)) (r : Ref sig .tc) (hr : r ∉ wl2) :
    after hostOps0_2 W (Proc.devRef .tc r) = W (Proc.devRef .tc r) :=
  after_of_writes_sub hostOps0_2 W writes2 hr

/-- The buffers stretch 3 writes. -/
def wl3 : List (Ref sig .tc) :=
  [main_call2_c, main_call2_v0, main_call2_v1, main_call2_c_0, main_call2_v2, main_call2_v3,
   main_call2_v4, main_call2_v5, main_call2_c_1, main_call2_c_2, main_call2_v6, main_call2_v7,
   main_call2_v8, main_call2_v9, main_call2_v10, main_call2_v11, main_call2_c_3, main_call2_v12,
   main_call2_v13, main_call2_v14, main_call2_cst, main_call2_v15, main_v6]

theorem writes3 :
    (hostOps0_3 : List (HloOp τ sig (Elt F))).Forall fun op => op.writes ⊆ (wl3.map (Proc.devRef (τ := τ) .tc)).toFinset := by
  simp only [hostOps0_3, List.Forall, nullary_writes, unary_writes, binary_writes, ternary_writes, reshape_writes,
    Finset.singleton_subset_iff, List.mem_toFinset]
  repeat' apply And.intro
  all_goals exact List.mem_map_of_mem (by decide)

/-- A buffer stretch 3 does not write keeps its contents through it. -/
theorem frame3 (W : Valuation τ sig (Elt F)) (r : Ref sig .tc) (hr : r ∉ wl3) :
    after hostOps0_3 W (Proc.devRef .tc r) = W (Proc.devRef .tc r) :=
  after_of_writes_sub hostOps0_3 W writes3 hr

/-- The buffers stretch 4 writes. -/
def wl4 : List (Ref sig .tc) :=
  [main_call3_c, main_call3_v0, main_call3_v1, main_call3_c_0, main_call3_v2, main_call3_v3,
   main_call3_v4, main_call3_v5, main_call3_c_1, main_call3_c_2, main_call3_v6, main_call3_v7,
   main_call3_v8, main_call3_v9, main_call3_v10, main_call3_v11, main_call3_c_3, main_call3_v12,
   main_call3_v13, main_call3_v14, main_call3_cst, main_call3_v15, main_v7]

theorem writes4 :
    (hostOps0_4 : List (HloOp τ sig (Elt F))).Forall fun op => op.writes ⊆ (wl4.map (Proc.devRef (τ := τ) .tc)).toFinset := by
  simp only [hostOps0_4, List.Forall, nullary_writes, unary_writes, binary_writes, ternary_writes, reshape_writes,
    Finset.singleton_subset_iff, List.mem_toFinset]
  repeat' apply And.intro
  all_goals exact List.mem_map_of_mem (by decide)

/-- A buffer stretch 4 does not write keeps its contents through it. -/
theorem frame4 (W : Valuation τ sig (Elt F)) (r : Ref sig .tc) (hr : r ∉ wl4) :
    after hostOps0_4 W (Proc.devRef .tc r) = W (Proc.devRef .tc r) :=
  after_of_writes_sub hostOps0_4 W writes4 hr

/-- The buffers stretch 5 writes. -/
def wl5 : List (Ref sig .tc) :=
  [main_v8]

theorem writes5 :
    (hostOps0_5 : List (HloOp τ sig (Elt F))).Forall fun op => op.writes ⊆ (wl5.map (Proc.devRef (τ := τ) .tc)).toFinset := by
  simp only [hostOps0_5, List.Forall, nullary_writes, unary_writes, binary_writes, ternary_writes, reshape_writes,
    Finset.singleton_subset_iff, List.mem_toFinset]
  repeat' apply And.intro
  all_goals exact List.mem_map_of_mem (by decide)

/-- A buffer stretch 5 does not write keeps its contents through it. -/
theorem frame5 (W : Valuation τ sig (Elt F)) (r : Ref sig .tc) (hr : r ∉ wl5) :
    after hostOps0_5 W (Proc.devRef .tc r) = W (Proc.devRef .tc r) :=
  after_of_writes_sub hostOps0_5 W writes5 hr

/-- The buffers stretch 6 writes. -/
def wl6 : List (Ref sig .tc) :=
  [main_call4_v0, main_call4_cst, main_call4_v1, main_call4_v2, main_v9]

theorem writes6 :
    (hostOps0_6 : List (HloOp τ sig (Elt F))).Forall fun op => op.writes ⊆ (wl6.map (Proc.devRef (τ := τ) .tc)).toFinset := by
  simp only [hostOps0_6, List.Forall, nullary_writes, unary_writes, binary_writes, ternary_writes, reshape_writes,
    Finset.singleton_subset_iff, List.mem_toFinset]
  repeat' apply And.intro
  all_goals exact List.mem_map_of_mem (by decide)

/-- A buffer stretch 6 does not write keeps its contents through it. -/
theorem frame6 (W : Valuation τ sig (Elt F)) (r : Ref sig .tc) (hr : r ∉ wl6) :
    after hostOps0_6 W (Proc.devRef .tc r) = W (Proc.devRef .tc r) :=
  after_of_writes_sub hostOps0_6 W writes6 hr

/-- The buffers stretch 7 writes. -/
def wl7 : List (Ref sig .tc) :=
  [main_v10, main_v11, main_v12, main_v13, main_v14, main_v15]

theorem writes7 :
    (hostOps0_7 : List (HloOp τ sig (Elt F))).Forall fun op => op.writes ⊆ (wl7.map (Proc.devRef (τ := τ) .tc)).toFinset := by
  simp only [hostOps0_7, List.Forall, nullary_writes, unary_writes, binary_writes, ternary_writes, reshape_writes,
    Finset.singleton_subset_iff, List.mem_toFinset]
  repeat' apply And.intro
  all_goals exact List.mem_map_of_mem (by decide)

/-- A buffer stretch 7 does not write keeps its contents through it. -/
theorem frame7 (W : Valuation τ sig (Elt F)) (r : Ref sig .tc) (hr : r ∉ wl7) :
    after hostOps0_7 W (Proc.devRef .tc r) = W (Proc.devRef .tc r) :=
  after_of_writes_sub hostOps0_7 W writes7 hr

/-! ### A typed reference at a literal buffer reads and writes the buffer's contents as they are -/

theorem ofBuf_v1 (W : Valuation τ sig (Elt F)) (h1 h2 h3) :
    (TRef.of (T := ⟨S800000, .i32⟩) main_v1 h1 h2 h3).ofBuf (W (Proc.devRef .tc main_v1)) = W (Proc.devRef .tc main_v1) := rfl
theorem ofBuf_v3 (W : Valuation τ sig (Elt F)) (h1 h2 h3) :
    (TRef.of (T := ⟨S800000, .i32⟩) main_v3 h1 h2 h3).ofBuf (W (Proc.devRef .tc main_v3)) = W (Proc.devRef .tc main_v3) := rfl
theorem ofBuf_arg0 (W : Valuation τ sig (Elt F)) (h1 h2 h3) :
    (TRef.of (T := ⟨S50000x128, .f32⟩) main_arg0 h1 h2 h3).ofBuf (W (Proc.devRef .tc main_arg0)) = W (Proc.devRef .tc main_arg0) := rfl
theorem ofBuf_arg1 (W : Valuation τ sig (Elt F)) (h1 h2 h3) :
    (TRef.of (T := ⟨S50000x3, .f32⟩) main_arg1 h1 h2 h3).ofBuf (W (Proc.devRef .tc main_arg1)) = W (Proc.devRef .tc main_arg1) := rfl
theorem ofBuf_v8 (W : Valuation τ sig (Elt F)) (h1 h2 h3) :
    (TRef.of (T := ⟨S800000x3, .f32⟩) main_v8 h1 h2 h3).ofBuf (W (Proc.devRef .tc main_v8)) = W (Proc.devRef .tc main_v8) := rfl

theorem toBuf_v4 (h1 h2 h3) (x : FVec F S800000x128 .f32) :
    ((TRef.of (T := ⟨S800000x128, .f32⟩) main_v4 h1 h2 h3).toBuf (Val := Elt F) x : FVec F S800000x128 .f32) = x := rfl
theorem toBuf_v5 (h1 h2 h3) (x : FVec F S800000x128 .f32) :
    ((TRef.of (T := ⟨S800000x128, .f32⟩) main_v5 h1 h2 h3).toBuf (Val := Elt F) x : FVec F S800000x128 .f32) = x := rfl
theorem toBuf_v6 (h1 h2 h3) (x : FVec F S800000x3 .f32) :
    ((TRef.of (T := ⟨S800000x3, .f32⟩) main_v6 h1 h2 h3).toBuf (Val := Elt F) x : FVec F S800000x3 .f32) = x := rfl
theorem toBuf_v7 (h1 h2 h3) (x : FVec F S800000x3 .f32) :
    ((TRef.of (T := ⟨S800000x3, .f32⟩) main_v7 h1 h2 h3).toBuf (Val := Elt F) x : FVec F S800000x3 .f32) = x := rfl
theorem toBuf_v9 (h1 h2 h3) (x : FVec F S800000x1 .f32) :
    ((TRef.of (T := ⟨S800000x1, .f32⟩) main_v9 h1 h2 h3).toBuf (Val := Elt F) x : FVec F S800000x1 .f32) = x := rfl

/-! ### What each stretch leaves in the buffers read later -/

theorem s0_v1 (W : Valuation τ sig (Elt F)) :
    after hostOps0 W (Proc.devRef .tc main_v1) = srcIdx (W (Proc.devRef .tc main_arg2)) := by
  after_results; rfl
theorem s0_v3 (W : Valuation τ sig (Elt F)) :
    after hostOps0 W (Proc.devRef .tc main_v3) = dstIdx (W (Proc.devRef .tc main_arg2)) := by
  after_results; rfl

theorem s1_v4 (W : Valuation τ sig (Elt F)) :
    after hostOps0_1 W (Proc.devRef .tc main_v4)
      = takeH (F := F) (W (Proc.devRef .tc main_arg0)) (W (Proc.devRef .tc main_v1)) := by
  after_results_simp
  simp only [ofBuf_toBuf, ofBuf_v1, ofBuf_arg0]
  exact toBuf_v4 _ _ _ _
theorem s2_v5 (W : Valuation τ sig (Elt F)) :
    after hostOps0_2 W (Proc.devRef .tc main_v5)
      = takeH (F := F) (W (Proc.devRef .tc main_arg0)) (W (Proc.devRef .tc main_v3)) := by
  after_results_simp
  simp only [ofBuf_toBuf, ofBuf_v3, ofBuf_arg0]
  exact toBuf_v5 _ _ _ _
theorem s3_v6 (W : Valuation τ sig (Elt F)) :
    after hostOps0_3 W (Proc.devRef .tc main_v6)
      = takeX (F := F) (W (Proc.devRef .tc main_arg1)) (W (Proc.devRef .tc main_v1)) := by
  after_results_simp
  simp only [ofBuf_toBuf, ofBuf_v1, ofBuf_arg1]
  exact toBuf_v6 _ _ _ _
theorem s4_v7 (W : Valuation τ sig (Elt F)) :
    after hostOps0_4 W (Proc.devRef .tc main_v7)
      = takeX (F := F) (W (Proc.devRef .tc main_arg1)) (W (Proc.devRef .tc main_v3)) := by
  after_results_simp
  simp only [ofBuf_toBuf, ofBuf_v3, ofBuf_arg1]
  exact toBuf_v7 _ _ _ _
theorem s5_v8 (W : Valuation τ sig (Elt F)) :
    after hostOps0_5 W (Proc.devRef .tc main_v8)
      = subf (F := F) (W (Proc.devRef .tc main_v6)) (W (Proc.devRef .tc main_v7)) := by
  after_results
theorem s6_v9 (W : Valuation τ sig (Elt F)) :
    after hostOps0_6 W (Proc.devRef .tc main_v9) = norm3 (F := F) (W (Proc.devRef .tc main_v8)) := by
  after_results_simp
  simp only [ofBuf_toBuf, ofBuf_v8]
  exact toBuf_v9 _ _ _ _
theorem s7_v10 (W : Valuation τ sig (Elt F)) :
    after hostOps0_7 W (Proc.devRef .tc main_v10)
      = extractStridedSlice S128x128 ![0, 0] (W (Proc.devRef .tc main_arg3)) slices_S257x128_S128x128_0_0 := by
  after_results
theorem s7_v11 (W : Valuation τ sig (Elt F)) :
    after hostOps0_7 W (Proc.devRef .tc main_v11)
      = extractStridedSlice S128x128 ![128, 0] (W (Proc.devRef .tc main_arg3)) slices_S257x128_S128x128_128_0 := by
  after_results
theorem s7_v12 (W : Valuation τ sig (Elt F)) :
    after hostOps0_7 W (Proc.devRef .tc main_v12)
      = extractStridedSlice S1x128 ![256, 0] (W (Proc.devRef .tc main_arg3)) slices_S257x128_S1x128_256_0 := by
  after_results
theorem s7_v13 (W : Valuation τ sig (Elt F)) :
    after hostOps0_7 W (Proc.devRef .tc main_v13) = shapeCast S1x128 (W (Proc.devRef .tc main_arg4)) shapeCasts_S128_S1x128 := by
  after_results; rfl
theorem s7_v14 (W : Valuation τ sig (Elt F)) :
    after hostOps0_7 W (Proc.devRef .tc main_v14) = shapeCast S1x128 (W (Proc.devRef .tc main_arg6)) shapeCasts_S128_S1x128 := by
  after_results; rfl
theorem s7_v15 (W : Valuation τ sig (Elt F)) :
    after hostOps0_7 W (Proc.devRef .tc main_v15) = shapeCast S1x128 (W (Proc.devRef .tc main_arg12)) shapeCasts_S128_S1x128 := by
  after_results; rfl

end Stretch

variable (m : (ℓ : Loc nD τ sig) → Buf (Elt Ideal) ℓ) (ρ : Dev nD → PrngReg) (c : Dev nD)

/-! ### A buffer none of the stretches so far writes holds what it was launched with -/

theorem W1_launch (r : Ref sig .tc) (h0 : r ∉ wl0) :
    W1 m ρ c (Proc.devRef .tc r) = m ((c : Thread nD τ).loc r) :=
  frame0 (W0 m ρ c) r h0
theorem W2_launch (r : Ref sig .tc) (h0 : r ∉ wl0) (h1 : r ∉ wl1) :
    W2 m ρ c (Proc.devRef .tc r) = m ((c : Thread nD τ).loc r) :=
  (frame1 (W1 m ρ c) r h1).trans (W1_launch m ρ c r h0)
theorem W3_launch (r : Ref sig .tc) (h0 : r ∉ wl0) (h1 : r ∉ wl1) (h2 : r ∉ wl2) :
    W3 m ρ c (Proc.devRef .tc r) = m ((c : Thread nD τ).loc r) :=
  (frame2 (W2 m ρ c) r h2).trans (W2_launch m ρ c r h0 h1)
theorem W4_launch (r : Ref sig .tc) (h0 : r ∉ wl0) (h1 : r ∉ wl1) (h2 : r ∉ wl2) (h3 : r ∉ wl3) :
    W4 m ρ c (Proc.devRef .tc r) = m ((c : Thread nD τ).loc r) :=
  (frame3 (W3 m ρ c) r h3).trans (W3_launch m ρ c r h0 h1 h2)
theorem W7_launch (r : Ref sig .tc) (h0 : r ∉ wl0) (h1 : r ∉ wl1) (h2 : r ∉ wl2) (h3 : r ∉ wl3) (h4 : r ∉ wl4)
    (h5 : r ∉ wl5) (h6 : r ∉ wl6) :
    W7 m ρ c (Proc.devRef .tc r) = m ((c : Thread nD τ).loc r) :=
  (frame6 (W6 m ρ c) r h6).trans <| (frame5 (W5 m ρ c) r h5).trans <| (frame4 (W4 m ρ c) r h4).trans
    (W4_launch m ρ c r h0 h1 h2 h3)
theorem W8_launch (r : Ref sig .tc) (h0 : r ∉ wl0) (h1 : r ∉ wl1) (h2 : r ∉ wl2) (h3 : r ∉ wl3) (h4 : r ∉ wl4)
    (h5 : r ∉ wl5) (h6 : r ∉ wl6) (h7 : r ∉ wl7) :
    W8 m ρ c (Proc.devRef .tc r) = m ((c : Thread nD τ).loc r) :=
  (frame7 (W7 m ρ c) r h7).trans (W7_launch m ρ c r h0 h1 h2 h3 h4 h5 h6)

/-! ### The edge list's two rows -/

theorem W1_src : W1 m ρ c (Proc.devRef .tc main_v1) = srcIdx (m ((c : Thread nD τ).loc main_arg2)) := s0_v1 (W0 m ρ c)
theorem W1_dst : W1 m ρ c (Proc.devRef .tc main_v3) = dstIdx (m ((c : Thread nD τ).loc main_arg2)) := s0_v3 (W0 m ρ c)
theorem W2_dst : W2 m ρ c (Proc.devRef .tc main_v3) = dstIdx (m ((c : Thread nD τ).loc main_arg2)) :=
  (frame1 (W1 m ρ c) main_v3 (by decide)).trans (W1_dst m ρ c)
theorem W3_src : W3 m ρ c (Proc.devRef .tc main_v1) = srcIdx (m ((c : Thread nD τ).loc main_arg2)) :=
  (frame2 (W2 m ρ c) main_v1 (by decide)).trans <| (frame1 (W1 m ρ c) main_v1 (by decide)).trans (W1_src m ρ c)
theorem W4_dst : W4 m ρ c (Proc.devRef .tc main_v3) = dstIdx (m ((c : Thread nD τ).loc main_arg2)) :=
  (frame3 (W3 m ρ c) main_v3 (by decide)).trans <| (frame2 (W2 m ρ c) main_v3 (by decide)).trans (W2_dst m ρ c)

/-! ### The four takes, the relative positions and their lengths -/

theorem W2_hsrc : W2 m ρ c (Proc.devRef .tc main_v4) = takeH (F := Ideal) (m ((c : Thread nD τ).loc main_arg0)) (srcIdx (m ((c : Thread nD τ).loc main_arg2))) :=
  (s1_v4 (W1 m ρ c)).trans
    (congrArg₂ (takeH (F := Ideal)) (W1_launch m ρ c main_arg0 (by decide)) (W1_src m ρ c))
theorem W3_hdst : W3 m ρ c (Proc.devRef .tc main_v5) = takeH (F := Ideal) (m ((c : Thread nD τ).loc main_arg0)) (dstIdx (m ((c : Thread nD τ).loc main_arg2))) :=
  (s2_v5 (W2 m ρ c)).trans
    (congrArg₂ (takeH (F := Ideal)) (W2_launch m ρ c main_arg0 (by decide) (by decide)) (W2_dst m ρ c))
theorem W4_xsrc : W4 m ρ c (Proc.devRef .tc main_v6) = takeX (F := Ideal) (m ((c : Thread nD τ).loc main_arg1)) (srcIdx (m ((c : Thread nD τ).loc main_arg2))) :=
  (s3_v6 (W3 m ρ c)).trans
    (congrArg₂ (takeX (F := Ideal)) (W3_launch m ρ c main_arg1 (by decide) (by decide) (by decide)) (W3_src m ρ c))
theorem W5_xdst : W5 m ρ c (Proc.devRef .tc main_v7) = takeX (F := Ideal) (m ((c : Thread nD τ).loc main_arg1)) (dstIdx (m ((c : Thread nD τ).loc main_arg2))) :=
  (s4_v7 (W4 m ρ c)).trans
    (congrArg₂ (takeX (F := Ideal)) (W4_launch m ρ c main_arg1 (by decide) (by decide) (by decide) (by decide)) (W4_dst m ρ c))
theorem W6_rel : W6 m ρ c (Proc.devRef .tc main_v8)
    = subf (F := Ideal) (takeX (F := Ideal) (m ((c : Thread nD τ).loc main_arg1)) (srcIdx (m ((c : Thread nD τ).loc main_arg2))))
        (takeX (F := Ideal) (m ((c : Thread nD τ).loc main_arg1)) (dstIdx (m ((c : Thread nD τ).loc main_arg2)))) :=
  (s5_v8 (W5 m ρ c)).trans
    (congrArg₂ (subf (F := Ideal)) ((frame4 (W4 m ρ c) main_v6 (by decide)).trans (W4_xsrc m ρ c)) (W5_xdst m ρ c))
theorem W7_dist : W7 m ρ c (Proc.devRef .tc main_v9)
    = norm3 (F := Ideal) (subf (F := Ideal) (takeX (F := Ideal) (m ((c : Thread nD τ).loc main_arg1)) (srcIdx (m ((c : Thread nD τ).loc main_arg2))))
        (takeX (F := Ideal) (m ((c : Thread nD τ).loc main_arg1)) (dstIdx (m ((c : Thread nD τ).loc main_arg2))))) :=
  (s6_v9 (W6 m ρ c)).trans (congrArg (norm3 (F := Ideal)) (W6_rel m ρ c))

/-! ## Region 0's entry contents -/

theorem V8_hsrc : V8 m ρ c main_v4 = takeH (F := Ideal) (m ((c : Thread nD τ).loc main_arg0)) (srcIdx (m ((c : Thread nD τ).loc main_arg2))) :=
  (frame7 (W7 m ρ c) main_v4 (by decide)).trans <| (frame6 (W6 m ρ c) main_v4 (by decide)).trans <|
    (frame5 (W5 m ρ c) main_v4 (by decide)).trans <| (frame4 (W4 m ρ c) main_v4 (by decide)).trans <|
    (frame3 (W3 m ρ c) main_v4 (by decide)).trans <| (frame2 (W2 m ρ c) main_v4 (by decide)).trans (W2_hsrc m ρ c)
theorem V8_hdst : V8 m ρ c main_v5 = takeH (F := Ideal) (m ((c : Thread nD τ).loc main_arg0)) (dstIdx (m ((c : Thread nD τ).loc main_arg2))) :=
  (frame7 (W7 m ρ c) main_v5 (by decide)).trans <| (frame6 (W6 m ρ c) main_v5 (by decide)).trans <|
    (frame5 (W5 m ρ c) main_v5 (by decide)).trans <| (frame4 (W4 m ρ c) main_v5 (by decide)).trans <|
    (frame3 (W3 m ρ c) main_v5 (by decide)).trans (W3_hdst m ρ c)
theorem V8_rel : V8 m ρ c main_v8 = subf (F := Ideal) (takeX (F := Ideal) (m ((c : Thread nD τ).loc main_arg1)) (srcIdx (m ((c : Thread nD τ).loc main_arg2)))) (takeX (F := Ideal) (m ((c : Thread nD τ).loc main_arg1)) (dstIdx (m ((c : Thread nD τ).loc main_arg2)))) :=
  (frame7 (W7 m ρ c) main_v8 (by decide)).trans <| (frame6 (W6 m ρ c) main_v8 (by decide)).trans (W6_rel m ρ c)
theorem V8_dist : V8 m ρ c main_v9 = norm3 (F := Ideal) (subf (F := Ideal) (takeX (F := Ideal) (m ((c : Thread nD τ).loc main_arg1)) (srcIdx (m ((c : Thread nD τ).loc main_arg2)))) (takeX (F := Ideal) (m ((c : Thread nD τ).loc main_arg1)) (dstIdx (m ((c : Thread nD τ).loc main_arg2))))) :=
  (frame7 (W7 m ρ c) main_v9 (by decide)).trans (W7_dist m ρ c)
theorem V8_w1h : V8 m ρ c main_v10 = extractStridedSlice S128x128 ![0, 0] (m ((c : Thread nD τ).loc main_arg3)) slices_S257x128_S128x128_0_0 :=
  (s7_v10 (W7 m ρ c)).trans
    (congrArg (extractStridedSlice S128x128 ![0, 0] · slices_S257x128_S128x128_0_0) (W7_launch m ρ c main_arg3 (by decide) (by decide) (by decide) (by decide) (by decide) (by decide) (by decide)))
theorem V8_w1c : V8 m ρ c main_v11 = extractStridedSlice S128x128 ![128, 0] (m ((c : Thread nD τ).loc main_arg3)) slices_S257x128_S128x128_128_0 :=
  (s7_v11 (W7 m ρ c)).trans
    (congrArg (extractStridedSlice S128x128 ![128, 0] · slices_S257x128_S128x128_128_0) (W7_launch m ρ c main_arg3 (by decide) (by decide) (by decide) (by decide) (by decide) (by decide) (by decide)))
theorem V8_w1d : V8 m ρ c main_v12 = extractStridedSlice S1x128 ![256, 0] (m ((c : Thread nD τ).loc main_arg3)) slices_S257x128_S1x128_256_0 :=
  (s7_v12 (W7 m ρ c)).trans
    (congrArg (extractStridedSlice S1x128 ![256, 0] · slices_S257x128_S1x128_256_0) (W7_launch m ρ c main_arg3 (by decide) (by decide) (by decide) (by decide) (by decide) (by decide) (by decide)))
theorem V8_b1 : V8 m ρ c main_v13 = shapeCast S1x128 (m ((c : Thread nD τ).loc main_arg4)) shapeCasts_S128_S1x128 :=
  (s7_v13 (W7 m ρ c)).trans
    (congrArg (shapeCast S1x128 · shapeCasts_S128_S1x128) (W7_launch m ρ c main_arg4 (by decide) (by decide) (by decide) (by decide) (by decide) (by decide) (by decide)))
theorem V8_w2 : V8 m ρ c main_arg5 = m ((c : Thread nD τ).loc main_arg5) :=
  W8_launch m ρ c main_arg5 (by decide) (by decide) (by decide) (by decide) (by decide) (by decide) (by decide) (by decide)
theorem V8_b2 : V8 m ρ c main_v14 = shapeCast S1x128 (m ((c : Thread nD τ).loc main_arg6)) shapeCasts_S128_S1x128 :=
  (s7_v14 (W7 m ρ c)).trans
    (congrArg (shapeCast S1x128 · shapeCasts_S128_S1x128) (W7_launch m ρ c main_arg6 (by decide) (by decide) (by decide) (by decide) (by decide) (by decide) (by decide)))
theorem V8_wc1 : V8 m ρ c main_arg11 = m ((c : Thread nD τ).loc main_arg11) :=
  W8_launch m ρ c main_arg11 (by decide) (by decide) (by decide) (by decide) (by decide) (by decide) (by decide) (by decide)
theorem V8_bc1 : V8 m ρ c main_v15 = shapeCast S1x128 (m ((c : Thread nD τ).loc main_arg12)) shapeCasts_S128_S1x128 :=
  (s7_v15 (W7 m ρ c)).trans
    (congrArg (shapeCast S1x128 · shapeCasts_S128_S1x128) (W7_launch m ρ c main_arg12 (by decide) (by decide) (by decide) (by decide) (by decide) (by decide) (by decide)))
theorem V8_wc2 : V8 m ρ c main_arg13 = m ((c : Thread nD τ).loc main_arg13) :=
  W8_launch m ρ c main_arg13 (by decide) (by decide) (by decide) (by decide) (by decide) (by decide) (by decide) (by decide)

end Cert.KernelIdeal.HostReads

end
-- ==== Proof.KernelHostB1Aux.lean ====
/-
  The kernel program's buffers at its later segment boundaries, walked back to the launch memory: an argument no
  stretch writes holds what it held at launch; the edge list's second row is written once, by the first stretch;
  the two scatter-added arrays and the last sum are read off the stretches that write them.
-/
import proofs.«415618_j10084583211152_1_alg».proof.Proof.Gen.KernelIdeal.Frame
import proofs.«415618_j10084583211152_1_alg».proof.Proof.KernelGlue
import Idealize.ShloMosaic.Lib.StableHlo.Run

set_option maxRecDepth 16384

noncomputable section

namespace Cert.KernelIdeal.HostReadsB1

open Cert.KernelIdeal Cert.KernelIdeal.Gen Cert.KernelIdeal.Glue Idealize.ShloMosaic Idealize.ShloMosaic.TcCoe Idealize.ShloMosaic.StableHlo
open Idealize.SL.Sem

/-- A buffer that no operation of the named stretch writes holds after it what it held before. -/
macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

/-! ## Arguments no stretch before region 0 writes: as launched -/

theorem W8_main_arg0 : W8 m ρ c (Proc.devRef .tc main_arg0) = m ((c : Thread nD τ).loc main_arg0) :=
  calc W8 m ρ c (Proc.devRef .tc main_arg0)
    _ = W7 m ρ c (Proc.devRef .tc main_arg0) := by keeps hostOps0_7
    _ = W6 m ρ c (Proc.devRef .tc main_arg0) := by keeps hostOps0_6
    _ = W5 m ρ c (Proc.devRef .tc main_arg0) := by keeps hostOps0_5
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem W8_main_arg1 : W8 m ρ c (Proc.devRef .tc main_arg1) = m ((c : Thread nD τ).loc main_arg1) :=
  calc W8 m ρ c (Proc.devRef .tc main_arg1)
    _ = W7 m ρ c (Proc.devRef .tc main_arg1) := by keeps hostOps0_7
    _ = W6 m ρ c (Proc.devRef .tc main_arg1) := by keeps hostOps0_6
    _ = W5 m ρ c (Proc.devRef .tc main_arg1) := by keeps hostOps0_5
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl

theorem W8_main_arg9 : W8 m ρ c (Proc.devRef .tc main_arg9) = m ((c : Thread nD τ).loc main_arg9) :=
  calc W8 m ρ c (Proc.devRef .tc main_arg9)
    _ = W7 m ρ c (Proc.devRef .tc main_arg9) := by keeps hostOps0_7
    _ = W6 m ρ c (Proc.devRef .tc main_arg9) := by keeps hostOps0_6
    _ = W5 m ρ c (Proc.devRef .tc main_arg9) := by keeps hostOps0_5
    _ = W4 m ρ c (Proc.devRef .tc main_arg9) := by keeps hostOps0_4
    _ = W3 m ρ c (Proc.devRef .tc main_arg9) := by keeps hostOps0_3
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

/-! ## The edge list's second row: written by the first stretch, kept by the others -/

theorem W1_main_v3 : W1 m ρ c (Proc.devRef .tc main_v3) = dstIdx (m ((c : Thread nD τ).loc main_arg2)) := by
  show StableHlo.after hostOps0 (W0 m ρ c) (Proc.devRef .tc main_v3) = dstIdx (W0 m ρ c (Proc.devRef .tc main_arg2))
  generalize W0 m ρ c = W
  simp only [hostOps0]
  after_results
  rfl

theorem W9_main_v3 : W9 m ρ c (Proc.devRef .tc main_v3) = dstIdx (m ((c : Thread nD τ).loc main_arg2)) :=
  calc W9 m ρ c (Proc.devRef .tc main_v3)
    _ = W8 m ρ c (Proc.devRef .tc main_v3) := W9_of_ne m ρ c main_v3 (by decide)
    _ = W7 m ρ c (Proc.devRef .tc main_v3) := by keeps hostOps0_7
    _ = W6 m ρ c (Proc.devRef .tc main_v3) := by keeps hostOps0_6
    _ = W5 m ρ c (Proc.devRef .tc main_v3) := by keeps hostOps0_5
    _ = W4 m ρ c (Proc.devRef .tc main_v3) := by keeps hostOps0_4
    _ = W3 m ρ c (Proc.devRef .tc main_v3) := by keeps hostOps0_3
    _ = W2 m ρ c (Proc.devRef .tc main_v3) := by keeps hostOps0_2
    _ = W1 m ρ c (Proc.devRef .tc main_v3) := by keeps hostOps0_1
    _ = dstIdx (m ((c : Thread nD τ).loc main_arg2)) := W1_main_v3 m ρ c

/-! ## What the stretch between the regions and the last stretch write, over any contents before them -/

theorem after1_v19 (W : Valuation τ sig (Elt F)) :
    StableHlo.after hostOps1 W (Proc.devRef .tc main_v19)
      = Host.scatterAdd scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (W (Proc.devRef .tc main_v16_0)) := by
  simp only [hostOps1]
  after_results

theorem after1_v22 (W : Valuation τ sig (Elt F)) :
    StableHlo.after hostOps1 W (Proc.devRef .tc main_v22)
      = Host.scatterAdd scatter_S50000x3_S800000x1_S800000x3_1_0_0_1
          (broadcastInDim S50000x3 ![] bcast_S_S50000x3 (constant (F := F) S_ .f32 0x00000000#32))
          (broadcastInDim S800000x1 ![0] bcast_S800000_S800000x1_0 (W (Proc.devRef .tc main_v3)))
          (W (Proc.devRef .tc main_v16_1)) := by
  simp only [hostOps1]
  after_results

theorem after2_v28 (W : Valuation τ sig (Elt F)) :
    StableHlo.after hostOps2 W (Proc.devRef .tc main_v28) = addf (W (Proc.devRef .tc main_arg1)) (W (Proc.devRef .tc main_v22)) := by
  simp only [hostOps2]
  after_results

/-! ## Region 1's entry contents -/

theorem V10_h : V10 m ρ c main_arg0 = m ((c : Thread nD τ).loc main_arg0) :=
  calc V10 m ρ c main_arg0
    _ = W9 m ρ c (Proc.devRef .tc main_arg0) := by keeps hostOps1
    _ = W8 m ρ c (Proc.devRef .tc main_arg0) := W9_of_ne m ρ c main_arg0 (by decide)
    _ = m ((c : Thread nD τ).loc main_arg0) := W8_main_arg0 m ρ c

theorem V10_w2 : V10 m ρ c main_arg9 = m ((c : Thread nD τ).loc main_arg9) :=
  calc V10 m ρ c main_arg9
    _ = W9 m ρ c (Proc.devRef .tc main_arg9) := by keeps hostOps1
    _ = W8 m ρ c (Proc.devRef .tc main_arg9) := W9_of_ne m ρ c main_arg9 (by decide)
    _ = m ((c : Thread nD τ).loc main_arg9) := W8_main_arg9 m ρ c

theorem V10_agg : V10 m ρ c main_v19 = aggH (F := F) (m ((c : Thread nD τ).loc main_arg2)) ((dat0 (V8 m ρ) c).arrAt 13 cfg0.N) := by
  have h3 := W9_main_v3 m ρ c
  have h16 : W9 m ρ c (Proc.devRef .tc main_v16_0) = (dat0 (V8 m ρ) c).arrAt 13 cfg0.N := W9_arr m ρ c 13
  refine (after1_v19 (W9 m ρ c)).trans ?_
  rw [h3, h16]
  rfl

/-! ## The results at the last boundary -/

theorem W12_out0 : W12 m ρ c (Proc.devRef .tc main_v27) = (dat1 (V10 m ρ) c).arrAt 7 cfg1.N :=
  calc W12 m ρ c (Proc.devRef .tc main_v27)
    _ = W11 m ρ c (Proc.devRef .tc main_v27) := by keeps hostOps2
    _ = (dat1 (V10 m ρ) c).arrAt 7 cfg1.N := W11_arr m ρ c 7

theorem W10_main_v22 : W10 m ρ c (Proc.devRef .tc main_v22) = aggX (F := F) (m ((c : Thread nD τ).loc main_arg2)) ((dat0 (V8 m ρ) c).arrAt 14 cfg0.N) := by
  have h3 := W9_main_v3 m ρ c
  have h16 : W9 m ρ c (Proc.devRef .tc main_v16_1) = (dat0 (V8 m ρ) c).arrAt 14 cfg0.N := W9_arr m ρ c 14
  refine (after1_v22 (W9 m ρ c)).trans ?_
  rw [h3, h16]
  rfl

theorem W11_main_arg1 : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := by keeps hostOps1
    _ = W8 m ρ c (Proc.devRef .tc main_arg1) := W9_of_ne m ρ c main_arg1 (by decide)
    _ = m ((c : Thread nD τ).loc main_arg1) := W8_main_arg1 m ρ c

theorem W12_out1 : W12 m ρ c (Proc.devRef .tc main_v28)
    = addf (m ((c : Thread nD τ).loc main_arg1)) (aggX (F := F) (m ((c : Thread nD τ).loc main_arg2)) ((dat0 (V8 m ρ) c).arrAt 14 cfg0.N)) := by
  have h22 : W11 m ρ c (Proc.devRef .tc main_v22) = W10 m ρ c (Proc.devRef .tc main_v22) := W11_of_ne m ρ c main_v22 (by decide)
  refine (after2_v28 (W11 m ρ c)).trans ?_
  rw [W11_main_arg1 m ρ c, h22, W10_main_v22 m ρ c]

end Cert.KernelIdeal.HostReadsB1

end
-- ==== Proof.KernelHostB.lean ====
/-
  What the kernel program's buffers hold at its later segment boundaries, read back to the argument arrays: the
  seven arrays region 1 is entered with (one of them the messages region 0 left, summed into their target nodes),
  and the two results at the last boundary.
-/
import proofs.«415618_j10084583211152_1_alg».proof.Proof.Gen.KernelIdeal.Frame
import proofs.«415618_j10084583211152_1_alg».proof.Proof.KernelGlue
import proofs.«415618_j10084583211152_1_alg».proof.Proof.KernelHostB1Aux
import Idealize.ShloMosaic.Lib.StableHlo.Run

set_option maxRecDepth 16384

noncomputable section

namespace Cert.KernelIdeal.HostReadsB

open Cert.KernelIdeal Cert.KernelIdeal.Gen Cert.KernelIdeal.Glue Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Region 1's entry contents -/

theorem V10_h : V10 m ρ c main_arg0 = m ((c : Thread nD τ).loc main_arg0) := by exact HostReadsB1.V10_h m ρ c
theorem V10_agg : V10 m ρ c main_v19 = aggH (F := Ideal) (m ((c : Thread nD τ).loc main_arg2)) ((dat0 (V8 m ρ) c).arrAt 13 cfg0.N) := by exact HostReadsB1.V10_agg m ρ c
theorem V10_wh : V10 m ρ c main_v23 = extractStridedSlice S128x128 ![0, 0] (m ((c : Thread nD τ).loc main_arg7)) slices_S256x128_S128x128_0_0 := by
  have hw : W9 m ρ c (Proc.devRef .tc main_arg7) = m ((c : Thread nD τ).loc main_arg7) :=
    calc W9 m ρ c (Proc.devRef .tc main_arg7)
      _ = W10 m ρ c (Proc.devRef .tc main_arg7) := (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = W11 m ρ c (Proc.devRef .tc main_arg7) := (W11_of_ne m ρ c main_arg7 (by decide)).symm
      _ = W12 m ρ c (Proc.devRef .tc main_arg7) := (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = m ((c : Thread nD τ).loc main_arg7) := W12_main_arg7 m ρ c
  show StableHlo.after hostOps1 (W9 m ρ c) (Proc.devRef .tc main_v23) = _
  rw [← hw]
  generalize W9 m ρ c = W
  simp only [hostOps1]
  after_results
theorem V10_wa : V10 m ρ c main_v24 = extractStridedSlice S128x128 ![128, 0] (m ((c : Thread nD τ).loc main_arg7)) slices_S256x128_S128x128_128_0 := by
  have hw : W9 m ρ c (Proc.devRef .tc main_arg7) = m ((c : Thread nD τ).loc main_arg7) :=
    calc W9 m ρ c (Proc.devRef .tc main_arg7)
      _ = W10 m ρ c (Proc.devRef .tc main_arg7) := (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = W11 m ρ c (Proc.devRef .tc main_arg7) := (W11_of_ne m ρ c main_arg7 (by decide)).symm
      _ = W12 m ρ c (Proc.devRef .tc main_arg7) := (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = m ((c : Thread nD τ).loc main_arg7) := W12_main_arg7 m ρ c
  show StableHlo.after hostOps1 (W9 m ρ c) (Proc.devRef .tc main_v24) = _
  rw [← hw]
  generalize W9 m ρ c = W
  simp only [hostOps1]
  after_results
theorem V10_b1 : V10 m ρ c main_v25 = shapeCast S1x128 (m ((c : Thread nD τ).loc main_arg8)) shapeCasts_S128_S1x128 := by
  have hw : W9 m ρ c (Proc.devRef .tc main_arg8) = m ((c : Thread nD τ).loc main_arg8) :=
    calc W9 m ρ c (Proc.devRef .tc main_arg8)
      _ = W10 m ρ c (Proc.devRef .tc main_arg8) := (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = W11 m ρ c (Proc.devRef .tc main_arg8) := (W11_of_ne m ρ c main_arg8 (by decide)).symm
      _ = W12 m ρ c (Proc.devRef .tc main_arg8) := (StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = m ((c : Thread nD τ).loc main_arg8) := W12_main_arg8 m ρ c
  show StableHlo.after hostOps1 (W9 m ρ c) (Proc.devRef .tc main_v25) = _
  rw [← hw]
  generalize W9 m ρ c = W
  simp only [hostOps1]
  after_results
  rfl
theorem V10_w2 : V10 m ρ c main_arg9 = m ((c : Thread nD τ).loc main_arg9) := by exact HostReadsB1.V10_w2 m ρ c
theorem V10_b2 : V10 m ρ c main_v26 = shapeCast S1x128 (m ((c : Thread nD τ).loc main_arg10)) shapeCasts_S128_S1x128 := by
  have hw : W9 m ρ c (Proc.devRef .tc main_arg10) = m ((c : Thread nD τ).loc main_arg10) :=
    calc W9 m ρ c (Proc.devRef .tc main_arg10)
      _ = W10 m ρ c (Proc.devRef .tc main_arg10) := (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = W11 m ρ c (Proc.devRef .tc main_arg10) := (W11_of_ne m ρ c main_arg10 (by decide)).symm
      _ = W12 m ρ c (Proc.devRef .tc main_arg10) := (StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
      _ = m ((c : Thread nD τ).loc main_arg10) := W12_main_arg10 m ρ c
  show StableHlo.after hostOps1 (W9 m ρ c) (Proc.devRef .tc main_v26) = _
  rw [← hw]
  generalize W9 m ρ c = W
  simp only [hostOps1]
  after_results
  rfl

/-! ## The results at the last boundary -/

theorem W12_out0 : W12 m ρ c (Proc.devRef .tc main_v27) = (dat1 (V10 m ρ) c).arrAt 7 cfg1.N := by exact HostReadsB1.W12_out0 m ρ c
theorem W12_out1 : W12 m ρ c (Proc.devRef .tc main_v28)
    = addf (F := Ideal) (m ((c : Thread nD τ).loc main_arg1)) (aggX (F := Ideal) (m ((c : Thread nD τ).loc main_arg2)) ((dat0 (V8 m ρ) c).arrAt 14 cfg0.N)) := by exact HostReadsB1.W12_out1 m ρ c

end Cert.KernelIdeal.HostReadsB

end
-- ==== Proof.KernelTables.lean ====
/-
  The weights' row slices and the biases' one-row casts read as tables: a slice of `cnt` consecutive rows from row
  `off` of a weight array, read as a table, is those rows of the array's table (element `(a, b)` of the slice is
  element `(off + a, b)` of the array), and a length-128 vector cast to one row of 128, read as a table, is the
  vector as a one-row table (the cast keeps the row-major position, and `0 · 128 + k = k`).
-/
import proofs.«415618_j10084583211152_1_alg».proof.Proof.Gen.KernelIdeal
import proofs.«415618_j10084583211152_1_alg».proof.Proof.Spec
import Idealize.ShloMosaic.Lib.ValueIdx
import Idealize.ShloMosaic.Lib.ValueLayout
import Idealize.ShloMosaic.Lib.Pipeline.Value
import proofs.«415618_j10084583211152_1_alg».proof.Proof.KernelGlue

noncomputable section

open scoped BigOperators

namespace Cert.KernelIdeal.Tables

open Cert.KernelIdeal Cert.KernelIdeal.Gen Cert.EGNN Idealize.ShloMosaic Idealize.ShloMosaic.ValueIdx

/-! ## The weights' slices and the biases' casts, as tables -/

theorem tab_rows_0 (W : FVec Ideal S257x128 .f32) :
    tab (extractStridedSlice S128x128 ![0, 0] W slices_S257x128_S128x128_0_0) = rowsFrom 0 128 (by omega) (tab W) := by
  funext a b
  exact extractStridedSlice_apply ![0, 0] W slices_S257x128_S128x128_0_0 (ix2 a b)
    (ix2 ⟨0 + a.val, by have := a.isLt; omega⟩ b) (fun c => match c with
      | ⟨0, _⟩ => by show 0 + a.val = 0 + a.val; rfl
      | ⟨1, _⟩ => by show b.val = 0 + b.val; omega)

theorem tab_rows_128 (W : FVec Ideal S257x128 .f32) :
    tab (extractStridedSlice S128x128 ![128, 0] W slices_S257x128_S128x128_128_0) = rowsFrom 128 128 (by omega) (tab W) := by
  funext a b
  exact extractStridedSlice_apply ![128, 0] W slices_S257x128_S128x128_128_0 (ix2 a b)
    (ix2 ⟨128 + a.val, by have := a.isLt; omega⟩ b) (fun c => match c with
      | ⟨0, _⟩ => by show 128 + a.val = 128 + a.val; rfl
      | ⟨1, _⟩ => by show b.val = 0 + b.val; omega)

theorem tab_rows_256 (W : FVec Ideal S257x128 .f32) :
    tab (extractStridedSlice S1x128 ![256, 0] W slices_S257x128_S1x128_256_0) = rowsFrom 256 1 (by omega) (tab W) := by
  funext a b
  exact extractStridedSlice_apply ![256, 0] W slices_S257x128_S1x128_256_0 (ix2 a b)
    (ix2 ⟨256 + a.val, by have := a.isLt; omega⟩ b) (fun c => match c with
      | ⟨0, _⟩ => by show 256 + a.val = 256 + a.val; rfl
      | ⟨1, _⟩ => by show b.val = 0 + b.val; omega)

theorem tab_rows2_0 (W : FVec Ideal S256x128 .f32) :
    tab (extractStridedSlice S128x128 ![0, 0] W slices_S256x128_S128x128_0_0) = rowsFrom 0 128 (by omega) (tab W) := by
  funext a b
  exact extractStridedSlice_apply ![0, 0] W slices_S256x128_S128x128_0_0 (ix2 a b)
    (ix2 ⟨0 + a.val, by have := a.isLt; omega⟩ b) (fun c => match c with
      | ⟨0, _⟩ => by show 0 + a.val = 0 + a.val; rfl
      | ⟨1, _⟩ => by show b.val = 0 + b.val; omega)

theorem tab_rows2_128 (W : FVec Ideal S256x128 .f32) :
    tab (extractStridedSlice S128x128 ![128, 0] W slices_S256x128_S128x128_128_0) = rowsFrom 128 128 (by omega) (tab W) := by
  funext a b
  exact extractStridedSlice_apply ![128, 0] W slices_S256x128_S128x128_128_0 (ix2 a b)
    (ix2 ⟨128 + a.val, by have := a.isLt; omega⟩ b) (fun c => match c with
      | ⟨0, _⟩ => by show 128 + a.val = 128 + a.val; rfl
      | ⟨1, _⟩ => by show b.val = 0 + b.val; omega)

theorem tab_oneRow (b : FVec Ideal S128 .f32) : tab (shapeCast S1x128 b shapeCasts_S128_S1x128) = asRow (vec b) := by
  funext a k
  exact shapeCast_apply b shapeCasts_S128_S1x128 (ix2 a k) (ix1 k)
    (by rewrite [Shape.rowMajor_val_one, Shape.rowMajor_val_two]
        have h0 : a.val < 1 := a.isLt
        show k.val = a.val * 128 + k.val
        omega)

end Cert.KernelIdeal.Tables

end
-- ==== Proof.PreIdx.lean ====
/-
  What the precondition gives the kernel program: every entry of the edge list lies in `0 … 49999`, so a wrapped
  index is the index itself, the bounds test is true at every edge, and the take is the plain gather.
-/
import proofs.«415618_j10084583211152_1_alg».proof.Defs
import proofs.«415618_j10084583211152_1_alg».proof.Proof.Gen.KernelIdeal
import proofs.«415618_j10084583211152_1_alg».proof.Proof.Gen.Pre_finite_inputs
import proofs.«415618_j10084583211152_1_alg».proof.Proof.KernelGlue
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.PreIdx

open Cert.KernelIdeal Cert.KernelIdeal.Gen Cert.KernelIdeal.Glue Idealize.ShloMosaic Idealize.ShloMosaic.ValueIdx Idealize.ShloMosaic.TcCoe
open Idealize.SL.Sem

/-- Every entry of the edge list is a node number: signed, at least 0 and below 50000. -/
def InRange (ei : IVec S2x800000 32) : Prop := ∀ i : S2x800000.Idx, 0 ≤ (ei i).toInt ∧ (ei i).toInt < 50000

/-! ## Words: the signed comparisons against 0, 49999 and 50000 -/

/-- A word read signed lies in `0 … 49999`. -/
def InR (w : BitVec 32) : Prop := 0 ≤ w.toInt ∧ w.toInt < 50000

theorem sge_zero_iff (w : BitVec 32) : IntOp.cmpi .sge w 0#32 = 1#1 ↔ 0 ≤ w.toInt := by
  unfold IntOp.cmpi
  rw [StableHlo.Predicate.ofBool_eq_one_iff]
  simp only [BitVec.sle, decide_eq_true_eq]
  rfl

theorem slt_iff (w : BitVec 32) : IntOp.cmpi .slt w 50000#32 = 1#1 ↔ w.toInt < 50000 := by
  unfold IntOp.cmpi
  rw [StableHlo.Predicate.ofBool_eq_one_iff]
  simp only [BitVec.slt, decide_eq_true_eq]
  rfl

theorem sle_iff (w : BitVec 32) : IntOp.cmpi .sle w 49999#32 = 1#1 ↔ w.toInt ≤ 49999 := by
  unfold IntOp.cmpi
  rw [StableHlo.Predicate.ofBool_eq_one_iff]
  simp only [BitVec.sle, decide_eq_true_eq]
  rfl

/-- A non-negative word is not below 0. -/
theorem slt_zero_of (w : BitVec 32) (h : 0 ≤ w.toInt) : IntOp.cmpi .slt w 0#32 = 0#1 := by
  unfold IntOp.cmpi
  have : w.slt 0#32 = false := by
    simp only [BitVec.slt, decide_eq_false_iff_not, not_lt]
    exact h
  rw [this]; rfl

/-- The wrapped index at a word in range is the word: the test "below 0" fails, so nothing is added. -/
theorem wrap_word (w : BitVec 32) (h : InR w) :
    Scalar.select (IntOp.cmpi .slt w 0#32) (IntOp.addi w 50000#32) w = w := by
  rw [slt_zero_of w h.1]
  exact select_zero _ _

/-! ## An `and`-reduction of ones -/

/-- A fold of `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An `and`-reduction from 1 of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The precondition's last conjunct: `all (0 ≤ edge_index < 50000)` -/

/-- The predicate's last part: its result is 1 only if both comparison masks are 1 everywhere (the result is the
    `and` of the earlier conjuncts with the `and`-reduction, over all axes, of the two masks' `and`). -/
theorem part4_masks (v63 : IVec Cert.Pre_finite_inputs.S_ 1) (v65 v67 : IVec Cert.Pre_finite_inputs.S2x800000 1)
    (h : Cert.Pre_finite_inputs.fn_part4 (F := Ideal) v63 v65 v67 ix0 = 1#1) (i : Cert.Pre_finite_inputs.S2x800000.Idx) :
    v65 i = 1#1 ∧ v67 i = 1#1 := by
  haveI : Subsingleton Cert.Pre_finite_inputs.S_.Idx := ⟨fun a b => funext fun d => d.elim0⟩
  unfold Cert.Pre_finite_inputs.fn_part4 at h
  dsimp only at h
  have h2 := (IntOp.andi_eq_one.1 h).2
  have h3 := Host.reduce_andi_all _ _ _ _ _ h2 i
  exact IntOp.andi_eq_one.1 h3

/-- The part before it builds the two masks from the edge list: `edge_index ≥ 0` and `edge_index < 50000`, signed,
    against the broadcast constants (a broadcast scalar reads the scalar everywhere). -/
theorem part3_inRange (ei : IVec S2x800000 32) (a12 : FVec Ideal Cert.Pre_finite_inputs.S128 .f32)
    (a13 : FVec Ideal Cert.Pre_finite_inputs.S128x1 .f32) (v48 : IVec Cert.Pre_finite_inputs.S_ 1)
    (v49 v50 : FVec Ideal Cert.Pre_finite_inputs.S128x128 .f32)
    (h : Cert.Pre_finite_inputs.fn_part3 (F := Ideal) ei a12 a13 v48 v49 v50 ix0 = 1#1) : InRange ei := by
  intro i
  unfold Cert.Pre_finite_inputs.fn_part3 at h
  dsimp only at h
  obtain ⟨h0, h1⟩ := part4_masks _ _ _ h i
  exact ⟨(sge_zero_iff _).1 h0, (slt_iff _).1 h1⟩

theorem inRange_of_pre (m : (ℓ : Loc nD τ sig) → Buf (Elt Ideal) ℓ) (h : Cert.Pre_KernelIdeal m) (c : Dev nD) :
    InRange (m ((c.tc : Thread nD τ).loc main_arg2)) := by
  have e := congrFun (h c) ix0
  unfold Cert.Pre_finite_inputs.fn Cert.Pre_finite_inputs.fn_part1 Cert.Pre_finite_inputs.fn_part2 at e
  dsimp only at e
  exact part3_inRange _ _ _ _ _ _ e

/-! ## The bounds test under the range -/

/-- Every entry of a wrapped index column is an entry of the vector (a column entry is the selected word at one
    position of the vector), and stays in range when the vector's entries are. -/
theorem wrapped_inR (r : IVec S800000 32) (hr : ∀ k, InR (r k)) (j : S800000x1.Idx) : InR (wrapped r j) := by
  unfold wrapped broadcastInDim
  dsimp only
  generalize (fun a : Fin S800000.rank => _ : S800000.Idx) = k
  show InR (Scalar.select (IntOp.cmpi .slt (r k) 0#32) (IntOp.addi (r k) 50000#32) (r k))
  rw [wrap_word _ (hr k)]
  exact hr k

/-- A column of words in range passes the bounds test at every row: both comparisons are 1 at each entry, and the
    `and`-reduction of ones along the unit axis is 1. -/
theorem inBounds_of (i : IVec S800000x1 32) (hi : ∀ j, InR (i j)) : inBounds i = fun _ => 1#1 := by
  funext e
  unfold inBounds
  refine reduce_andi_ones _ _ _ _ (fun j => ?_) rfl e
  show IntOp.andi (IntOp.cmpi .sge (i j) 0#32) (IntOp.cmpi .sle (i j) 49999#32) = 1#1
  have h := hi j
  rw [(sge_zero_iff _).2 h.1, (sle_iff _).2 (by have := h.2; omega)]
  rfl

/-- Each row of the edge list reads the edge list at one of its positions. -/
theorem srcIdx_inR (ei : IVec S2x800000 32) (h : InRange ei) (k : S800000.Idx) : InR (srcIdx ei k) := h _
theorem dstIdx_inR (ei : IVec S2x800000 32) (h : InRange ei) (k : S800000.Idx) : InR (dstIdx ei k) := h _

theorem inBounds_src (ei : IVec S2x800000 32) (h : InRange ei) : inBounds (wrapped (srcIdx ei)) = fun _ => 1#1 :=
  inBounds_of _ (wrapped_inR _ (srcIdx_inR ei h))

theorem inBounds_dst (ei : IVec S2x800000 32) (h : InRange ei) : inBounds (wrapped (dstIdx ei)) = fun _ => 1#1 :=
  inBounds_of _ (wrapped_inR _ (dstIdx_inR ei h))

/-! ## The take under a bounds test that is 1 everywhere: the select keeps the gathered rows -/

theorem takeH_eq {F : FTy → Type} [FloatOps F] (x : FVec F S50000x128 .f32) (r : IVec S800000 32) (hb : inBounds (wrapped r) = fun _ => 1#1) :
    takeH x r = gatherH x (wrapped r) := by
  funext i
  unfold takeH
  rw [select_apply, hb]
  exact select_one _ _

theorem takeX_eq {F : FTy → Type} [FloatOps F] (x : FVec F S50000x3 .f32) (r : IVec S800000 32) (hb : inBounds (wrapped r) = fun _ => 1#1) :
    takeX x r = gatherX x (wrapped r) := by
  funext i
  unfold takeX
  rw [select_apply, hb]
  exact select_one _ _

end Cert.KernelIdeal.PreIdx

end
-- ==== Proof.KernelLayer.lean ====
/-
  The kernel program's two results as functions of its argument arrays, when every edge index is a node number:
  the node kernel's array over the messages the edge kernel left, summed into their target nodes, and the positions
  plus the summed coordinate updates. The takes are plain gathers there, the weights' slices and the biases' casts are
  read as tables, and each region's array is the layer's arithmetic of the arrays it was entered with.
-/
import proofs.«415618_j10084583211152_1_alg».proof.Proof.EdgeArrays
import proofs.«415618_j10084583211152_1_alg».proof.Proof.NodeArrays
import proofs.«415618_j10084583211152_1_alg».proof.Proof.KernelHost
import proofs.«415618_j10084583211152_1_alg».proof.Proof.KernelHostB
import proofs.«415618_j10084583211152_1_alg».proof.Proof.KernelTables
import proofs.«415618_j10084583211152_1_alg».proof.Proof.PreIdx

set_option maxRecDepth 16384

noncomputable section

open scoped BigOperators

namespace Cert.KernelIdeal.Layer

open Cert.KernelIdeal Cert.KernelIdeal.Gen Cert.KernelIdeal.Glue Cert.KernelIdeal.Tables Cert.EGNN Idealize.ShloMosaic Idealize.ShloMosaic.ValueIdx Idealize.ShloMosaic.TcCoe
open Idealize.SL.Sem

/-- Relative positions of the edges' end points. -/
def relArr (a1 : FVec Ideal S50000x3 .f32) (a2 : IVec S2x800000 32) : FVec Ideal S800000x3 .f32 :=
  subf (F := Ideal) (gatherX a1 (wrapped (srcIdx a2))) (gatherX a1 (wrapped (dstIdx a2)))

/-- The edge messages, from the node features, positions, edge list and the first four weights. -/
def msgArr (a0 : FVec Ideal S50000x128 .f32) (a1 : FVec Ideal S50000x3 .f32) (a2 : IVec S2x800000 32) (a3 : FVec Ideal S257x128 .f32)
    (a4 : FVec Ideal S128 .f32) (a5 : FVec Ideal S128x128 .f32) (a6 : FVec Ideal S128 .f32) : FVec Ideal S800000x128 .f32 :=
  untab (edgeMsg (tab (gatherH a0 (wrapped (srcIdx a2)))) (tab (gatherH a0 (wrapped (dstIdx a2)))) (tab (norm3 (relArr a1 a2)))
    (rowsFrom 0 128 (by omega) (tab a3)) (rowsFrom 128 128 (by omega) (tab a3)) (rowsFrom 256 1 (by omega) (tab a3))
    (asRow (vec a4)) (tab a5) (asRow (vec a6)))

/-- The edges' coordinate updates. -/
def coordArr (a0 : FVec Ideal S50000x128 .f32) (a1 : FVec Ideal S50000x3 .f32) (a2 : IVec S2x800000 32) (a3 : FVec Ideal S257x128 .f32)
    (a4 : FVec Ideal S128 .f32) (a5 : FVec Ideal S128x128 .f32) (a6 : FVec Ideal S128 .f32)
    (a11 : FVec Ideal S128x128 .f32) (a12 : FVec Ideal S128 .f32) (a13 : FVec Ideal S128x1 .f32) : FVec Ideal S800000x3 .f32 :=
  untab (coordDiff (tab (relArr a1 a2)) (tab (msgArr a0 a1 a2 a3 a4 a5 a6)) (tab a11) (asRow (vec a12)) (tab a13))

/-- The layer's new node features. -/
def outH (a0 : FVec Ideal S50000x128 .f32) (a1 : FVec Ideal S50000x3 .f32) (a2 : IVec S2x800000 32) (a3 : FVec Ideal S257x128 .f32)
    (a4 : FVec Ideal S128 .f32) (a5 : FVec Ideal S128x128 .f32) (a6 : FVec Ideal S128 .f32) (a7 : FVec Ideal S256x128 .f32)
    (a8 : FVec Ideal S128 .f32) (a9 : FVec Ideal S128x128 .f32) (a10 : FVec Ideal S128 .f32) : FVec Ideal S50000x128 .f32 :=
  untab (nodeNew (tab a0) (tab (aggH a2 (msgArr a0 a1 a2 a3 a4 a5 a6)))
    (rowsFrom 0 128 (by omega) (tab a7)) (rowsFrom 128 128 (by omega) (tab a7)) (asRow (vec a8)) (tab a9) (asRow (vec a10)))

/-- The layer's new positions. -/
def outX (a0 : FVec Ideal S50000x128 .f32) (a1 : FVec Ideal S50000x3 .f32) (a2 : IVec S2x800000 32) (a3 : FVec Ideal S257x128 .f32)
    (a4 : FVec Ideal S128 .f32) (a5 : FVec Ideal S128x128 .f32) (a6 : FVec Ideal S128 .f32)
    (a11 : FVec Ideal S128x128 .f32) (a12 : FVec Ideal S128 .f32) (a13 : FVec Ideal S128x1 .f32) : FVec Ideal S50000x3 .f32 :=
  addf (F := Ideal) a1 (aggX a2 (coordArr a0 a1 a2 a3 a4 a5 a6 a11 a12 a13))

variable (m : (ℓ : Loc nD τ sig) → Buf (Elt Ideal) ℓ) (ρ : Dev nD → PrngReg) (c : Dev nD)

/-- What region 0 leaves as messages, when every edge index is a node number. -/
theorem msg_left (hr : PreIdx.InRange (m ((c.tc : Thread nD τ).loc main_arg2))) :
    (dat0 (F := Ideal) (V8 m ρ) c).arrAt 13 cfg0.N = msgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [EdgeArrays.msg_array]
  unfold EdgeArrays.msgOf msgArr relArr
  rw [HostReads.V8_hsrc, HostReads.V8_hdst, HostReads.V8_dist, HostReads.V8_w1h, HostReads.V8_w1c, HostReads.V8_w1d, HostReads.V8_b1,
    HostReads.V8_w2, HostReads.V8_b2,
    PreIdx.takeH_eq _ _ (PreIdx.inBounds_src _ hr), PreIdx.takeH_eq _ _ (PreIdx.inBounds_dst _ hr),
    PreIdx.takeX_eq _ _ (PreIdx.inBounds_src _ hr), PreIdx.takeX_eq _ _ (PreIdx.inBounds_dst _ hr),
    tab_rows_0, tab_rows_128, tab_rows_256, tab_oneRow, tab_oneRow]

/-- What region 0 leaves as coordinate updates. -/
theorem coord_left (hr : PreIdx.InRange (m ((c.tc : Thread nD τ).loc main_arg2))) :
    (dat0 (F := Ideal) (V8 m ρ) c).arrAt 14 cfg0.N
      = coordArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) := by
  rw [EdgeArrays.coord_array]
  unfold EdgeArrays.coordOf coordArr
  rw [← EdgeArrays.msg_array, msg_left m ρ c hr]
  unfold relArr
  rw [HostReads.V8_rel, HostReads.V8_wc1, HostReads.V8_bc1, HostReads.V8_wc2,
    PreIdx.takeX_eq _ _ (PreIdx.inBounds_src _ hr), PreIdx.takeX_eq _ _ (PreIdx.inBounds_dst _ hr), tab_oneRow]

/-- The first result: the new node features. -/
theorem out0_eq (hr : PreIdx.InRange (m ((c.tc : Thread nD τ).loc main_arg2))) :
    W12 m ρ c (Proc.devRef .tc main_v27)
      = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [HostReadsB.W12_out0, NodeArrays.node_array]
  unfold NodeArrays.nodeOf outH
  rw [HostReadsB.V10_h, HostReadsB.V10_agg, HostReadsB.V10_wh, HostReadsB.V10_wa, HostReadsB.V10_b1, HostReadsB.V10_w2, HostReadsB.V10_b2,
    msg_left m ρ c hr, tab_rows2_0, tab_rows2_128, tab_oneRow, tab_oneRow]

/-- The second result: the new positions. -/
theorem out1_eq (hr : PreIdx.InRange (m ((c.tc : Thread nD τ).loc main_arg2))) :
    W12 m ρ c (Proc.devRef .tc main_v28)
      = outX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) := by
  rw [HostReadsB.W12_out1, coord_left m ρ c hr]
  rfl

end Cert.KernelIdeal.Layer

end
-- ==== Proof.RefSpec.lean ====
/-
  The reference program's stages at the ideal values, read through to the layer's arithmetic (Spec.lean): its edge
  message (a product with the joined feature rows and distance, split along the joined axis into the three parts'
  sums), its coordinate update and its node update (a product with the joined old features and aggregated messages,
  split the same way). The host's `x · (1 / (1 + e^(−x)))` is `silu x`; a bias broadcast along the rows is its entry
  at the column.
-/
import proofs.«415618_j10084583211152_1_alg».proof.Proof.RefRead
import proofs.«415618_j10084583211152_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefSpec

open Cert.ReferenceIdeal Cert.ReferenceIdeal.Gen Cert.ReferenceIdeal.ReadP Cert.EGNN Idealize.ShloMosaic Idealize.ShloMosaic.ValueIdx

/-! ## The host's activation, and the number one -/

/-- The word `0x3F800000` encodes the number one. -/
theorem ofBits_one_f32 : Ideal.ofBits .f32 0x3F800000#32 = 1 := by
  simp [Ideal.ofBits, Ideal.ieee, -EReal.coe_mul]; norm_num

/-- The host's `x · (1 / (1 + e^(−x)))` is `silu x`. -/
theorem silu_host (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x)))) = silu x := by
  show x * FloatOps.hostDivf (Ideal.ofBits .f32 0x3F800000#32)
      (FloatOps.addf (Ideal.ofBits .f32 0x3F800000#32) (FloatOps.hostUnary .exp (FloatOps.hostNegf x))) = x * Ideal.logistic x
  rw [ofBits_one_f32]
  rfl

/-! ## Two arrays joined along the columns, and a product with them split at the joint -/

/-- A column in the first half of the joined rows `[X | A]`: the first part there. -/
theorem cat2_left (X A : (⟨S50000x128, .f32⟩ : BufTy).Contents (Elt Ideal)) (p : Fin 50000) (i : Fin 128) :
    concatenate S50000x256 1 [⟨S50000x128, X⟩, ⟨S50000x128, A⟩] concatenates_S50000x128_S50000x128_S50000x256_d1
      (ix2 p (⟨i.val, by omega⟩ : Fin 256)) = X (ix2 p i) :=
  concatenate_pair_apply_left (t := S50000x256) 1 X A concatenates_S50000x128_S50000x128_S50000x256_d1
    (ix2 p (⟨i.val, by omega⟩ : Fin 256)) rfl (ix2 p i) (fun b => match b with
    | ⟨0, _⟩ => rfl
    | ⟨1, _⟩ => rfl)

/-- A column in the second half: the second part, 128 columns back. -/
theorem cat2_right (X A : (⟨S50000x128, .f32⟩ : BufTy).Contents (Elt Ideal)) (p : Fin 50000) (i : Fin 128) :
    concatenate S50000x256 1 [⟨S50000x128, X⟩, ⟨S50000x128, A⟩] concatenates_S50000x128_S50000x128_S50000x256_d1
      (ix2 p (⟨128 + i.val, by omega⟩ : Fin 256)) = A (ix2 p i) :=
  concatenate_pair_apply_right (t := S50000x256) 1 X A concatenates_S50000x128_S50000x128_S50000x256_d1
    (ix2 p (⟨128 + i.val, by omega⟩ : Fin 256)) rfl rfl (ix2 p i) (fun b hb => match b, hb with
    | ⟨0, _⟩, _ => rfl
    | ⟨1, _⟩, hb => absurd rfl hb) (by show i.val + 128 = 128 + i.val; omega)

/-- The product of the joined rows with a 256-row weight is the sum of the two parts' products with its two halves. -/
theorem sum_cat2 (X A : (⟨S50000x128, .f32⟩ : BufTy).Contents (Elt Ideal)) (W : (⟨S256x128, .f32⟩ : BufTy).Contents (Elt Ideal))
    (p : Fin 50000) (j : Fin 128) :
    (∑ k : Fin 256, concatenate S50000x256 1 [⟨S50000x128, X⟩, ⟨S50000x128, A⟩] concatenates_S50000x128_S50000x128_S50000x256_d1 (ix2 p k) * W (ix2 k j))
      = (∑ i : Fin 128, tab X p i * rowsFrom 0 128 (by omega) (tab W) i j) + (∑ i : Fin 128, tab A p i * rowsFrom 128 128 (by omega) (tab W) i j) := by
  rw [sum_join2]
  refine congr (congrArg _ (Finset.sum_congr rfl fun i _ => ?_)) (Finset.sum_congr rfl fun i _ => ?_)
  · rw [cat2_left]
    refine congrArg (X (ix2 p i) * ·) ?_
    unfold rowsFrom
    exact congrArg (fun r => W (ix2 r j)) (Fin.ext (Nat.zero_add _).symm)
  · rw [cat2_right]
    rfl

/-! ## Three arrays joined along the columns, and a product with them split at the two joints -/
/-- A column among the first 128 of the joined rows `[P | Q | D]`: the first part there. -/
theorem cat3_fst (P Q : (⟨S800000x128, .f32⟩ : BufTy).Contents (Elt Ideal)) (D : (⟨S800000x1, .f32⟩ : BufTy).Contents (Elt Ideal))
    (e : Fin 800000) (i : Fin 128) :
    concatenate S800000x257 1 [⟨S800000x128, P⟩, ⟨S800000x128, Q⟩, ⟨S800000x1, D⟩] concatenates_S800000x128_S800000x128_S800000x1_S800000x257_d1
      (ix2 e (⟨i.val, by omega⟩ : Fin 257)) = P (ix2 e i) :=
  concatenate_apply_piece (t := S800000x257) 1 ([⟨S800000x128, P⟩, ⟨S800000x128, Q⟩, ⟨S800000x1, D⟩] : List ((s : Shape) × (s.Idx → Elt Ideal .f32))) concatenates_S800000x128_S800000x128_S800000x1_S800000x257_d1 (ix2 e (⟨i.val, by omega⟩ : Fin 257))
    0 (by show 0 < 3; omega) S800000x128 P rfl rfl 0 rfl (ix2 e i) (fun b hb => match b, hb with
      | ⟨0, _⟩, _ => rfl
      | ⟨1, _⟩, hb => absurd rfl hb) (by show 0 + i.val = i.val; omega)

/-- A column among the next 128: the second part, 128 columns back. -/
theorem cat3_snd (P Q : (⟨S800000x128, .f32⟩ : BufTy).Contents (Elt Ideal)) (D : (⟨S800000x1, .f32⟩ : BufTy).Contents (Elt Ideal))
    (e : Fin 800000) (i : Fin 128) :
    concatenate S800000x257 1 [⟨S800000x128, P⟩, ⟨S800000x128, Q⟩, ⟨S800000x1, D⟩] concatenates_S800000x128_S800000x128_S800000x1_S800000x257_d1
      (ix2 e (⟨128 + i.val, by omega⟩ : Fin 257)) = Q (ix2 e i) :=
  concatenate_apply_piece (t := S800000x257) 1 ([⟨S800000x128, P⟩, ⟨S800000x128, Q⟩, ⟨S800000x1, D⟩] : List ((s : Shape) × (s.Idx → Elt Ideal .f32))) concatenates_S800000x128_S800000x128_S800000x1_S800000x257_d1 (ix2 e (⟨128 + i.val, by omega⟩ : Fin 257))
    1 (by show 1 < 3; omega) S800000x128 Q rfl rfl 128 rfl (ix2 e i) (fun b hb => match b, hb with
      | ⟨0, _⟩, _ => rfl
      | ⟨1, _⟩, hb => absurd rfl hb) rfl

/-- The last column: the third part's one column. -/
theorem cat3_last (P Q : (⟨S800000x128, .f32⟩ : BufTy).Contents (Elt Ideal)) (D : (⟨S800000x1, .f32⟩ : BufTy).Contents (Elt Ideal))
    (e : Fin 800000) :
    concatenate S800000x257 1 [⟨S800000x128, P⟩, ⟨S800000x128, Q⟩, ⟨S800000x1, D⟩] concatenates_S800000x128_S800000x128_S800000x1_S800000x257_d1
      (ix2 e (⟨256, by omega⟩ : Fin 257)) = D (ix2 e 0) :=
  concatenate_apply_piece (t := S800000x257) 1 ([⟨S800000x128, P⟩, ⟨S800000x128, Q⟩, ⟨S800000x1, D⟩] : List ((s : Shape) × (s.Idx → Elt Ideal .f32))) concatenates_S800000x128_S800000x128_S800000x1_S800000x257_d1 (ix2 e (⟨256, by omega⟩ : Fin 257))
    2 (by show 2 < 3; omega) S800000x1 D rfl rfl 256 rfl (ix2 e 0) (fun b hb => match b, hb with
      | ⟨0, _⟩, _ => rfl
      | ⟨1, _⟩, hb => absurd rfl hb) rfl

/-- The product of the joined rows with a 257-row weight, split at the two joints. -/
theorem sum_cat3 (P Q : (⟨S800000x128, .f32⟩ : BufTy).Contents (Elt Ideal)) (D : (⟨S800000x1, .f32⟩ : BufTy).Contents (Elt Ideal))
    (W : (⟨S257x128, .f32⟩ : BufTy).Contents (Elt Ideal)) (e : Fin 800000) (k : Fin 128) :
    (∑ c : Fin 257, concatenate S800000x257 1 [⟨S800000x128, P⟩, ⟨S800000x128, Q⟩, ⟨S800000x1, D⟩] concatenates_S800000x128_S800000x128_S800000x1_S800000x257_d1 (ix2 e c) * W (ix2 c k))
      = ((∑ i : Fin 128, tab P e i * rowsFrom 0 128 (by omega) (tab W) i k)
          + (∑ i : Fin 128, tab Q e i * rowsFrom 128 128 (by omega) (tab W) i k))
        + tab D e 0 * rowsFrom 256 1 (by omega) (tab W) 0 k := by
  rw [sum_join3]
  refine congr (congrArg _ (congr (congrArg _ (Finset.sum_congr rfl fun i _ => ?_)) (Finset.sum_congr rfl fun i _ => ?_))) ?_
  · rw [cat3_fst]
    refine congrArg (P (ix2 e i) * ·) ?_
    unfold rowsFrom
    exact congrArg (fun r => W (ix2 r k)) (Fin.ext (Nat.zero_add _).symm)
  · rw [cat3_snd]
    rfl
  · rw [cat3_last]
    rfl

/-- The reference's edge messages are `edgeMsg` of its gathered rows, its distances and the argument weights. -/
theorem ref_msg (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v43 (F := Ideal) x0 x1 x2 x3 x4 x5 x6
      = untab (edgeMsg (tab (val_main_v26 (F := Ideal) x0 x2)) (tab (val_main_v33 (F := Ideal) x0 x2)) (tab (val_main_v19 (F := Ideal) x1 x2))
          (rowsFrom 0 128 (by omega) (tab x3)) (rowsFrom 128 128 (by omega) (tab x3)) (rowsFrom 256 1 (by omega) (tab x3))
          (asRow (vec x4)) (tab x5) (asRow (vec x6))) := by
  funext i
  obtain ⟨e, j, rfl⟩ : ∃ (e : Fin 800000) (j : Fin 128), i = ix2 e j := ⟨i 0, i 1, eq_ix2 i⟩
  -- the first layer before its activation, at edge `e` and column `k`
  have h38 : ∀ k : Fin 128, val_main_v38 (F := Ideal) x0 x1 x2 x3 x4 (ix2 e k)
      = (((∑ i : Fin 128, tab (val_main_v26 (F := Ideal) x0 x2) e i * rowsFrom 0 128 (by omega) (tab x3) i k)
            + (∑ i : Fin 128, tab (val_main_v33 (F := Ideal) x0 x2) e i * rowsFrom 128 128 (by omega) (tab x3) i k))
          + tab (val_main_v19 (F := Ideal) x1 x2) e 0 * rowsFrom 256 1 (by omega) (tab x3) 0 k)
        + asRow (vec x4) 0 k := by
    intro k
    show val_main_v35 (F := Ideal) x0 x1 x2 x3 (ix2 e k) + val_main_v37 (F := Ideal) x4 (ix2 e k) = _
    rw [val_main_v35_apply, val_main_v37_apply, val_main_v36_apply]
    unfold val_main_v34
    generalize val_main_v26 (F := Ideal) x0 x2 = P
    generalize val_main_v33 (F := Ideal) x0 x2 = Q
    generalize val_main_v19 (F := Ideal) x1 x2 = D
    refine congr (congrArg _ ?_) ?_
    · refine Eq.trans (Finset.sum_congr rfl fun c _ => ?_) (sum_cat3 P Q D x3 e k)
      rw [show lidx_main_v35 (ix2 e k) c = ix2 e c from Shape.idx_ext₂ rfl rfl,
        show ridx_main_v35 (ix2 e k) c = ix2 c k from Shape.idx_ext₂ rfl rfl]
    · exact congrArg x4 (by funext a; match a with | ⟨0, _⟩ => rfl)
  show val_main_v40 (F := Ideal) x0 x1 x2 x3 x4 x5 (ix2 e j) + val_main_v42 (F := Ideal) x6 (ix2 e j) = _
  rw [val_main_v40_apply, val_main_v42_apply, val_main_v41_apply]
  refine congrArg₂ (· + ·) (Finset.sum_congr rfl fun k _ => ?_) ?_
  · rw [show lidx_main_v40 (ix2 e j) k = ix2 e k from Shape.idx_ext₂ rfl rfl,
      show ridx_main_v40 (ix2 e j) k = ix2 k j from Shape.idx_ext₂ rfl rfl]
    refine congrArg (· * x5 (ix2 k j)) ?_
    rw [val_main_v39_apply, val_main_call1_v5_apply, val_main_call1_v4_apply, val_main_call1_v3_apply, val_main_call1_v2_apply]
    exact (silu_host _).trans (congrArg silu (h38 k))
  · exact congrArg x6 (by funext a; match a with | ⟨0, _⟩ => rfl)

/-- The reference's coordinate updates are `coordDiff` of its relative positions and its edge messages. -/
theorem ref_coord (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v65 (F := Ideal) x0 x1 x2 x3 x4 x5 x6 x11 x12 x13
      = untab (coordDiff (tab (val_main_v18 (F := Ideal) x1 x2)) (tab (val_main_v43 (F := Ideal) x0 x1 x2 x3 x4 x5 x6))
          (tab x11) (asRow (vec x12)) (tab x13)) := by
  funext i
  obtain ⟨e, d, rfl⟩ : ∃ (e : Fin 800000) (d : Fin 3), i = ix2 e d := ⟨i 0, i 1, eq_ix2 i⟩
  show val_main_v18 (F := Ideal) x1 x2 (ix2 e d) * val_main_v64 (F := Ideal) x0 x1 x2 x3 x4 x5 x6 x11 x12 x13 (ix2 e d) = _
  rw [val_main_v64_apply, val_main_v63_apply]
  refine congrArg (val_main_v18 (F := Ideal) x1 x2 (ix2 e d) * ·) (Finset.sum_congr rfl fun k _ => ?_)
  rw [show lidx_main_v63 (idx_main_v64 (ix2 e d)) k = ix2 e k from Shape.idx_ext₂ rfl rfl,
    show ridx_main_v63 (idx_main_v64 (ix2 e d)) k = ix2 k 0 from Shape.idx_ext₂ rfl rfl]
  refine congrArg (· * x13 (ix2 k 0)) ?_
  rw [val_main_v62_apply, val_main_call3_v5_apply, val_main_call3_v4_apply, val_main_call3_v3_apply, val_main_call3_v2_apply]
  refine (silu_host _).trans (congrArg silu ?_)
  show val_main_v58 (F := Ideal) x0 x1 x2 x3 x4 x5 x6 x11 (ix2 e k) + val_main_v60 (F := Ideal) x12 (ix2 e k) = _
  rw [val_main_v58_apply, val_main_v60_apply, val_main_v59_apply]
  generalize val_main_v43 (F := Ideal) x0 x1 x2 x3 x4 x5 x6 = M
  refine congrArg₂ (· + ·) (Finset.sum_congr rfl fun i _ => ?_) ?_
  · rw [show lidx_main_v58 (ix2 e k) i = ix2 e i from Shape.idx_ext₂ rfl rfl,
      show ridx_main_v58 (ix2 e k) i = ix2 i k from Shape.idx_ext₂ rfl rfl]
  · exact congrArg x12 (by funext a; match a with | ⟨0, _⟩ => rfl)

/-- The reference's new node features are `nodeNew` of the old ones and its aggregated messages. -/
theorem ref_node (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v57 (F := Ideal) x0 x1 x2 x3 x4 x5 x6 x7 x8 x9 x10
      = untab (nodeNew (tab x0) (tab (val_main_v46 (F := Ideal) x0 x1 x2 x3 x4 x5 x6))
          (rowsFrom 0 128 (by omega) (tab x7)) (rowsFrom 128 128 (by omega) (tab x7)) (asRow (vec x8)) (tab x9) (asRow (vec x10))) := by
  funext i
  obtain ⟨p, j, rfl⟩ : ∃ (p : Fin 50000) (j : Fin 128), i = ix2 p j := ⟨i 0, i 1, eq_ix2 i⟩
  -- the first layer before its activation, at row `p` and column `k`
  have h51 : ∀ k : Fin 128, val_main_v51 (F := Ideal) x0 x1 x2 x3 x4 x5 x6 x7 x8 (ix2 p k)
      = ((∑ i : Fin 128, tab x0 p i * rowsFrom 0 128 (by omega) (tab x7) i k)
          + (∑ i : Fin 128, tab (val_main_v46 (F := Ideal) x0 x1 x2 x3 x4 x5 x6) p i * rowsFrom 128 128 (by omega) (tab x7) i k))
        + asRow (vec x8) 0 k := by
    intro k
    show val_main_v48 (F := Ideal) x0 x1 x2 x3 x4 x5 x6 x7 (ix2 p k) + val_main_v50 (F := Ideal) x8 (ix2 p k) = _
    rw [val_main_v48_apply, val_main_v50_apply, val_main_v49_apply]
    unfold val_main_v47
    generalize val_main_v46 (F := Ideal) x0 x1 x2 x3 x4 x5 x6 = A
    refine congr (congrArg _ ?_) ?_
    · refine Eq.trans (Finset.sum_congr rfl fun c _ => ?_) (sum_cat2 x0 A x7 p k)
      rw [show lidx_main_v48 (ix2 p k) c = ix2 p c from Shape.idx_ext₂ rfl rfl,
        show ridx_main_v48 (ix2 p k) c = ix2 c k from Shape.idx_ext₂ rfl rfl]
    · exact congrArg x8 (by funext a; match a with | ⟨0, _⟩ => rfl)
  show x0 (ix2 p j) + (val_main_v53 (F := Ideal) x0 x1 x2 x3 x4 x5 x6 x7 x8 x9 (ix2 p j) + val_main_v55 (F := Ideal) x10 (ix2 p j)) = _
  rw [val_main_v53_apply, val_main_v55_apply, val_main_v54_apply]
  refine congrArg (x0 (ix2 p j) + ·) (congrArg₂ (· + ·) (Finset.sum_congr rfl fun k _ => ?_) ?_)
  · rw [show lidx_main_v53 (ix2 p j) k = ix2 p k from Shape.idx_ext₂ rfl rfl,
      show ridx_main_v53 (ix2 p j) k = ix2 k j from Shape.idx_ext₂ rfl rfl]
    refine congrArg (· * x9 (ix2 k j)) ?_
    rw [val_main_v52_apply, val_main_call2_v5_apply, val_main_call2_v4_apply, val_main_call2_v3_apply, val_main_call2_v2_apply]
    exact (silu_host _).trans (congrArg silu (h51 k))
  · exact congrArg x10 (by funext a; match a with | ⟨0, _⟩ => rfl)

end Cert.ReferenceIdeal.RefSpec

end
-- ==== Proof.RefLayer.lean ====
/-
  The reference program's two results are the same functions of the argument arrays as the kernel program's: the two
  programs spell the same host operations (the edge list's rows, the numpy-style wrap, the gathers, the relative
  positions and their norms, the scatter-adds), and the reference's three dense stages are the layer's arithmetic.
-/
import proofs.«415618_j10084583211152_1_alg».proof.Proof.RefSpec
import proofs.«415618_j10084583211152_1_alg».proof.Proof.KernelLayer

noncomputable section

open scoped BigOperators

namespace Cert.ReferenceIdeal.Layer

open Cert.ReferenceIdeal Cert.ReferenceIdeal.Gen Cert.ReferenceIdeal.ReadP Cert.EGNN Idealize.ShloMosaic Idealize.ShloMosaic.ValueIdx Idealize.ShloMosaic.TcCoe
open Idealize.SL.Sem

/-! ## The shared host operations, spelt by the two programs alike -/

theorem hsrc_eq (x0 : (⟨S50000x128, .f32⟩ : BufTy).Contents (Elt Ideal)) (x2 : (⟨S2x800000, .i32⟩ : BufTy).Contents (Elt Ideal)) :
    val_main_v26 (F := Ideal) x0 x2 = Cert.KernelIdeal.Glue.gatherH (F := Ideal) x0 (Cert.KernelIdeal.Glue.wrapped (Cert.KernelIdeal.Glue.srcIdx x2)) := rfl

theorem hdst_eq (x0 : (⟨S50000x128, .f32⟩ : BufTy).Contents (Elt Ideal)) (x2 : (⟨S2x800000, .i32⟩ : BufTy).Contents (Elt Ideal)) :
    val_main_v33 (F := Ideal) x0 x2 = Cert.KernelIdeal.Glue.gatherH (F := Ideal) x0 (Cert.KernelIdeal.Glue.wrapped (Cert.KernelIdeal.Glue.dstIdx x2)) := rfl

theorem rel_eq (x1 : (⟨S50000x3, .f32⟩ : BufTy).Contents (Elt Ideal)) (x2 : (⟨S2x800000, .i32⟩ : BufTy).Contents (Elt Ideal)) :
    val_main_v18 (F := Ideal) x1 x2 = Cert.KernelIdeal.Layer.relArr x1 x2 := rfl

theorem dist_eq (x1 : (⟨S50000x3, .f32⟩ : BufTy).Contents (Elt Ideal)) (x2 : (⟨S2x800000, .i32⟩ : BufTy).Contents (Elt Ideal)) :
    val_main_v19 (F := Ideal) x1 x2 = Cert.KernelIdeal.Glue.norm3 (F := Ideal) (Cert.KernelIdeal.Layer.relArr x1 x2) := rfl

/-! ## The three dense stages -/

theorem msg_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v43 (F := Ideal) x0 x1 x2 x3 x4 x5 x6 = Cert.KernelIdeal.Layer.msgArr x0 x1 x2 x3 x4 x5 x6 := by
  rw [RefSpec.ref_msg, hsrc_eq, hdst_eq, dist_eq]
  rfl

theorem coord_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v65 (F := Ideal) x0 x1 x2 x3 x4 x5 x6 x11 x12 x13 = Cert.KernelIdeal.Layer.coordArr x0 x1 x2 x3 x4 x5 x6 x11 x12 x13 := by
  rw [RefSpec.ref_coord, msg_eq, rel_eq]
  rfl

theorem agg_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v46 (F := Ideal) x0 x1 x2 x3 x4 x5 x6 = Cert.KernelIdeal.Glue.aggH (F := Ideal) x2 (Cert.KernelIdeal.Layer.msgArr x0 x1 x2 x3 x4 x5 x6) := by
  unfold val_main_v46
  rw [msg_eq]
  rfl

theorem outH_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v57 (F := Ideal) x0 x1 x2 x3 x4 x5 x6 x7 x8 x9 x10 = Cert.KernelIdeal.Layer.outH x0 x1 x2 x3 x4 x5 x6 x7 x8 x9 x10 := by
  rw [RefSpec.ref_node, agg_eq]
  rfl

theorem outX_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) :
    val_main_v69 (F := Ideal) x0 x1 x2 x3 x4 x5 x6 x11 x12 x13 = Cert.KernelIdeal.Layer.outX x0 x1 x2 x3 x4 x5 x6 x11 x12 x13 := by
  unfold val_main_v69 val_main_v68
  rw [coord_eq]
  rfl

end Cert.ReferenceIdeal.Layer

end
-- ==== Proof.lean ====
/-
  The certificate of the EGNN layer: the Pallas program (an edge kernel and a node kernel among host gathers and
  scatter-adds) against its jnp reference, over the extended reals, for edge lists whose every entry is a node number.
  The three frames are the generated ones (the reference's is its run, read back operation by operation, with the results dropped); nothing
  was rewritten by the ideal pass, so `preserves` is trivial. For `algebraic`, both programs' results are the
  functions `outH` and `outX` of the argument arrays (Proof/KernelLayer.lean): the kernel program's by its run with the
  results named, each region's array read as the layer's arithmetic of the arrays it was entered with and the host
  operations read back to the arguments (there the in-range precondition turns the filling take into the plain
  gather); the reference's by its run, its dense stages read as the same arithmetic (a product with a
  joined operand split into the parts' sums) and its host operations spelt as the kernel program's.
-/
import proofs.«415618_j10084583211152_1_alg».proof.Defs
import proofs.«415618_j10084583211152_1_alg».proof.Proof.Gen.Kernel
import proofs.«415618_j10084583211152_1_alg».proof.Proof.Gen.Kernel.Skeleton
import proofs.«415618_j10084583211152_1_alg».proof.Proof.Gen.Kernel.Launch
import proofs.«415618_j10084583211152_1_alg».proof.Proof.Gen.Kernel.Points
import proofs.«415618_j10084583211152_1_alg».proof.Proof.Gen.Kernel.Frame
import proofs.«415618_j10084583211152_1_alg».proof.Proof.Gen.KernelIdeal
import proofs.«415618_j10084583211152_1_alg».proof.Proof.Gen.KernelIdeal.Skeleton
import proofs.«415618_j10084583211152_1_alg».proof.Proof.Gen.KernelIdeal.Launch
import proofs.«415618_j10084583211152_1_alg».proof.Proof.Gen.KernelIdeal.Points
import proofs.«415618_j10084583211152_1_alg».proof.Proof.Gen.KernelIdeal.Frame
import proofs.«415618_j10084583211152_1_alg».proof.Proof.Gen.ReferenceIdeal
import proofs.«415618_j10084583211152_1_alg».proof.Proof.Gen.Pre_finite_inputs
import proofs.«415618_j10084583211152_1_alg».proof.Proof.RefRun
import proofs.«415618_j10084583211152_1_alg».proof.Proof.KernelRun
import proofs.«415618_j10084583211152_1_alg».proof.Proof.KernelLayer
import proofs.«415618_j10084583211152_1_alg».proof.Proof.RefLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the new node features at `outH` and the new positions at `outX` of the arguments. -/
theorem algebraic : Cert.algebraic_KernelIdeal_ReferenceIdeal := by
  intro m ρ m' ρ' hpre hagree
  refine ⟨fun c => Cert.KernelIdeal.Layer.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Layer.outX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.KernelIdeal.Layer.out0_eq m ρ c (Cert.KernelIdeal.PreIdx.inRange_of_pre m hpre c)),
       (h c).2.1.trans (Cert.KernelIdeal.Layer.out1_eq m ρ c (Cert.KernelIdeal.PreIdx.inRange_of_pre m hpre c)),
       (h c).2.2⟩) (Cert.KernelIdeal.Gen.run_named (F := Ideal) m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13⟩ := hagree c
    refine ⟨(h c).1.trans ((Cert.ReferenceIdeal.Layer.outH_eq _ _ _ _ _ _ _ _ _ _ _).trans ?_),
      (h c).2.1.trans ((Cert.ReferenceIdeal.Layer.outX_eq _ _ _ _ _ _ _ _ _ _).trans ?_), (h c).2.2⟩
    · rw [e0, e1, e2, e3, e4, e5, e6, e7, e8, e9, e10]
    · rw [e0, e1, e2, e3, e4, e5, e6, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
